-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.truncf_extf.Statement Cert.KernelIdeal.S2000x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S64x64 : Shape := ⟨2, ![64, 64]⟩
abbrev S500000 : Shape := ⟨1, ![500000]⟩
abbrev S448x512 : Shape := ⟨2, ![448, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S448x512 : S_.BroadcastsInDim S448x512 (![] : Fin 0 → Fin S448x512.rank)
  reducesTo_S448x512_S_d0_1 : S448x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg4 : IVec S500000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S500000 32 := broadcastInDim S500000 ![] bcast_S_S500000 main_c_20
  let main_v55 : IVec S500000 1 := cmpi .sge main_arg4 main_v54
  let main_c_21 : IVec S_ 32 := constantI S_ 32 64#32
  let main_v56 : IVec S500000 32 := broadcastInDim S500000 ![] bcast_S_S500000 main_c_21
  let main_v57 : IVec S500000 1 := cmpi .slt main_arg4 main_v56
  let main_v58 : IVec S500000 1 := andi main_v55 main_v57
  let main_c_22 : IVec S_ 1 := constantI S_ 1 1#1
  let main_v59 : IVec S_ 1 := (fun x v => Host.reduce IntOp.andi x v reducesTo_S500000_S_d0 h_S_) main_v58 main_c_22
  let main_v60 : IVec S_ 1 := andi main_v53 main_v59
  main_v60

def fn_part2 {F : FTy → Type} [FloatOps F] (main_arg4 : IVec S500000 32) (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg4 main_v48 main_v49 main_v50

def fn_part1 {F : FTy → Type} [FloatOps F] (main_arg4 : IVec S500000 32) (main_arg5 : FVec F S448x512 .f32) (main_arg6 : FVec F S512 .f32) (main_arg7 : FVec F S512x128 .f32) (main_arg8 : FVec F S128 .f32) (main_arg9 : FVec F S128 .f32) (main_arg10 : FVec F S128 .f32) (main_arg11 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S448x512 .f32 := Host.absf main_arg5
  let main_cst_6 : FVec F S_ .f32 := constant S_ .f32 0x7F800000#32
  let main_v20 : FVec F S448x512 .f32 := broadcastInDim S448x512 ![] bcast_S_S448x512 main_cst_6
  let main_v21 : IVec S448x512 1 := cmpf .olt main_v19 main_v20
  let main_c_7 : IVec S_ 1 := constantI S_ 1 1#1
  let main_v22 : IVec S_ 1 := (fun x v => Host.reduce IntOp.andi x v reducesTo_S448x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg4 main_arg8 main_arg9 main_arg10 main_arg11 main_v33

def fn {F : FTy → Type} [FloatOps F] (main_arg0 : FVec F S500000x128 .f32) (main_arg1 : FVec F S500000x128 .f32) (main_arg2 : FVec F S500000x128 .f32) (main_arg3 : FVec F S64x64 .f32) (main_arg4 : IVec S500000 32) (main_arg5 : FVec F S448x512 .f32) (main_arg6 : FVec F S512 .f32) (main_arg7 : FVec F S512x128 .f32) (main_arg8 : FVec F S128 .f32) (main_arg9 : FVec F S128 .f32) (main_arg10 : FVec F S128 .f32) (main_arg11 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x128 .f32 := Host.absf main_arg2
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_v13 main_v16
-- ==== Kernel.lean ====
abbrev S500000x128 : Shape := ⟨2, ![500000, 128]⟩
abbrev S64x64 : Shape := ⟨2, ![64, 64]⟩
abbrev S500000 : Shape := ⟨1, ![500000]⟩
abbrev S448x512 : Shape := ⟨2, ![448, 512]⟩
abbrev S512 : Shape := ⟨1, ![512]⟩
abbrev S512x128 : Shape := ⟨2, ![512, 128]⟩
abbrev S128 : Shape := ⟨1, ![128]⟩
abbrev S500000x1 : Shape := ⟨2, ![500000, 1]⟩
abbrev S1x512 : Shape := ⟨2, ![1, 512]⟩
abbrev S1x128 : Shape := ⟨2, ![1, 128]⟩
abbrev S128x256 : Shape := ⟨2, ![128, 256]⟩
abbrev S128x128 : Shape := ⟨2, ![128, 128]⟩
abbrev S2000x128 : Shape := ⟨2, ![2000, 128]⟩
abbrev S2000x1 : Shape := ⟨2, ![2000, 1]⟩
abbrev S64x256 : Shape := ⟨2, ![64, 256]⟩
abbrev S64x128 : Shape := ⟨2, ![64, 128]⟩
abbrev S2000x64 : Shape := ⟨2, ![2000, 64]⟩
abbrev S2000x448 : Shape := ⟨2, ![2000, 448]⟩
abbrev S2000x512 : Shape := ⟨2, ![2000, 512]⟩
abbrev S2000x256 : Shape := ⟨2, ![2000, 256]⟩
abbrev S64x1 : Shape := ⟨2, ![64, 1]⟩
abbrev S_ : Shape := ⟨0, ![]⟩

abbrev nBuf : Space → Nat
  | .hbm => 67
  | .vmem => 27
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S64x64, .f32⟩
  | .hbm, ⟨4, _⟩ => ⟨S500000, .i32⟩
  | .hbm, ⟨5, _⟩ => ⟨S448x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S500000x1, .i32⟩
  | .hbm, ⟨13, _⟩ => ⟨S1x512, .f32⟩
  | .hbm, ⟨14, _⟩ => ⟨S1x128, .f32⟩
  | .hbm, ⟨15, _⟩ => ⟨S448x512, .bf16⟩
  | .hbm, ⟨16, _⟩ => ⟨S512x128, .bf16⟩
  | .hbm, ⟨17, _⟩ => ⟨S500000x128, .f32⟩
  | .hbm, ⟨18, _⟩ => ⟨S128x256, .f32⟩
  | .hbm, ⟨19, _⟩ => ⟨S128x128, .f32⟩
  | .hbm, ⟨20, _⟩ => ⟨S64x256, .f32⟩
  | .hbm, ⟨21, _⟩ => ⟨S64x256, .f32⟩
  | .hbm, ⟨22, _⟩ => ⟨S64x256, .f32⟩
  | .hbm, ⟨23, _⟩ => ⟨S64x128, .f32⟩
  | .hbm, ⟨24, _⟩ => ⟨S64x128, .f32⟩
  | .hbm, ⟨25, _⟩ => ⟨S64x1, .f32⟩
  | .hbm, ⟨26, _⟩ => ⟨S64x1, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S64x128, .f32⟩
  | .hbm, ⟨32, _⟩ => ⟨S64x128, .f32⟩
  | .hbm, ⟨33, _⟩ => ⟨S64x128, .f32⟩
  | .hbm, ⟨34, _⟩ => ⟨S64x128, .f32⟩
  | .hbm, ⟨35, _⟩ => ⟨S1x128, .f32⟩
  | .hbm, ⟨36, _⟩ => ⟨S64x128, .f32⟩
  | .hbm, ⟨37, _⟩ => ⟨S64x128, .f32⟩
  | .hbm, ⟨38, _⟩ => ⟨S64x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S64x128, .f32⟩
  | .hbm, ⟨43, _⟩ => ⟨S64x128, .f32⟩
  | .hbm, ⟨44, _⟩ => ⟨S64x128, .f32⟩
  | .hbm, ⟨45, _⟩ => ⟨S_, .f32⟩
  | .hbm, ⟨46, _⟩ => ⟨S64x128, .f32⟩
  | .hbm, ⟨47, _⟩ => ⟨S64x128, .f32⟩
  | .hbm, ⟨48, _⟩ => ⟨S_, .f32⟩
  | .hbm, ⟨49, _⟩ => ⟨S64x128, .f32⟩
  | .hbm, ⟨50, _⟩ => ⟨S64x128, .f32⟩
  | .hbm, ⟨51, _⟩ => ⟨S64x128, .f32⟩
  | .hbm, ⟨52, _⟩ => ⟨S1x128, .f32⟩
  | .hbm, ⟨53, _⟩ => ⟨S1x128, .f32⟩
  | .hbm, ⟨54, _⟩ => ⟨S64x128, .f32⟩
  | .hbm, ⟨55, _⟩ => ⟨S64x128, .f32⟩
  | .hbm, ⟨56, _⟩ => ⟨S64x128, .f32⟩
  | .hbm, ⟨57, _⟩ => ⟨S64x128, .f32⟩
  | .hbm, ⟨58, _⟩ => ⟨S64x128, .f32⟩
  | .hbm, ⟨59, _⟩ => ⟨S64x128, .f32⟩
  | .hbm, ⟨60, _⟩ => ⟨S64x128, .f32⟩
  | .hbm, ⟨61, _⟩ => ⟨S64x256, .f32⟩
  | .hbm, ⟨62, _⟩ => ⟨S64x256, .bf16⟩
  | .hbm, ⟨63, _⟩ => ⟨S64x256, .f32⟩
  | .hbm, ⟨64, _⟩ => ⟨S64x256, .f32⟩
  | .hbm, ⟨65, _⟩ => ⟨S64x256, .bf16⟩
  | .hbm, ⟨66, _⟩ => ⟨S500000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .i32⟩
  | .local _ .vmem, ⟨7, _⟩ => ⟨S2000x1, .i32⟩
  | .local _ .vmem, ⟨8, _⟩ => ⟨S64x64, .f32⟩
  | .local _ .vmem, ⟨9, _⟩ => ⟨S448x512, .bf16⟩
  | .local _ .vmem, ⟨10, _⟩ => ⟨S1x512, .f32⟩
  | .local _ .vmem, ⟨11, _⟩ => ⟨S512x128, .bf16⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S64x256, .f32⟩
  | .local _ .vmem, ⟨16, _⟩ => ⟨S64x256, .f32⟩
  | .local _ .vmem, ⟨17, _⟩ => ⟨S64x128, .f32⟩
  | .local _ .vmem, ⟨18, _⟩ => ⟨S64x128, .f32⟩
  | .local _ .vmem, ⟨19, _⟩ => ⟨S2000x128, .f32⟩
  | .local _ .vmem, ⟨20, _⟩ => ⟨S2000x128, .f32⟩
  | .local _ .vmem, ⟨21, _⟩ => ⟨S2000x1, .i32⟩
  | .local _ .vmem, ⟨22, _⟩ => ⟨S2000x1, .i32⟩
  | .local _ .vmem, ⟨23, _⟩ => ⟨S64x256, .bf16⟩
  | .local _ .vmem, ⟨24, _⟩ => ⟨S64x256, .bf16⟩
  | .local _ .vmem, ⟨25, _⟩ => ⟨S2000x128, .f32⟩
  | .local _ .vmem, ⟨26, _⟩ => ⟨S2000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg4_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem4_1 : DmaSem sig := 26

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S448x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S500000_S500000x1 : S500000.ShapeCasts S500000x1
  shapeCasts_S512_S1x512 : S512.ShapeCasts S1x512
  shapeCasts_S128_S1x128 : S128.ShapeCasts S1x128
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  inb_S64x64_S64x64_0_0 : ∀ a, (![0, 0] : Fin 2 → Nat) a + S64x64.size a ≤ S64x64.size a
  h_S64x64 : 0 < S64x64.numel
  concatenates_S2000x128_S2000x128_S2000x128_S2000x64_S2000x448_d1 : Shape.Concatenates [S2000x128, S2000x128, S2000x128, S2000x64] S2000x448 1
  inb_S448x512_S448x512_0_0 : ∀ a, (![0, 0] : Fin 2 → Nat) a + S448x512.size a ≤ S448x512.size a
  h_S448x512 : 0 < S448x512.numel
  shapeCasts_S448x512_S448x512 : S448x512.ShapeCasts S448x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S2000x128_S2000x128_S2000x256_d1 : Shape.Concatenates [S2000x128, S2000x128] S2000x256 1
  shapeCasts_S64x256_S64x256 : S64x256.ShapeCasts S64x256
  shapeCasts_S64x128_S64x128 : S64x128.ShapeCasts S64x128
  slices_S128x256_S64x256_0_0 : S128x256.Slices ![0, 0] S64x256
  slices_S128x256_S64x256_64_0 : S128x256.Slices ![64, 0] S64x256
  slices_S64x256_S64x128_0_0 : S64x256.Slices ![0, 0] S64x128
  slices_S64x256_S64x128_0_128 : S64x256.Slices ![0, 128] S64x128
  slices_S128x128_S64x1_0_0 : S128x128.Slices ![0, 0] S64x1
  slices_S128x128_S64x1_64_0 : S128x128.Slices ![64, 0] S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S_S1x128 : S_.BroadcastsInDim S1x128 (![] : Fin 0 → Fin S1x128.rank)
  bcast_S_S64x128 : S_.BroadcastsInDim S64x128 (![] : Fin 0 → Fin S64x128.rank)
  concatenates_S64x128_S64x128_S64x256_d1 : Shape.Concatenates [S64x128, S64x128] S64x256 1
  slices_S2000x256_o0_0_S2000x128 : S2000x256.Slices ![0, 0] S2000x128
  slices_S2000x256_o0_128_S2000x128 : S2000x256.Slices ![0, 128] S2000x128
  shapeCasts_S2000x128_S2000x128 : S2000x128.ShapeCasts S2000x128
  dot_S2000x64_S64x64_S2000x64_1_0_0_1_n_n_wf : DotDims.WF S2000x64 S64x64 S2000x64 [1] [0] [0] [1] [] []
  dot_S2000x448_S448x512_S2000x512_1_0_0_1_n_n_wf : DotDims.WF S2000x448 S448x512 S2000x512 [1] [0] [0] [1] [] []
  dot_S2000x512_S512x128_S2000x128_1_0_0_1_n_n_wf : DotDims.WF S2000x512 S512x128 S2000x128 [1] [0] [0] [1] [] []
  dot_S2000x64_S2000x256_S64x256_0_0_1_1_n_n_wf : DotDims.WF S2000x64 S2000x256 S64x256 [0] [0] [1] [1] [] []
  dot_S2000x64_S2000x128_S64x128_0_0_1_1_n_n_wf : DotDims.WF S2000x64 S2000x128 S64x128 [0] [0] [1] [1] [] []
  dot_S2000x64_S64x256_S2000x256_1_0_0_1_n_n_wf : DotDims.WF S2000x64 S64x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .f32 = 32 ∨ (Rect.block (s := S500000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S500000x1.size a
  hwx0_3 : ∀ i : grid0.Coords, EltTy.bits .i32 = 32 ∨ (Rect.block (s := S500000x1) S2000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S448x512.size a ≤ S448x512.size a
  hwx0_5 : ∀ i : grid0.Coords, EltTy.bits .bf16 = 32 ∨ (Rect.block (s := S448x512) S448x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .bf16 = 32 ∨ (Rect.block (s := S512x128) S512x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S500000x128.size a
  hwx0_9 : ∀ i : grid0.Coords, EltTy.bits .f32 = 32 ∨ (Rect.block (s := S500000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x256.size a ≤ S128x256.size a
  hwx0_10 : ∀ i : grid0.Coords, EltTy.bits .f32 = 32 ∨ (Rect.block (s := S128x256) S64x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S128x128.size a
  hwx0_11 : ∀ i : grid0.Coords, EltTy.bits .f32 = 32 ∨ (Rect.block (s := S128x128) S64x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S500000x128.size a
  hwx1_0 : ∀ i : grid1.Coords, EltTy.bits .f32 = 32 ∨ (Rect.block (s := S500000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S500000x1.size a
  hwx1_1 : ∀ i : grid1.Coords, EltTy.bits .i32 = 32 ∨ (Rect.block (s := S500000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .bf16 = 32 ∨ (Rect.block (s := S64x256) S64x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .bf16 = 32 ∨ (Rect.block (s := S64x256) S64x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S500000x128.size a
  hwx1_4 : ∀ i : grid1.Coords, EltTy.bits .f32 = 32 ∨ (Rect.block (s := S500000x128) S2000x128.size (cc1_transform_4 i) (hinb1_4 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x448_S448x512_S2000x512_1_0_0_1_n_n : DotDims S2000x448 S448x512 S2000x512 where
  lhsContracting := [1]
  rhsContracting := [0]
  lhsNonContracting := [0]
  rhsNonContracting := [1]
  lhsBatch := []
  rhsBatch := []
  wf := dot_S2000x448_S448x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x64_S2000x256_S64x256_0_0_1_1_n_n : DotDims S2000x64 S2000x256 S64x256 where
  lhsContracting := [0]
  rhsContracting := [0]
  lhsNonContracting := [1]
  rhsNonContracting := [1]
  lhsBatch := []
  rhsBatch := []
  wf := dot_S2000x64_S2000x256_S64x256_0_0_1_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S448x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S64x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_2) S64x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v5_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S500000x128 : Shape := ⟨2, ![500000, 128]⟩
abbrev S64x64 : Shape := ⟨2, ![64, 64]⟩
abbrev S500000 : Shape := ⟨1, ![500000]⟩
abbrev S448x512 : Shape := ⟨2, ![448, 512]⟩
abbrev S512 : Shape := ⟨1, ![512]⟩
abbrev S512x128 : Shape := ⟨2, ![512, 128]⟩
abbrev S128 : Shape := ⟨1, ![128]⟩
abbrev S_ : Shape := ⟨0, ![]⟩
abbrev S500000x1 : Shape := ⟨2, ![500000, 1]⟩
abbrev S500000x64 : Shape := ⟨2, ![500000, 64]⟩
abbrev S500000x448 : Shape := ⟨2, ![500000, 448]⟩
abbrev S500000x512 : Shape := ⟨2, ![500000, 512]⟩
abbrev S1x512 : Shape := ⟨2, ![1, 512]⟩
abbrev S1x128 : Shape := ⟨2, ![1, 128]⟩
abbrev S64 : Shape := ⟨1, ![64]⟩
abbrev S64x1 : Shape := ⟨2, ![64, 1]⟩
abbrev S64x128 : Shape := ⟨2, ![64, 128]⟩

abbrev nBuf : Space → Nat
  | .hbm => 90
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S64x64, .f32⟩
  | .hbm, ⟨4, _⟩ => ⟨S500000, .i32⟩
  | .hbm, ⟨5, _⟩ => ⟨S448x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x64, .f32⟩
  | .hbm, ⟨21, _⟩ => ⟨S500000x448, .f32⟩
  | .hbm, ⟨22, _⟩ => ⟨S500000x512, .f32⟩
  | .hbm, ⟨23, _⟩ => ⟨S1x512, .f32⟩
  | .hbm, ⟨24, _⟩ => ⟨S500000x512, .f32⟩
  | .hbm, ⟨25, _⟩ => ⟨S500000x512, .f32⟩
  | .hbm, ⟨26, _⟩ => ⟨S_, .f32⟩
  | .hbm, ⟨27, _⟩ => ⟨S500000x512, .f32⟩
  | .hbm, ⟨28, _⟩ => ⟨S500000x512, .f32⟩
  | .hbm, ⟨29, _⟩ => ⟨S500000x128, .f32⟩
  | .hbm, ⟨30, _⟩ => ⟨S1x128, .f32⟩
  | .hbm, ⟨31, _⟩ => ⟨S500000x128, .f32⟩
  | .hbm, ⟨32, _⟩ => ⟨S500000x128, .f32⟩
  | .hbm, ⟨33, _⟩ => ⟨S500000x128, .f32⟩
  | .hbm, ⟨34, _⟩ => ⟨S_, .f32⟩
  | .hbm, ⟨35, _⟩ => ⟨S500000, .f32⟩
  | .hbm, ⟨36, _⟩ => ⟨S_, .f32⟩
  | .hbm, ⟨37, _⟩ => ⟨S64, .f32⟩
  | .hbm, ⟨38, _⟩ => ⟨S500000x1, .i32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64x1, .f32⟩
  | .hbm, ⟨44, _⟩ => ⟨S_, .f32⟩
  | .hbm, ⟨45, _⟩ => ⟨S64x128, .f32⟩
  | .hbm, ⟨46, _⟩ => ⟨S500000x1, .i32⟩
  | .hbm, ⟨47, _⟩ => ⟨S64x128, .f32⟩
  | .hbm, ⟨48, _⟩ => ⟨S64x128, .f32⟩
  | .hbm, ⟨49, _⟩ => ⟨S64x128, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x128, .f32⟩
  | .hbm, ⟨59, _⟩ => ⟨S1x128, .f32⟩
  | .hbm, ⟨60, _⟩ => ⟨S500000x128, .f32⟩
  | .hbm, ⟨61, _⟩ => ⟨S500000x128, .f32⟩
  | .hbm, ⟨62, _⟩ => ⟨S500000x128, .f32⟩
  | .hbm, ⟨63, _⟩ => ⟨S500000x128, .f32⟩
  | .hbm, ⟨64, _⟩ => ⟨S_, .f32⟩
  | .hbm, ⟨65, _⟩ => ⟨S64x128, .f32⟩
  | .hbm, ⟨66, _⟩ => ⟨S500000x1, .i32⟩
  | .hbm, ⟨67, _⟩ => ⟨S64x128, .f32⟩
  | .hbm, ⟨68, _⟩ => ⟨S64x128, .f32⟩
  | .hbm, ⟨69, _⟩ => ⟨S64x128, .f32⟩
  | .hbm, ⟨70, _⟩ => ⟨S_, .f32⟩
  | .hbm, ⟨71, _⟩ => ⟨S64x128, .f32⟩
  | .hbm, ⟨72, _⟩ => ⟨S64x128, .f32⟩
  | .hbm, ⟨73, _⟩ => ⟨S64x128, .f32⟩
  | .hbm, ⟨74, _⟩ => ⟨S_, .i32⟩
  | .hbm, ⟨75, _⟩ => ⟨S500000, .i32⟩
  | .hbm, ⟨76, _⟩ => ⟨S500000, .i1⟩
  | .hbm, ⟨77, _⟩ => ⟨S_, .i32⟩
  | .hbm, ⟨78, _⟩ => ⟨S500000, .i32⟩
  | .hbm, ⟨79, _⟩ => ⟨S500000, .i32⟩
  | .hbm, ⟨80, _⟩ => ⟨S500000, .i32⟩
  | .hbm, ⟨81, _⟩ => ⟨S500000x1, .i32⟩
  | .hbm, ⟨82, _⟩ => ⟨S500000x128, .f32⟩
  | .hbm, ⟨83, _⟩ => ⟨S500000x128, .f32⟩
  | .hbm, ⟨84, _⟩ => ⟨S1x128, .f32⟩
  | .hbm, ⟨85, _⟩ => ⟨S500000x128, .f32⟩
  | .hbm, ⟨86, _⟩ => ⟨S500000x128, .f32⟩
  | .hbm, ⟨87, _⟩ => ⟨S1x128, .f32⟩
  | .hbm, ⟨88, _⟩ => ⟨S500000x128, .f32⟩
  | .hbm, ⟨89, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x64_S500000x448_d1 : Shape.Concatenates [S500000x128, S500000x128, S500000x128, S500000x64] S500000x448 1
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S64 : S_.BroadcastsInDim S64 (![] : Fin 0 → Fin S64.rank)
  bcast_S64_S64x1_0 : S64.BroadcastsInDim S64x1 (![0] : Fin 1 → Fin S64x1.rank)
  bcast_S_S64x128 : S_.BroadcastsInDim S64x128 (![] : Fin 0 → Fin S64x128.rank)
  bcast_S64x1_S64x128_0_1 : S64x1.BroadcastsInDim S64x128 (![0, 1] : Fin 2 → Fin S64x128.rank)
  gather_S64x64_S500000x1_S500000x64_1_0_n_n_0_1_164_wf : GatherDims.WF S64x64 S500000x1 S500000x64 [1] [0] [] [0] [] 1 ![1, 64]
  dot_S500000x448_S448x512_S500000x512_1_0_0_1_n_n_wf : DotDims.WF S500000x448 S448x512 S500000x512 [1] [0] [0] [1] [] []
  dot_S500000x512_S512x128_S500000x128_1_0_0_1_n_n_wf : DotDims.WF S500000x512 S512x128 S500000x128 [1] [0] [0] [1] [] []
  scatter_S64_S500000x1_S500000_n_0_0_1_wf : ScatterDims.WF S64 S500000x1 S500000 [] [0] [0] 1
  scatter_S64x128_S500000x1_S500000x128_1_0_0_1_wf : ScatterDims.WF S64x128 S500000x1 S500000x128 [1] [0] [0] 1
  gather_S64x128_S500000x1_S500000x128_1_0_n_n_0_1_1128_wf : GatherDims.WF S64x128 S500000x1 S500000x128 [1] [0] [] [0] [] 1 ![1, 128]

variable [Facts₀]

def gather_S64x64_S500000x1_S500000x64_1_0_n_n_0_1_164 : GatherDims S64x64 S500000x1 S500000x64 where
  offsetDims := [1]
  collapsedSliceDims := [0]
  operandBatchingDims := []
  startIndicesBatchingDims := []
  startIndexMap := [0]
  indexVectorDim := 1
  sliceSizes := ![1, 64]
  wf := gather_S64x64_S500000x1_S500000x64_1_0_n_n_0_1_164_wf
def dot_S500000x448_S448x512_S500000x512_1_0_0_1_n_n : DotDims S500000x448 S448x512 S500000x512 where
  lhsContracting := [1]
  rhsContracting := [0]
  lhsNonContracting := [0]
  rhsNonContracting := [1]
  lhsBatch := []
  rhsBatch := []
  wf := dot_S500000x448_S448x512_S500000x512_1_0_0_1_n_n_wf
def dot_S500000x512_S512x128_S500000x128_1_0_0_1_n_n : DotDims S500000x512 S512x128 S500000x128 where
  lhsContracting := [1]
  rhsContracting := [0]
  lhsNonContracting := [0]
  rhsNonContracting := [1]
  lhsBatch := []
  rhsBatch := []
  wf := dot_S500000x512_S512x128_S500000x128_1_0_0_1_n_n_wf
def scatter_S64_S500000x1_S500000_n_0_0_1 : ScatterDims S64 S500000x1 S500000 where
  updateWindowDims := []
  insertedWindowDims := [0]
  scatterDimsToOperandDims := [0]
  indexVectorDim := 1
  wf := scatter_S64_S500000x1_S500000_n_0_0_1_wf
def scatter_S64x128_S500000x1_S500000x128_1_0_0_1 : ScatterDims S64x128 S500000x1 S500000x128 where
  updateWindowDims := [1]
  insertedWindowDims := [0]
  scatterDimsToOperandDims := [0]
  indexVectorDim := 1
  wf := scatter_S64x128_S500000x1_S500000x128_1_0_0_1_wf
def gather_S64x128_S500000x1_S500000x128_1_0_n_n_0_1_1128 : GatherDims S64x128 S500000x1 S500000x128 where
  offsetDims := [1]
  collapsedSliceDims := [0]
  operandBatchingDims := []
  startIndicesBatchingDims := []
  startIndexMap := [0]
  indexVectorDim := 1
  sliceSizes := ![1, 128]
  wf := gather_S64x128_S500000x1_S500000x128_1_0_n_n_0_1_1128_wf

class Facts : Prop extends Facts₀ where

variable [Facts]
-- ==== Proof.Spec.lean ====
/-
  An edge update followed by a normalisation over each graph's edges, as functions of the twelve argument arrays on
  the extended reals.

  Edge e carries three rows of 128 numbers (source node, destination node, edge attribute) and a label word naming
  one of 64 graphs; graph g carries a row u[g] of 64 numbers. The update joins the three rows and the graph's row into
  448 numbers, sends them through two affine layers with a clamp at zero between them and adds the edge attribute
  back: xv e d. The normalisation then takes, for each graph g and column d, the number of edges of g (at least one),
  the mean of xv over them, and the mean square of xv less the mean times a per-column scale; the result is that
  difference divided by the root of the mean square plus a small constant, times a weight, plus a bias.

  Two ways of arriving at the result are written out, operation by operation in the order each program performs
  them: the one that sums per tile of 2000 edges through zero-one selection products, forms the variance from the
  two moments, clamps it at zero, and applies a per-graph scale and shift looked up by selection products (outK);
  and the one that sums over each graph's edges directly and normalises edge by edge (outR). That the two agree
  where every number is real and every label is a graph number is the statement outK_eq_outR of the bridge module.
-/
import Idealize.ShloMosaic.PureOps.Ideal
import Idealize.ShloMosaic.Lib.ValueIdx

noncomputable section

namespace Cert.EdgeNorm

open Idealize.ShloMosaic Idealize.ShloMosaic.ValueIdx

/-- The twelve argument arrays, in the programs' order. -/
structure Args where
  src : (⟨2, ![500000, 128]⟩ : Shape).Idx → EReal
  dest : (⟨2, ![500000, 128]⟩ : Shape).Idx → EReal
  edge : (⟨2, ![500000, 128]⟩ : Shape).Idx → EReal
  u : (⟨2, ![64, 64]⟩ : Shape).Idx → EReal
  batch : (⟨1, ![500000]⟩ : Shape).Idx → BitVec 32
  W1 : (⟨2, ![448, 512]⟩ : Shape).Idx → EReal
  b1 : (⟨1, ![512]⟩ : Shape).Idx → EReal
  W2 : (⟨2, ![512, 128]⟩ : Shape).Idx → EReal
  b2 : (⟨1, ![128]⟩ : Shape).Idx → EReal
  gw : (⟨1, ![128]⟩ : Shape).Idx → EReal
  gb : (⟨1, ![128]⟩ : Shape).Idx → EReal
  ms : (⟨1, ![128]⟩ : Shape).Idx → EReal

/-! ## The constants both programs carry -/

def zero : EReal := Ideal.ofBits .f32 0x00000000#32
def one : EReal := Ideal.ofBits .f32 0x3F800000#32
def two : EReal := Ideal.ofBits .f32 0x40000000#32
def eps : EReal := Ideal.ofBits .f32 0x3727C5AC#32
/-- The unit of the narrow format, the entry of the all-ones tile the count is summed from. -/
def oneN : EReal := Ideal.ofBits .bf16 0x3F80#16

/-! ## Labels -/

/-- Edge e belongs to graph g: its label word is the number g. -/
def sel (A : Args) (e : Fin 500000) (g : Fin 64) : Prop := (A.batch (ix1 e)).toNat = g.val

instance (A : Args) (e : Fin 500000) (g : Fin 64) : Decidable (sel A e g) :=
  inferInstanceAs (Decidable ((A.batch (ix1 e)).toNat = g.val))

/-- Every label word is a graph number. -/
def InRange (A : Args) : Prop := ∀ e : Fin 500000, (A.batch (ix1 e)).toNat < 64

/-- The graph of edge e (the last graph for a word that is no graph number). -/
def gsel (A : Args) (e : Fin 500000) : Fin 64 := ⟨min (A.batch (ix1 e)).toNat 63, by omega⟩

/-- One where edge e belongs to graph g, zero elsewhere. -/
def oh (A : Args) (e : Fin 500000) (g : Fin 64) : EReal := if sel A e g then 1 else 0

/-! ## Real entries -/

/-- Every entry is a real number. -/
def IsReal {ι : Type} (f : ι → EReal) : Prop := ∀ i, ∃ r : ℝ, f i = (r : EReal)

/-- Every float argument holds real numbers only. -/
structure Finite (A : Args) : Prop where
  src : IsReal A.src
  dest : IsReal A.dest
  edge : IsReal A.edge
  u : IsReal A.u
  W1 : IsReal A.W1
  b1 : IsReal A.b1
  W2 : IsReal A.W2
  b2 : IsReal A.b2
  gw : IsReal A.gw
  gb : IsReal A.gb
  ms : IsReal A.ms

/-! ## The edge update -/

/-- The joined input of edge e: source row, destination row, attribute row, its graph's row. -/
def hin (A : Args) (e : Fin 500000) (j : Fin 448) : EReal :=
  if h1 : j.val < 128 then A.src (ix2 e ⟨j.val, h1⟩)
  else if h2 : j.val < 256 then A.dest (ix2 e ⟨j.val - 128, by omega⟩)
  else if h3 : j.val < 384 then A.edge (ix2 e ⟨j.val - 256, by omega⟩)
  else A.u (ix2 (gsel A e) ⟨j.val - 384, by omega⟩)

/-- The first layer, clamped at zero. -/
def hid (A : Args) (e : Fin 500000) (k : Fin 512) : EReal :=
  max ((∑ j : Fin 448, hin A e j * A.W1 (ix2 j k)) + A.b1 (ix1 k)) zero

/-- The updated edge row: the second layer plus the attribute. -/
def xv (A : Args) (e : Fin 500000) (d : Fin 128) : EReal :=
  ((∑ k : Fin 512, hid A e k * A.W2 (ix2 k d)) + A.b2 (ix1 d)) + A.edge (ix2 e d)

/-! ## The tiled road -/

/-- The row and its square side by side: columns 0..127 are xv, columns 128..255 its square. -/
def st (A : Args) (e : Fin 500000) (j : Fin 256) : EReal :=
  if h : j.val < 128 then xv A e ⟨j.val, h⟩
  else xv A e ⟨j.val - 128, by omega⟩ * xv A e ⟨j.val - 128, by omega⟩

/-- Row r of tile t. -/
def row (t : Fin 250) (r : Fin 2000) : Fin 500000 := ⟨t.val * 2000 + r.val, by omega⟩

/-- Tile t of half c. -/
def pt (c : Fin 2) (i : Fin 125) : Fin 250 := ⟨c.val * 125 + i.val, by omega⟩

/-- One tile's contribution to graph g's sums: the selected rows' entries, plus the selected rows' entries of the
    difference of the row from itself. -/
def tileStat (A : Args) (t : Fin 250) (g : Fin 64) (j : Fin 256) : EReal :=
  (∑ r : Fin 2000, oh A (row t r) g * st A (row t r) j)
    + ∑ r : Fin 2000, oh A (row t r) g * (st A (row t r) j - st A (row t r) j)

/-- One tile's contribution to graph g's count. -/
def tileCnt (A : Args) (t : Fin 250) (g : Fin 64) : EReal :=
  ∑ r : Fin 2000, oh A (row t r) g * oneN

/-- Half c's sums. -/
def statsPart (A : Args) (c : Fin 2) (g : Fin 64) (j : Fin 256) : EReal := ∑ i : Fin 125, tileStat A (pt c i) g j
/-- Half c's counts. -/
def cntPart (A : Args) (c : Fin 2) (g : Fin 64) : EReal := ∑ i : Fin 125, tileCnt A (pt c i) g

def statsK (A : Args) (g : Fin 64) (j : Fin 256) : EReal := statsPart A 0 g j + statsPart A 1 g j
def cntK (A : Args) (g : Fin 64) : EReal := cntPart A 0 g + cntPart A 1 g
def cntSafeK (A : Args) (g : Fin 64) : EReal := max (cntK A g) one
def meanK (A : Args) (g : Fin 64) (d : Fin 128) : EReal :=
  Ideal.div (statsK A g ⟨d.val, by omega⟩) (cntSafeK A g)
def meansqK (A : Args) (g : Fin 64) (d : Fin 128) : EReal :=
  Ideal.div (statsK A g ⟨128 + d.val, by omega⟩) (cntSafeK A g)
/-- The variance from the two moments, clamped at zero. -/
def varK (A : Args) (g : Fin 64) (d : Fin 128) : EReal :=
  max (meansqK A g d + ((meanK A g d * meanK A g d) * A.ms (ix1 d)) * (A.ms (ix1 d) - two)) zero
def stdK (A : Args) (g : Fin 64) (d : Fin 128) : EReal := Ideal.sqrt (varK A g d + eps)
def scaleK (A : Args) (g : Fin 64) (d : Fin 128) : EReal := Ideal.div (A.gw (ix1 d)) (stdK A g d)
def shiftK (A : Args) (g : Fin 64) (d : Fin 128) : EReal :=
  A.gb (ix1 d) - (meanK A g d * A.ms (ix1 d)) * scaleK A g d
/-- The per-graph table: scale in columns 0..127, shift in columns 128..255. -/
def tab (A : Args) (g : Fin 64) (j : Fin 256) : EReal :=
  if h : j.val < 128 then scaleK A g ⟨j.val, h⟩ else shiftK A g ⟨j.val - 128, by omega⟩
/-- The table less itself. -/
def tabLo (A : Args) (g : Fin 64) (j : Fin 256) : EReal := tab A g j - tab A g j
/-- Edge e's row of the table, looked up by selection products from the table and from the table less itself. -/
def gath (A : Args) (e : Fin 500000) (j : Fin 256) : EReal :=
  (∑ g : Fin 64, oh A e g * tab A g j) + ∑ g : Fin 64, oh A e g * tabLo A g j
/-- The tiled road's result. -/
def outK (A : Args) (e : Fin 500000) (d : Fin 128) : EReal :=
  xv A e d * gath A e ⟨d.val, by omega⟩ + gath A e ⟨128 + d.val, by omega⟩

/-! ## The direct road -/

def cntR (A : Args) (g : Fin 64) : EReal :=
  max (zero + ∑ e ∈ Finset.univ.filter (fun e : Fin 500000 => sel A e g), one) one
def meanR (A : Args) (g : Fin 64) (d : Fin 128) : EReal :=
  Ideal.div (zero + ∑ e ∈ Finset.univ.filter (fun e : Fin 500000 => sel A e g), xv A e d) (cntR A g)
/-- The row less its graph's mean times the column's scale. -/
def ctr (A : Args) (e : Fin 500000) (d : Fin 128) : EReal :=
  xv A e d - meanR A (gsel A e) d * A.ms (ix1 d)
def varR (A : Args) (g : Fin 64) (d : Fin 128) : EReal :=
  Ideal.div (zero + ∑ e ∈ Finset.univ.filter (fun e : Fin 500000 => sel A e g), ctr A e d * ctr A e d) (cntR A g)
def stdR (A : Args) (g : Fin 64) (d : Fin 128) : EReal := Ideal.sqrt (varR A g d + eps)
/-- The direct road's result. -/
def outR (A : Args) (e : Fin 500000) (d : Fin 128) : EReal :=
  Ideal.div (ctr A e d) (stdR A (gsel A e) d) * A.gw (ix1 d) + A.gb (ix1 d)

end Cert.EdgeNorm

end
-- ==== Proof.KArgs.lean ====
/-
  The argument arrays as the idealized kernel program holds them, and what each of its two regions must find in
  its input arrays for the region's result to be the functions of the specification.

  The first region reads the three edge arrays, the label column, the graph rows, the two weight matrices and the
  two bias rows (each bias as one row); the second reads the updated rows the first one wrote, the label column
  again, and the per-graph table twice: the table and the table less itself.
-/
import proofs.«429340_j53730040873192_3_alg».proof.KernelIdeal
import proofs.«429340_j53730040873192_3_alg».proof.Proof.Spec

noncomputable section

namespace Cert.EdgeNorm

open Idealize.ShloMosaic Idealize.ShloMosaic.TcCoe Idealize.ShloMosaic.ValueIdx Idealize.SL.Sem
open Cert.KernelIdeal

/-- The twelve argument arrays of core c in a launch memory. -/
def argsK (m : (ℓ : Loc nD τ sig) → Buf (Elt Ideal) ℓ) (c : Dev nD) : Args where
  src := m ((c : Thread nD τ).loc main_arg0)
  dest := m ((c : Thread nD τ).loc main_arg1)
  edge := m ((c : Thread nD τ).loc main_arg2)
  u := m ((c : Thread nD τ).loc main_arg3)
  batch := m ((c : Thread nD τ).loc main_arg4)
  W1 := m ((c : Thread nD τ).loc main_arg5)
  b1 := m ((c : Thread nD τ).loc main_arg6)
  W2 := m ((c : Thread nD τ).loc main_arg7)
  b2 := m ((c : Thread nD τ).loc main_arg8)
  gw := m ((c : Thread nD τ).loc main_arg9)
  gb := m ((c : Thread nD τ).loc main_arg10)
  ms := m ((c : Thread nD τ).loc main_arg11)

/-- What the first region finds: the arguments themselves, the labels as a column, each bias as a row. -/
structure Enters0 (V : (c : Dev nD) → (b : Ref sig .tc) → Buf (Elt Ideal) ((c : Thread nD τ).loc b))
    (c : Dev nD) (A : Args) : Prop where
  src : V c main_arg0 = A.src
  dest : V c main_arg1 = A.dest
  edge : V c main_arg2 = A.edge
  batch : ∀ e : Fin 500000, V c main_v0 (ix2 e (0 : Fin 1)) = A.batch (ix1 e)
  u : V c main_arg3 = A.u
  W1 : V c main_v3 = A.W1
  b1 : ∀ k : Fin 512, V c main_v1 (ix2 (0 : Fin 1) k) = A.b1 (ix1 k)
  W2 : V c main_v4 = A.W2
  b2 : ∀ d : Fin 128, V c main_v2 (ix2 (0 : Fin 1) d) = A.b2 (ix1 d)

/-- What the second region finds: the updated rows, the label column, the table and the table less itself. -/
structure Enters1 (V : (c : Dev nD) → (b : Ref sig .tc) → Buf (Elt Ideal) ((c : Thread nD τ).loc b))
    (c : Dev nD) (A : Args) : Prop where
  x : ∀ (e : Fin 500000) (d : Fin 128), V c main_v5_0 (ix2 e d) = xv A e d
  batch : ∀ e : Fin 500000, V c main_v0 (ix2 e (0 : Fin 1)) = A.batch (ix1 e)
  hi : ∀ (g : Fin 64) (j : Fin 256), V c main_v44 (ix2 g j) = tab A g j
  lo : ∀ (g : Fin 64) (j : Fin 256), V c main_v47 (ix2 g j) = tabLo A g j

end Cert.EdgeNorm

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.KPayX.lean ====
/-
  The first region's row update as a function of one tile's loaded blocks, read at an entry.

  The selection matrix has a one at (r, g) where row r's label word is the number g: the label column is spread over
  64 columns, compared with the column number, and the one-bit answer widened and read as a number. Its product with
  the graph rows is, where every label is a graph number, each row's own graph row. That row joined to the source,
  destination and attribute rows is the joined input; the product with the first weight matrix plus the first bias
  row, clamped at zero, is the first layer; the product with the second weight matrix plus the second bias row plus
  the attribute row is the updated row. Each product into the zero array is, at an entry, the sum over the contracted
  coordinate of the products of the entries, and every change of number format is the identity on the extended reals.
-/
import proofs.«429340_j53730040873192_3_alg».proof.Proof.Gen.KernelIdeal.Skeleton
import proofs.«429340_j53730040873192_3_alg».proof.Proof.Spec
import proofs.«429340_j53730040873192_3_alg».proof.Proof.LibPlainDot
import Idealize.ShloMosaic.Lib.ValueLayout

noncomputable section

namespace Cert.EdgeNorm.Pay0

open Idealize.ShloMosaic Idealize.ShloMosaic.ValueIdx
open Cert.KernelIdeal Cert.KernelIdeal.Gen Cert.EdgeNorm

/-- What the nine loaded blocks of tile t hold, entry by entry: rows row t r of the three edge arrays and of the label
    column, and the whole of the graph rows, the two weight matrices and the two bias rows. -/
structure Tile (A : Args) (t : Fin 250)
    (v15 v17 v3 : Vec Ideal S2000x128 .f32) (v4 : Vec Ideal S2000x1 .i32) (v12 : Vec Ideal S64x64 .f32)
    (v22 : Vec Ideal S448x512 .bf16) (v25 : Vec Ideal S1x512 .f32) (v32 : Vec Ideal S512x128 .bf16)
    (v35 : Vec Ideal S1x128 .f32) : Prop where
  src : ∀ (r : Fin 2000) (d : Fin 128), (v15 (ix2 r d) : EReal) = A.src (ix2 (row t r) d)
  dest : ∀ (r : Fin 2000) (d : Fin 128), (v17 (ix2 r d) : EReal) = A.dest (ix2 (row t r) d)
  edge : ∀ (r : Fin 2000) (d : Fin 128), (v3 (ix2 r d) : EReal) = A.edge (ix2 (row t r) d)
  batch : ∀ r : Fin 2000, (v4 (ix2 r (0 : Fin 1)) : BitVec 32) = A.batch (ix1 (row t r))
  u : ∀ (g : Fin 64) (j : Fin 64), (v12 (ix2 g j) : EReal) = A.u (ix2 g j)
  W1 : ∀ (j : Fin 448) (k : Fin 512), (v22 (ix2 j k) : EReal) = A.W1 (ix2 j k)
  b1 : ∀ k : Fin 512, (v25 (ix2 (0 : Fin 1) k) : EReal) = A.b1 (ix1 k)
  W2 : ∀ (k : Fin 512) (d : Fin 128), (v32 (ix2 k d) : EReal) = A.W2 (ix2 k d)
  b2 : ∀ d : Fin 128, (v35 (ix2 (0 : Fin 1) d) : EReal) = A.b2 (ix1 d)

/-! ## Layout and words -/

/-- A column spread along its unit axis: entry (p, c) of the result is entry p of the column. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word compared with the word of a number g below 64, the one-bit answer widened to 32 bits and read as a
    signed number: one where the word is the number g, zero elsewhere. -/
theorem bit_onehot (b : BitVec 32) (g : Fin 64) :
    ((((IntOp.cmpi .eq b (BitVec.ofNat 32 g.val)).setWidth 32).toInt : ℝ) : EReal)
      = if b.toNat = g.val then 1 else 0 := by
  have hg : (BitVec.ofNat 32 g.val).toNat = g.val := by
    rw [BitVec.toNat_ofNat]; exact Nat.mod_eq_of_lt (by have := g.isLt; omega)
  by_cases h : b.toNat = g.val
  · have hb : b = BitVec.ofNat 32 g.val := BitVec.eq_of_toNat_eq (h.trans hg.symm)
    have h1 : IntOp.cmpi .eq b (BitVec.ofNat 32 g.val) = 1#1 := by
      rw [hb]; simp [IntOp.cmpi]
    rw [if_pos h, h1]
    norm_num
  · have hb : b ≠ BitVec.ofNat 32 g.val := fun e => h (by rw [e]; exact hg)
    have h0 : IntOp.cmpi .eq b (BitVec.ofNat 32 g.val) = 0#1 := by
      show BitVec.ofBool (b == BitVec.ofNat 32 g.val) = 0#1
      rw [beq_eq_false_iff_ne.mpr hb]; rfl
    rw [if_neg h, h0]
    simp

/-- Four arrays of 128, 128, 128 and 64 columns laid side by side, read at an entry: the piece whose span holds the
    column, at the column less the widths before it. -/
theorem concat4_apply (x0 x1 x2 : FVec Ideal S2000x128 .bf16) (x3 : FVec Ideal S2000x64 .bf16) (r : Fin 2000) (j : Fin 448) :
    concatenate S2000x448 1 [⟨S2000x128, x0⟩, ⟨S2000x128, x1⟩, ⟨S2000x128, x2⟩, ⟨S2000x64, x3⟩]
        concatenates_S2000x128_S2000x128_S2000x128_S2000x64_S2000x448_d1 (ix2 r j)
      = if h1 : j.val < 128 then x0 (ix2 r ⟨j.val, h1⟩)
        else if h2 : j.val < 256 then x1 (ix2 r ⟨j.val - 128, by omega⟩)
        else if h3 : j.val < 384 then x2 (ix2 r ⟨j.val - 256, by omega⟩)
        else x3 (ix2 r ⟨j.val - 384, by omega⟩) := by
  split
  · next h1 =>
    refine concatenate_apply_piece 1 _ _ (ix2 r j) 0 (by show 0 < 4; omega) S2000x128 x0 rfl rfl 0 rfl (ix2 r ⟨j.val, h1⟩) ?_ ?_
    · intro b hb
      match b with
      | ⟨0, _⟩ => rfl
      | ⟨1, _⟩ => exact absurd rfl hb
    · show 0 + j.val = j.val
      omega
  · next h1 =>
    split
    · next h2 =>
      refine concatenate_apply_piece 1 _ _ (ix2 r j) 1 (by show 1 < 4; omega) S2000x128 x1 rfl rfl 128 rfl (ix2 r ⟨j.val - 128, by omega⟩) ?_ ?_
      · intro b hb
        match b with
        | ⟨0, _⟩ => rfl
        | ⟨1, _⟩ => exact absurd rfl hb
      · show 128 + (j.val - 128) = j.val
        omega
    · next h2 =>
      split
      · next h3 =>
        refine concatenate_apply_piece 1 _ _ (ix2 r j) 2 (by show 2 < 4; omega) S2000x128 x2 rfl rfl 256 rfl (ix2 r ⟨j.val - 256, by omega⟩) ?_ ?_
        · intro b hb
          match b with
          | ⟨0, _⟩ => rfl
          | ⟨1, _⟩ => exact absurd rfl hb
        · show 256 + (j.val - 256) = j.val
          omega
      · next h3 =>
        refine concatenate_apply_piece 1 _ _ (ix2 r j) 3 (by show 3 < 4; omega) S2000x64 x3 rfl rfl 384 rfl (ix2 r ⟨j.val - 384, by omega⟩) ?_ ?_
        · intro b hb
          match b with
          | ⟨0, _⟩ => rfl
          | ⟨1, _⟩ => exact absurd rfl hb
        · show 384 + (j.val - 384) = j.val
          omega

/-! ## The three products -/

/-- The selection matrix times the graph rows, into the zero array, at an entry. -/
theorem mm_u (X : FVec Ideal S2000x64 .bf16) (Y : FVec Ideal S64x64 .bf16) (r : Fin 2000) (j : Fin 64) :
    matmul dot_S2000x64_S64x64_S2000x64_1_0_0_1_n_n none X Y (constant (F := Ideal) S2000x64 .f32 0x00000000#32) (ix2 r j)
      = ∑ g : Fin 64, X (ix2 r g) * Y (ix2 g j) :=
  Cert.Lib.PlainDot.matmul_plain_zero_apply none X Y r j

/-- The joined rows times the first weight matrix, into the zero array, at an entry. -/
theorem mm_1 (X : FVec Ideal S2000x448 .bf16) (Y : FVec Ideal S448x512 .bf16) (r : Fin 2000) (k : Fin 512) :
    matmul dot_S2000x448_S448x512_S2000x512_1_0_0_1_n_n none X Y (constant (F := Ideal) S2000x512 .f32 0x00000000#32) (ix2 r k)
      = ∑ j : Fin 448, X (ix2 r j) * Y (ix2 j k) :=
  Cert.Lib.PlainDot.matmul_plain_zero_apply none X Y r k

/-- The first layer times the second weight matrix, into the zero array, at an entry. -/
theorem mm_2 (X : FVec Ideal S2000x512 .bf16) (Y : FVec Ideal S512x128 .bf16) (r : Fin 2000) (d : Fin 128) :
    matmul dot_S2000x512_S512x128_S2000x128_1_0_0_1_n_n none X Y (constant (F := Ideal) S2000x128 .f32 0x00000000#32) (ix2 r d)
      = ∑ k : Fin 512, X (ix2 r k) * Y (ix2 k d) :=
  Cert.Lib.PlainDot.matmul_plain_zero_apply none X Y r d

/-! ## Selection -/

/-- Where every label is a graph number, edge e belongs to graph g exactly when g is the edge's graph. -/
theorem sel_iff_gsel {A : Args} (hr : InRange A) (e : Fin 500000) (g : Fin 64) : sel A e g ↔ g = gsel A e := by
  have := hr e
  unfold sel gsel
  constructor
  · intro h; apply Fin.ext; show g.val = min _ 63; omega
  · intro h; have := congrArg Fin.val h; simp only at this; omega

/-- A selection product picks the entry of the edge's graph. -/
theorem sum_oh_mul {A : Args} (hr : InRange A) (e : Fin 500000) (f : Fin 64 → EReal) :
    ∑ g : Fin 64, oh A e g * f g = f (gsel A e) := by
  rw [Finset.sum_eq_single (gsel A e)]
  · unfold oh; rw [if_pos ((sel_iff_gsel hr e _).mpr rfl), one_mul]
  · intro g _ hg
    unfold oh; rw [if_neg (fun h => hg ((sel_iff_gsel hr e g).mp h)), zero_mul]
  · intro h; exact absurd (Finset.mem_univ _) h

/-! ## The payloads -/

variable {A : Args} {t : Fin 250}
  {v15 v17 v3 : Vec Ideal S2000x128 .f32} {v4 : Vec Ideal S2000x1 .i32} {v12 : Vec Ideal S64x64 .f32}
  {v22 : Vec Ideal S448x512 .bf16} {v25 : Vec Ideal S1x512 .f32} {v32 : Vec Ideal S512x128 .bf16}
  {v35 : Vec Ideal S1x128 .f32}

/-- The selection matrix of the tile: entry (r, g) is one where row r's label is graph g, zero elsewhere. -/
theorem pay_onehot (hb : ∀ r : Fin 2000, (v4 (ix2 r (0 : Fin 1)) : BitVec 32) = A.batch (ix1 (row t r)))
    (r : Fin 2000) (g : Fin 64) :
    (k0_pay6 (F := Ideal) v4 (ix2 r g) : EReal) = oh A (row t r) g := by
  unfold k0_pay6
  dsimp only
  rw [truncf_apply, sitofp_apply, extui_apply]
  show ((((IntOp.cmpi .eq (broadcastTo S2000x64 (shapeCast S2000x1 v4 shapeCasts_S2000x1_S2000x1) broadcasts_S2000x1_S2000x64 (ix2 r g))
      (iota Kind.tc S2000x64 32 [1] iota_S2000x64_d1_w32 (ix2 r g))).setWidth 32).toInt : ℝ) : EReal) = _
  rw [iota_single_apply, bcast_col, shapeCast_self, hb r]
  show ((((IntOp.cmpi .eq (A.batch (ix1 (row t r))) (BitVec.ofNat 32 g.val)).setWidth 32).toInt : ℝ) : EReal) = _
  rw [bit_onehot]
  rfl

/-- The selection matrix times the graph rows: entry (r, j) is entry j of the graph row of edge row t r. -/
theorem pay_urow (hb : ∀ r : Fin 2000, (v4 (ix2 r (0 : Fin 1)) : BitVec 32) = A.batch (ix1 (row t r)))
    (hu : ∀ (g : Fin 64) (j : Fin 64), (v12 (ix2 g j) : EReal) = A.u (ix2 g j)) (hr : InRange A)
    (r : Fin 2000) (j : Fin 64) :
    matmul dot_S2000x64_S64x64_S2000x64_1_0_0_1_n_n none (k0_pay6 (F := Ideal) v4) (truncf .bf16 v12 bitsLt_bf16_f32)
        (constant (F := Ideal) S2000x64 .f32 0x00000000#32) (ix2 r j)
      = A.u (ix2 (gsel A (row t r)) j) := by
  rw [mm_u]
  rw [← sum_oh_mul hr (row t r) fun g => A.u (ix2 g j)]
  refine Finset.sum_congr rfl fun g _ => ?_
  rw [pay_onehot hb r g, truncf_apply, hu g j]

/-- The four pieces side by side: entry (r, j) is entry j of the joined input of edge row t r. -/
theorem pay_join (h : Tile A t v15 v17 v3 v4 v12 v22 v25 v32 v35) (hr : InRange A) (r : Fin 2000) (j : Fin 448) :
    concatenate S2000x448 1
        [⟨S2000x128, truncf .bf16 v15 bitsLt_bf16_f32⟩, ⟨S2000x128, truncf .bf16 v17 bitsLt_bf16_f32⟩,
          ⟨S2000x128, truncf .bf16 v3 bitsLt_bf16_f32⟩,
          ⟨S2000x64, truncf .bf16 (matmul dot_S2000x64_S64x64_S2000x64_1_0_0_1_n_n none (k0_pay6 (F := Ideal) v4)
            (truncf .bf16 v12 bitsLt_bf16_f32) (constant (F := Ideal) S2000x64 .f32 0x00000000#32)) bitsLt_bf16_f32⟩]
        concatenates_S2000x128_S2000x128_S2000x128_S2000x64_S2000x448_d1 (ix2 r j)
      = hin A (row t r) j := by
  rw [concat4_apply]
  unfold hin
  split
  · rw [truncf_apply, h.src]
  · split
    · rw [truncf_apply, h.dest]
    · split
      · rw [truncf_apply, h.edge]
      · rw [truncf_apply, pay_urow h.batch h.u hr]

/-- The first layer: entry (r, k) of the clamped sum is entry k of the first layer of edge row t r. -/
theorem pay_hid (h : Tile A t v15 v17 v3 v4 v12 v22 v25 v32 v35) (hr : InRange A) (r : Fin 2000) (k : Fin 512) :
    maximumf
        (addf
          (matmul dot_S2000x448_S448x512_S2000x512_1_0_0_1_n_n none
            (concatenate S2000x448 1
              [⟨S2000x128, truncf .bf16 v15 bitsLt_bf16_f32⟩, ⟨S2000x128, truncf .bf16 v17 bitsLt_bf16_f32⟩,
                ⟨S2000x128, truncf .bf16 v3 bitsLt_bf16_f32⟩,
                ⟨S2000x64, truncf .bf16 (matmul dot_S2000x64_S64x64_S2000x64_1_0_0_1_n_n none (k0_pay6 (F := Ideal) v4)
                  (truncf .bf16 v12 bitsLt_bf16_f32) (constant (F := Ideal) S2000x64 .f32 0x00000000#32)) bitsLt_bf16_f32⟩]
              concatenates_S2000x128_S2000x128_S2000x128_S2000x64_S2000x448_d1)
            (shapeCast S448x512 v22 shapeCasts_S448x512_S448x512 : FVec Ideal S448x512 .bf16)
            (constant (F := Ideal) S2000x512 .f32 0x00000000#32))
          (broadcastTo S2000x512 (shapeCast S1x512 v25 shapeCasts_S1x512_S1x512 : FVec Ideal S1x512 .f32)
            broadcasts_S1x512_S2000x512))
        (broadcast S2000x512 (Scalar.ofBits (F := Ideal) .f32 0x00000000#32)) (ix2 r k)
      = hid A (row t r) k := by
  rw [maximumf_apply, addf_apply, broadcast_apply, broadcastTo_1b_ab_apply, shapeCast_self v25, h.b1 k, mm_1]
  unfold hid
  refine congrArg (fun s => max (s + A.b1 (ix1 k)) zero) (Finset.sum_congr rfl fun j _ => ?_)
  rw [pay_join h hr r j, shapeCast_self, h.W1 j k]

/-- The second product: entry (r, d) is the sum over the first layer of edge row t r times the second weights. -/
theorem pay_out (h : Tile A t v15 v17 v3 v4 v12 v22 v25 v32 v35) (hr : InRange A) (r : Fin 2000) (d : Fin 128) :
    (k0_pay7 (F := Ideal) v3 v4 v12 v15 v17 v22 v25 v32 (ix2 r d) : EReal)
      = ∑ k : Fin 512, hid A (row t r) k * A.W2 (ix2 k d) := by
  unfold k0_pay7
  rw [mm_2]
  refine Finset.sum_congr rfl fun k _ => ?_
  rw [truncf_apply, pay_hid h hr r k, shapeCast_self, h.W2 k d]

/-- The stored row tile: entry (r, d) is the updated row of edge row t r. -/
theorem pay_x (h : Tile A t v15 v17 v3 v4 v12 v22 v25 v32 v35) (hr : InRange A) (r : Fin 2000) (d : Fin 128) :
    (k0_pay1 (F := Ideal) v3 (k0_pay7 v3 v4 v12 v15 v17 v22 v25 v32) v35 (ix2 r d) : EReal) = xv A (row t r) d := by
  unfold k0_pay1
  rw [addf_apply, addf_apply, broadcastTo_1b_ab_apply, shapeCast_self, h.b2 d, h.edge r d, pay_out h hr r d]
  rfl

end Cert.EdgeNorm.Pay0

end
-- ==== Proof.KPay0.lean ====
/-
  The first region's sums and counts as functions of one tile's loaded blocks, read at an entry.

  Both selection products contract the tile's row axis on either side: entry (g, j) of the product is the sum over the
  tile's 2000 rows r of the selection matrix at (r, g) times the other factor at (r, j). The sums take for that factor
  the row tile joined with its square (st) and then the difference of that joined tile from itself, the counts an
  all-ones tile; a change of float format is the identity on the extended reals, so the narrowed factors are the
  factors themselves.
-/
import proofs.«429340_j53730040873192_3_alg».proof.Proof.Gen.KernelIdeal.Skeleton
import proofs.«429340_j53730040873192_3_alg».proof.Proof.Spec
import proofs.«429340_j53730040873192_3_alg».proof.Proof.KPayX
import Idealize.ShloMosaic.Lib.Pipeline.Value
import Idealize.ShloMosaic.Lib.ValueIdx
import Idealize.ShloMosaic.PureOps.Ideal.Laws

noncomputable section

namespace Cert.EdgeNorm.Pay0

open Idealize.ShloMosaic Idealize.ShloMosaic.ValueIdx
open Cert.KernelIdeal Cert.KernelIdeal.Gen Cert.EdgeNorm

/-! The lemmas of this module that the four stored values rest on are kept in a namespace of their own. -/
namespace Sel

/-! ## The two selection products at an entry -/

theorem lhs_stats_0 (i : S64x256.Idx) (q : dot_S2000x64_S2000x256_S64x256_0_0_1_1_n_n.contr.Idx) :
    (dot_S2000x64_S2000x256_S64x256_0_0_1_1_n_n.lhsIdx i q 0).val = (q ⟨0, by decide⟩).val :=
  dot_S2000x64_S2000x256_S64x256_0_0_1_1_n_n.lhsIdx_val_of_single rfl i q
theorem lhs_stats_1 (i : S64x256.Idx) (q : dot_S2000x64_S2000x256_S64x256_0_0_1_1_n_n.contr.Idx) :
    (dot_S2000x64_S2000x256_S64x256_0_0_1_1_n_n.lhsIdx i q 1).val = (i 0).val := by
  unfold DotDims.lhsIdx
  rw [dif_neg (show ¬(1 : Fin S2000x64.rank) ∈ dot_S2000x64_S2000x256_S64x256_0_0_1_1_n_n.lhsBatch by decide), dif_pos (show (1 : Fin S2000x64.rank) ∈ dot_S2000x64_S2000x256_S64x256_0_0_1_1_n_n.lhsNonContracting by decide)]
  rfl
theorem rhs_stats_0 (i : S64x256.Idx) (q : dot_S2000x64_S2000x256_S64x256_0_0_1_1_n_n.contr.Idx) :
    (dot_S2000x64_S2000x256_S64x256_0_0_1_1_n_n.rhsIdx i q 0).val = (q ⟨0, by decide⟩).val :=
  dot_S2000x64_S2000x256_S64x256_0_0_1_1_n_n.rhsIdx_val_of_single rfl i q
theorem rhs_stats_1 (i : S64x256.Idx) (q : dot_S2000x64_S2000x256_S64x256_0_0_1_1_n_n.contr.Idx) :
    (dot_S2000x64_S2000x256_S64x256_0_0_1_1_n_n.rhsIdx i q 1).val = (i 1).val := by
  unfold DotDims.rhsIdx
  rw [dif_neg (show ¬(1 : Fin S2000x256.rank) ∈ dot_S2000x64_S2000x256_S64x256_0_0_1_1_n_n.rhsBatch by decide), dif_pos (show (1 : Fin S2000x256.rank) ∈ dot_S2000x64_S2000x256_S64x256_0_0_1_1_n_n.rhsNonContracting by decide)]
  rfl

/-- The selection product into the zero accumulator, at an entry: the sum over the tile's rows. -/
theorem mm_stats_apply (lhs : FVec Ideal S2000x64 .bf16) (rhs : FVec Ideal S2000x256 .bf16) (g : Fin 64) (j : Fin 256) :
    (matmul dot_S2000x64_S2000x256_S64x256_0_0_1_1_n_n none lhs rhs (constant S64x256 .f32 0x00000000#32) (ix2 g j) : EReal)
      = ∑ r : Fin 2000, (lhs (ix2 r g) : EReal) * (rhs (ix2 r j) : EReal) := by
  simp only [matmul]
  rw [Ideal.matmul_constant_zero_apply, ← Equiv.sum_comp (contrEquiv1 dot_S2000x64_S2000x256_S64x256_0_0_1_1_n_n 2000 rfl rfl).symm]
  refine Finset.sum_congr rfl fun k _ => ?_
  have hk := contrEquiv1_symm_val dot_S2000x64_S2000x256_S64x256_0_0_1_1_n_n 2000 rfl rfl k
  have el : dot_S2000x64_S2000x256_S64x256_0_0_1_1_n_n.lhsIdx (ix2 g j) ((contrEquiv1 dot_S2000x64_S2000x256_S64x256_0_0_1_1_n_n 2000 rfl rfl).symm k) = ix2 k g := funext fun a => Fin.ext (by
    match a with
    | ⟨0, _⟩ => exact (lhs_stats_0 _ _).trans hk
    | ⟨1, _⟩ => exact lhs_stats_1 _ _)
  have er : dot_S2000x64_S2000x256_S64x256_0_0_1_1_n_n.rhsIdx (ix2 g j) ((contrEquiv1 dot_S2000x64_S2000x256_S64x256_0_0_1_1_n_n 2000 rfl rfl).symm k) = ix2 k j := funext fun a => Fin.ext (by
    match a with
    | ⟨0, _⟩ => exact (rhs_stats_0 _ _).trans hk
    | ⟨1, _⟩ => exact rhs_stats_1 _ _)
  rw [el, er]

theorem lhs_cnt_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
theorem lhs_cnt_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
theorem rhs_cnt_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
theorem rhs_cnt_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- The same for the product with a tile of 128 columns. -/
theorem mm_cnt_apply (lhs : FVec Ideal S2000x64 .bf16) (rhs : FVec Ideal S2000x128 .bf16) (g : Fin 64) (j : Fin 128) :
    (matmul dot_S2000x64_S2000x128_S64x128_0_0_1_1_n_n none lhs rhs (constant S64x128 .f32 0x00000000#32) (ix2 g j) : EReal)
      = ∑ r : Fin 2000, (lhs (ix2 r g) : EReal) * (rhs (ix2 r j) : EReal) := by
  simp only [matmul]
  rw [Ideal.matmul_constant_zero_apply, ← Equiv.sum_comp (contrEquiv1 dot_S2000x64_S2000x128_S64x128_0_0_1_1_n_n 2000 rfl rfl).symm]
  refine Finset.sum_congr rfl fun k _ => ?_
  have hk := contrEquiv1_symm_val dot_S2000x64_S2000x128_S64x128_0_0_1_1_n_n 2000 rfl rfl k
  have el : dot_S2000x64_S2000x128_S64x128_0_0_1_1_n_n.lhsIdx (ix2 g j) ((contrEquiv1 dot_S2000x64_S2000x128_S64x128_0_0_1_1_n_n 2000 rfl rfl).symm k) = ix2 k g := funext fun a => Fin.ext (by
    match a with
    | ⟨0, _⟩ => exact (lhs_cnt_0 _ _).trans hk
    | ⟨1, _⟩ => exact lhs_cnt_1 _ _)
  have er : dot_S2000x64_S2000x128_S64x128_0_0_1_1_n_n.rhsIdx (ix2 g j) ((contrEquiv1 dot_S2000x64_S2000x128_S64x128_0_0_1_1_n_n 2000 rfl rfl).symm k) = ix2 k j := funext fun a => Fin.ext (by
    match a with
    | ⟨0, _⟩ => exact (rhs_cnt_0 _ _).trans hk
    | ⟨1, _⟩ => exact rhs_cnt_1 _ _)
  rw [el, er]

/-! ## The joined tile at an entry -/

/-- The row tile and its square side by side, at an entry: the left piece below column 128, the right piece from there. -/
theorem cat_apply (x y : FVec Ideal S2000x128 .f32) (r : Fin 2000) (j : Fin 256) :
    (concatenate S2000x256 1 [⟨S2000x128, x⟩, ⟨S2000x128, y⟩] concatenates_S2000x128_S2000x128_S2000x256_d1 (ix2 r j) : EReal)
      = if h : j.val < 128 then (x (ix2 r ⟨j.val, h⟩) : EReal) else y (ix2 r ⟨j.val - 128, by omega⟩) := by
  by_cases h : j.val < 128
  · rw [dif_pos h]
    exact concatenate_pair_apply_left 1 x y concatenates_S2000x128_S2000x128_S2000x256_d1 (ix2 r j) rfl (ix2 r ⟨j.val, h⟩)
      (fun b => match b with
        | ⟨0, _⟩ => rfl
        | ⟨1, _⟩ => rfl)
  · rw [dif_neg h]
    exact concatenate_pair_apply_right 1 x y concatenates_S2000x128_S2000x128_S2000x256_d1 (ix2 r j) rfl rfl
      (ix2 r ⟨j.val - 128, by omega⟩)
      (fun b => match b with
        | ⟨0, _⟩ => fun _ => rfl
        | ⟨1, _⟩ => fun hb => absurd rfl hb)
      (by show j.val - 128 + 128 = j.val; omega)

end Sel

open Sel

variable {A : Args} {t : Fin 250}
  {v15 v17 v3 : Vec Ideal S2000x128 .f32} {v4 : Vec Ideal S2000x1 .i32} {v12 : Vec Ideal S64x64 .f32}
  {v22 : Vec Ideal S448x512 .bf16} {v25 : Vec Ideal S1x512 .f32} {v32 : Vec Ideal S512x128 .bf16}
  {v35 : Vec Ideal S1x128 .f32}

/-! ## The stored values -/

/-- The joined tile at an entry is the row and its square side by side of the tile's edge. -/
theorem Sel.st_apply (h : Tile A t v15 v17 v3 v4 v12 v22 v25 v32 v35) (hr : InRange A) (r : Fin 2000) (j : Fin 256) :
    (concatenate S2000x256 1
        [⟨S2000x128, k0_pay1 (F := Ideal) v3 (k0_pay7 v3 v4 v12 v15 v17 v22 v25 v32) v35⟩,
         ⟨S2000x128, mulf (k0_pay1 (F := Ideal) v3 (k0_pay7 v3 v4 v12 v15 v17 v22 v25 v32) v35)
            (k0_pay1 (F := Ideal) v3 (k0_pay7 v3 v4 v12 v15 v17 v22 v25 v32) v35)⟩]
        concatenates_S2000x128_S2000x128_S2000x256_d1 (ix2 r j) : EReal) = st A (row t r) j := by
  rw [cat_apply]
  unfold st
  by_cases hj : j.val < 128
  · rw [dif_pos hj, dif_pos hj, pay_x h hr]
  · rw [dif_neg hj, dif_neg hj, mulf_apply, pay_x h hr]

/-- The stored sums: what was there plus the tile's contribution. -/
theorem pay_stats (h : Tile A t v15 v17 v3 v4 v12 v22 v25 v32 v35) (hr : InRange A)
    (v47 : Vec Ideal S64x256 .f32) (g : Fin 64) (j : Fin 256) :
    (k0_pay2 (F := Ideal) v3 (k0_pay6 v4) (k0_pay7 v3 v4 v12 v15 v17 v22 v25 v32) v35 v47 (ix2 g j) : EReal)
      = (v47 (ix2 g j) : EReal) + tileStat A t g j := by
  unfold k0_pay2
  simp only [addf_apply, shapeCast_self]
  rw [mm_stats_apply, mm_stats_apply]
  unfold tileStat
  simp only [truncf_apply, subf_apply, st_apply h hr, pay_onehot h.batch]

/-- The stored counts: what was there plus the tile's contribution. -/
theorem pay_cnt (hb : ∀ r : Fin 2000, (v4 (ix2 r (0 : Fin 1)) : BitVec 32) = A.batch (ix1 (row t r)))
    (v55 : Vec Ideal S64x128 .f32) (g : Fin 64) (j : Fin 128) :
    (k0_pay3 (F := Ideal) (k0_pay6 v4) v55 (ix2 g j) : EReal) = (v55 (ix2 g j) : EReal) + tileCnt A t g := by
  unfold k0_pay3
  simp only [addf_apply, shapeCast_self]
  rw [mm_cnt_apply]
  unfold tileCnt oneN
  simp only [broadcast_apply, pay_onehot hb]
  rfl

/-- The reset values. -/
theorem pay_zero_stats (g : Fin 64) (j : Fin 256) : (k0_pay4 (F := Ideal) (ix2 g j) : EReal) = zero := by
  unfold k0_pay4 zero
  rfl
theorem pay_zero_cnt (g : Fin 64) (j : Fin 128) : (k0_pay5 (F := Ideal) (ix2 g j) : EReal) = zero := by
  unfold k0_pay5 zero
  rfl

end Cert.EdgeNorm.Pay0

end
-- ==== Proof.KBlocks0.lean ====
/-
  The first region's geometry: which rows of the arrays each grid point's blocks are, and which point's block each entry of the three output arrays is last written from.
-/
import proofs.«429340_j53730040873192_3_alg».proof.Proof.Gen.KernelIdeal.Frame
import proofs.«429340_j53730040873192_3_alg».proof.Proof.KArgs
import proofs.«429340_j53730040873192_3_alg».proof.Proof.KPayX
import Idealize.ShloMosaic.Lib.Pipeline.Value

noncomputable section

namespace Cert.EdgeNorm.Region0

open Idealize.ShloMosaic Idealize.ShloMosaic.TcCoe Idealize.ShloMosaic.ValueIdx Idealize.SL.Sem
open Cert.KernelIdeal Cert.KernelIdeal.Gen Cert.EdgeNorm

variable (V : (c : Dev nD) → (b : Ref sig .tc) → Buf (Elt Ideal) ((c : Thread nD τ).loc b)) (c : Dev nD)

/-- The nine input blocks at a point, at their literal types. -/
abbrev blk0 (t : Fin cfg0.N) : Vec Ideal S2000x128 .f32 := iblk0 V c 0 t
abbrev blk1 (t : Fin cfg0.N) : Vec Ideal S2000x128 .f32 := iblk0 V c 1 t
abbrev blk2 (t : Fin cfg0.N) : Vec Ideal S2000x128 .f32 := iblk0 V c 2 t
abbrev blk3 (t : Fin cfg0.N) : Vec Ideal S2000x1 .i32 := iblk0 V c 3 t
abbrev blk4 (t : Fin cfg0.N) : Vec Ideal S64x64 .f32 := iblk0 V c 4 t
abbrev blk5 (t : Fin cfg0.N) : Vec Ideal S448x512 .bf16 := iblk0 V c 5 t
abbrev blk6 (t : Fin cfg0.N) : Vec Ideal S1x512 .f32 := iblk0 V c 6 t
abbrev blk7 (t : Fin cfg0.N) : Vec Ideal S512x128 .bf16 := iblk0 V c 7 t
abbrev blk8 (t : Fin cfg0.N) : Vec Ideal S1x128 .f32 := iblk0 V c 8 t

/-- A grid point as a tile number: point t of the 2 × 125 grid is tile t. -/
def tileOf (t : Fin cfg0.N) : Fin 250 := ⟨t.val, lt_of_lt_of_eq t.isLt N_0⟩

/-- The last point of half h: the one whose sums and counts are written back. -/
def lastPt (h : Fin 2) : Fin cfg0.N := ⟨h.val * 125 + 124, by rw [show cfg0.N = 250 from N_0]; omega⟩

variable {V c}

namespace Blocks0

/-! ## The block index of each window at each point -/

/-- The block indices of the nine input windows, decided over the 250 points: the four tiled inputs sit at the
    point's own number on the row axis, the five whole arrays at block zero. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The block indices of the three output windows: the row array's at the point's number, the two sums arrays' at
    the point's half. -/
theorem idx_out : ∀ t : Fin cfg0.N,
    win0_9.index t (0 : Fin 2) = t.val ∧ win0_9.index t (1 : Fin 2) = 0
    ∧ win0_10.index t (0 : Fin 2) = t.val / 125 ∧ win0_10.index t (1 : Fin 2) = 0
    ∧ win0_11.index t (0 : Fin 2) = t.val / 125 ∧ win0_11.index t (1 : Fin 2) = 0 :=
  (by decide +kernel : ∀ t : Fin grid0.N, _)

/-! ## The input blocks, entry by entry -/

/-- Entry (r, d) of the first edge array's block at point t is entry (2000 t + r, d) of the array. -/
theorem blk0_apply (t : Fin cfg0.N) (r : Fin 2000) (d : Fin 128) :
    blk0 V c t (ix2 r d) = V c main_arg0 (ix2 (row (tileOf t) r) d) := by
  show V c main_arg0 (((cfg0.win 0).blk t).view.emb (ix2 r d)) = _
  refine congrArg _ ?_
  funext a; apply Fin.ext
  obtain ⟨e0, e1, -⟩ := idx_in t
  match a with
  | ⟨0, _⟩ => show win0_0.index t (0 : Fin 2) * 2000 + 1 * r.val = t.val * 2000 + r.val; rw [e0]; omega
  | ⟨1, _⟩ => show win0_0.index t (1 : Fin 2) * 128 + 1 * d.val = d.val; rw [e1]; omega

theorem blk1_apply (t : Fin cfg0.N) (r : Fin 2000) (d : Fin 128) :
    blk1 V c t (ix2 r d) = V c main_arg1 (ix2 (row (tileOf t) r) d) := by
  show V c main_arg1 (((cfg0.win 1).blk t).view.emb (ix2 r d)) = _
  refine congrArg _ ?_
  funext a; apply Fin.ext
  obtain ⟨-, -, e0, e1, -⟩ := idx_in t
  match a with
  | ⟨0, _⟩ => show win0_1.index t (0 : Fin 2) * 2000 + 1 * r.val = t.val * 2000 + r.val; rw [e0]; omega
  | ⟨1, _⟩ => show win0_1.index t (1 : Fin 2) * 128 + 1 * d.val = d.val; rw [e1]; omega

theorem blk2_apply (t : Fin cfg0.N) (r : Fin 2000) (d : Fin 128) :
    blk2 V c t (ix2 r d) = V c main_arg2 (ix2 (row (tileOf t) r) d) := by
  show V c main_arg2 (((cfg0.win 2).blk t).view.emb (ix2 r d)) = _
  refine congrArg _ ?_
  funext a; apply Fin.ext
  obtain ⟨-, -, -, -, e0, e1, -⟩ := idx_in t
  match a with
  | ⟨0, _⟩ => show win0_2.index t (0 : Fin 2) * 2000 + 1 * r.val = t.val * 2000 + r.val; rw [e0]; omega
  | ⟨1, _⟩ => show win0_2.index t (1 : Fin 2) * 128 + 1 * d.val = d.val; rw [e1]; omega

/-- Row r of the label column's block at point t is row 2000 t + r of the column. -/
theorem blk3_apply (t : Fin cfg0.N) (r : Fin 2000) :
    blk3 V c t (ix2 r (0 : Fin 1)) = V c main_v0 (ix2 (row (tileOf t) r) (0 : Fin 1)) := by
  show V c main_v0 (((cfg0.win 3).blk t).view.emb (ix2 r (0 : Fin 1))) = _
  refine congrArg _ ?_
  funext a; apply Fin.ext
  obtain ⟨-, -, -, -, -, -, e0, e1, -⟩ := idx_in t
  match a with
  | ⟨0, _⟩ => show win0_3.index t (0 : Fin 2) * 2000 + 1 * r.val = t.val * 2000 + r.val; rw [e0]; omega
  | ⟨1, _⟩ => show win0_3.index t (1 : Fin 2) * 1 + 1 * (0 : Fin 1).val = (0 : Fin 1).val; rw [e1]; rfl

/-- The five whole-array windows: the block at any point is the array. -/
theorem blk4_apply (t : Fin cfg0.N) (g : Fin 64) (j : Fin 64) :
    blk4 V c t (ix2 g j) = V c main_arg3 (ix2 g j) := by
  show V c main_arg3 (((cfg0.win 4).blk t).view.emb (ix2 g j)) = _
  refine congrArg _ ?_
  funext a; apply Fin.ext
  obtain ⟨-, -, -, -, -, -, -, -, e0, e1, -⟩ := idx_in t
  match a with
  | ⟨0, _⟩ => show win0_4.index t (0 : Fin 2) * 64 + 1 * g.val = g.val; rw [e0]; omega
  | ⟨1, _⟩ => show win0_4.index t (1 : Fin 2) * 64 + 1 * j.val = j.val; rw [e1]; omega

theorem blk5_apply (t : Fin cfg0.N) (j : Fin 448) (k : Fin 512) :
    blk5 V c t (ix2 j k) = V c main_v3 (ix2 j k) := by
  show V c main_v3 (((cfg0.win 5).blk t).view.emb (ix2 j k)) = _
  refine congrArg _ ?_
  funext a; apply Fin.ext
  obtain ⟨-, -, -, -, -, -, -, -, -, -, e0, e1, -⟩ := idx_in t
  match a with
  | ⟨0, _⟩ => show win0_5.index t (0 : Fin 2) * 448 + 1 * j.val = j.val; rw [e0]; omega
  | ⟨1, _⟩ => show win0_5.index t (1 : Fin 2) * 512 + 1 * k.val = k.val; rw [e1]; omega

theorem blk6_apply (t : Fin cfg0.N) (k : Fin 512) :
    blk6 V c t (ix2 (0 : Fin 1) k) = V c main_v1 (ix2 (0 : Fin 1) k) := by
  show V c main_v1 (((cfg0.win 6).blk t).view.emb (ix2 (0 : Fin 1) k)) = _
  refine congrArg _ ?_
  funext a; apply Fin.ext
  obtain ⟨-, -, -, -, -, -, -, -, -, -, -, -, e0, e1, -⟩ := idx_in t
  match a with
  | ⟨0, _⟩ => show win0_6.index t (0 : Fin 2) * 1 + 1 * (0 : Fin 1).val = (0 : Fin 1).val; rw [e0]; rfl
  | ⟨1, _⟩ => show win0_6.index t (1 : Fin 2) * 512 + 1 * k.val = k.val; rw [e1]; omega

theorem blk7_apply (t : Fin cfg0.N) (k : Fin 512) (d : Fin 128) :
    blk7 V c t (ix2 k d) = V c main_v4 (ix2 k d) := by
  show V c main_v4 (((cfg0.win 7).blk t).view.emb (ix2 k d)) = _
  refine congrArg _ ?_
  funext a; apply Fin.ext
  obtain ⟨-, -, -, -, -, -, -, -, -, -, -, -, -, -, e0, e1, -⟩ := idx_in t
  match a with
  | ⟨0, _⟩ => show win0_7.index t (0 : Fin 2) * 512 + 1 * k.val = k.val; rw [e0]; omega
  | ⟨1, _⟩ => show win0_7.index t (1 : Fin 2) * 128 + 1 * d.val = d.val; rw [e1]; omega

theorem blk8_apply (t : Fin cfg0.N) (d : Fin 128) :
    blk8 V c t (ix2 (0 : Fin 1) d) = V c main_v2 (ix2 (0 : Fin 1) d) := by
  show V c main_v2 (((cfg0.win 8).blk t).view.emb (ix2 (0 : Fin 1) d)) = _
  refine congrArg _ ?_
  funext a; apply Fin.ext
  obtain ⟨-, -, -, -, -, -, -, -, -, -, -, -, -, -, -, -, e0, e1⟩ := idx_in t
  match a with
  | ⟨0, _⟩ => show win0_8.index t (0 : Fin 2) * 1 + 1 * (0 : Fin 1).val = (0 : Fin 1).val; rw [e0]; rfl
  | ⟨1, _⟩ => show win0_8.index t (1 : Fin 2) * 128 + 1 * d.val = d.val; rw [e1]; omega

/-! ## The row array -/

/-- An index of the row array is in point t's block iff each coordinate is in the block's range on its axis. -/
theorem mem_blk9 (t : Fin cfg0.N) (i : S500000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v5_0).slice (win0_9.rect t)).set ↔ _
  rw [View.set_slice_whole, Rect.mem_set_unit]
  exact Iff.rfl

/-- A function of the edge and the column as contents of the row array. -/
def rowsOf (G : Fin 500000 → Fin 128 → EReal) : S500000x128.Idx → EReal := fun i => G (i 0) (i 1)

/-- What point t writes back is its block of that array. -/
theorem flushed9_eq (G : Fin 500000 → Fin 128 → EReal)
    (hG : ∀ (t : Fin cfg0.N) (r : Fin 2000) (d : Fin 128),
      ((dat0 V c).after 9 t : S2000x128.Idx → EReal) (ix2 r d) = G (row (tileOf t) r) d) (t : Fin cfg0.N) :
    (dat0 V c).flushed 9 t = ((cfg0.win 9).blk t).view.read (Elt Ideal) (rowsOf G) := by
  show (cfg0.win 9).cut (grid0.coords t) ((dat0 V c).after 9 t) = _
  refine funext fun (y : S2000x128.Idx) => ?_
  obtain ⟨r, d, rfl⟩ : ∃ (r : Fin 2000) (d : Fin 128), y = ix2 r d := ⟨y 0, y 1, eq_ix2 y⟩
  refine (hG t r d).trans ?_
  show G (row (tileOf t) r) d = rowsOf G (((cfg0.win 9).blk t).view.emb (ix2 r d))
  have e : ((cfg0.win 9).blk t).view.emb (ix2 r d) = (ix2 (row (tileOf t) r) d : S500000x128.Idx) := by
    funext a; apply Fin.ext
    obtain ⟨e0, e1, -⟩ := idx_out t
    match a with
    | ⟨0, _⟩ => show win0_9.index t (0 : Fin 2) * 2000 + 1 * r.val = t.val * 2000 + r.val; rw [e0]; omega
    | ⟨1, _⟩ => show win0_9.index t (1 : Fin 2) * 128 + 1 * d.val = d.val; rw [e1]; omega
  exact (congrArg (rowsOf G) e).symm

/-- Row e of the row array is in the block of point e / 2000, which is written back. -/
theorem cover9 (i : S500000x128.Idx) :
    ∃ t : Fin cfg0.N, (cfg0.win 9).flush t = true ∧ i ∈ ((cfg0.win 9).blk t).view.set := by
  have hi0 : (i 0).val < 500000 := (i 0).isLt
  have hi1 : (i 1).val < 128 := (i 1).isLt
  have hN : cfg0.N = 250 := N_0
  have ht : (i 0).val / 2000 < cfg0.N := by rw [hN]; omega
  refine ⟨⟨(i 0).val / 2000, ht⟩, flush0_9 _, ?_⟩
  rw [mem_blk9]
  intro a
  obtain ⟨e0, e1, -⟩ := idx_out ⟨(i 0).val / 2000, ht⟩
  match a with
  | ⟨0, _⟩ =>
    show win0_9.index ⟨(i 0).val / 2000, ht⟩ (0 : Fin 2) * 2000 ≤ (i 0).val ∧ (i 0).val < win0_9.index ⟨(i 0).val / 2000, ht⟩ (0 : Fin 2) * 2000 + 2000
    rw [e0]; dsimp only; omega
  | ⟨1, _⟩ =>
    show win0_9.index ⟨(i 0).val / 2000, ht⟩ (1 : Fin 2) * 128 ≤ (i 1).val ∧ (i 1).val < win0_9.index ⟨(i 0).val / 2000, ht⟩ (1 : Fin 2) * 128 + 128
    rw [e1]; omega

/-! ## The sums array -/

/-- An index of the array is in point t's block iff each coordinate is in the block's range on its axis. -/
theorem mem_blk10 (t : Fin cfg0.N) (i : S128x256.Idx) :
    i ∈ ((cfg0.win 10).blk t).view.set ↔ ∀ a : Fin 2, win0_10.index t a * S64x256.size a ≤ (i a).val ∧ (i a).val < win0_10.index t a * S64x256.size a + S64x256.size a := by
  show i ∈ ((View.whole main_v5_1).slice (win0_10.rect t)).set ↔ _
  rw [View.set_slice_whole, Rect.mem_set_unit]
  exact Iff.rfl

/-- A function of the half, the graph and the column as contents of the array: row 64 h + g is half h's row g. -/
def sumsOf (G : Fin 2 → Fin 64 → Fin 256 → EReal) : S128x256.Idx → EReal :=
  fun i => G ⟨(i 0).val / 64, by have hi : (i 0).val < 128 := (i 0).isLt; show (i 0).val / 64 < 2; omega⟩
    ⟨(i 0).val % 64, Nat.mod_lt _ (by decide)⟩ (i 1)

theorem sumsOf_apply (G : Fin 2 → Fin 64 → Fin 256 → EReal) (h : Fin 2) (g : Fin 64) (j : Fin 256) :
    sumsOf G (ix2 (⟨h.val * 64 + g.val, by omega⟩ : Fin 128) j) = G h g j := by
  show G ⟨(h.val * 64 + g.val) / 64, _⟩ ⟨(h.val * 64 + g.val) % 64, _⟩ j = G h g j
  have e1 : (⟨(h.val * 64 + g.val) / 64, by omega⟩ : Fin 2) = h := Fin.ext (by show (h.val * 64 + g.val) / 64 = h.val; omega)
  have e2 : (⟨(h.val * 64 + g.val) % 64, Nat.mod_lt _ (by decide)⟩ : Fin 64) = g := Fin.ext (by show (h.val * 64 + g.val) % 64 = g.val; omega)
  exact congrArg₂ (fun a b => G a b j) e1 e2

/-- What the last point of half h writes back is its block of that array. -/
theorem flushed10_last (G : Fin 2 → Fin 64 → Fin 256 → EReal)
    (hG : ∀ (h : Fin 2) (g : Fin 64) (j : Fin 256),
      ((dat0 V c).after 10 (lastPt h) : S64x256.Idx → EReal) (ix2 g j) = G h g j) (h : Fin 2) :
    (dat0 V c).flushed 10 (lastPt h) = ((cfg0.win 10).blk (lastPt h)).view.read (Elt Ideal) (sumsOf G) := by
  show (cfg0.win 10).cut (grid0.coords (lastPt h)) ((dat0 V c).after 10 (lastPt h)) = _
  refine funext fun (y : S64x256.Idx) => ?_
  obtain ⟨g, j, rfl⟩ : ∃ (g : Fin 64) (j : Fin 256), y = ix2 g j := ⟨y 0, y 1, eq_ix2 y⟩
  refine (hG h g j).trans ?_
  show G h g j = sumsOf G (((cfg0.win 10).blk (lastPt h)).view.emb (ix2 g j))
  have e : ((cfg0.win 10).blk (lastPt h)).view.emb (ix2 g j) = (ix2 (⟨h.val * 64 + g.val, by omega⟩ : Fin 128) j : S128x256.Idx) := by
    funext a; apply Fin.ext
    obtain ⟨-, -, e0, e1, -⟩ := idx_out (lastPt h)
    have hl : (lastPt h).val / 125 = h.val := by show (h.val * 125 + 124) / 125 = h.val; omega
    match a with
    | ⟨0, _⟩ => show win0_10.index (lastPt h) (0 : Fin 2) * 64 + 1 * g.val = h.val * 64 + g.val; rw [e0, hl]; omega
    | ⟨1, _⟩ => show win0_10.index (lastPt h) (1 : Fin 2) * 256 + 1 * j.val = j.val; rw [e1]; omega
  exact ((congrArg (sumsOf G) e).trans (sumsOf_apply G h g j)).symm

/-- The points that write back are the last points of the two halves. -/
theorem flushed10_eq (G : Fin 2 → Fin 64 → Fin 256 → EReal)
    (hG : ∀ (h : Fin 2) (g : Fin 64) (j : Fin 256),
      ((dat0 V c).after 10 (lastPt h) : S64x256.Idx → EReal) (ix2 g j) = G h g j)
    (t : Fin cfg0.N) (hf : (cfg0.win 10).flush t = true) :
    (dat0 V c).flushed 10 t = ((cfg0.win 10).blk t).view.read (Elt Ideal) (sumsOf G) := by
  have h124 : t.val % 125 = 124 := (flush0_10 t).mp hf
  have hN : t.val < 250 := lt_of_lt_of_eq t.isLt N_0
  have ht : t = lastPt ⟨t.val / 125, by omega⟩ := Fin.ext (by show t.val = t.val / 125 * 125 + 124; omega)
  rw [ht]
  exact flushed10_last G hG _

/-- Row 64 h + g of the sums array is in the block of half h's last point, which is written back. -/
theorem cover10 (i : S128x256.Idx) :
    ∃ t : Fin cfg0.N, (cfg0.win 10).flush t = true ∧ i ∈ ((cfg0.win 10).blk t).view.set := by
  have hi0 : (i 0).val < 128 := (i 0).isLt
  have hi1 : (i 1).val < 256 := (i 1).isLt
  have hh : (i 0).val / 64 < 2 := by omega
  have hl : (lastPt ⟨(i 0).val / 64, hh⟩).val = (i 0).val / 64 * 125 + 124 := rfl
  refine ⟨lastPt ⟨(i 0).val / 64, hh⟩, (flush0_10 _).mpr (by rw [hl]; omega), ?_⟩
  rw [mem_blk10]
  intro a
  obtain ⟨-, -, e0, e1, -⟩ := idx_out (lastPt ⟨(i 0).val / 64, hh⟩)
  match a with
  | ⟨0, _⟩ =>
    show win0_10.index (lastPt ⟨(i 0).val / 64, hh⟩) (0 : Fin 2) * 64 ≤ (i 0).val ∧ (i 0).val < win0_10.index (lastPt ⟨(i 0).val / 64, hh⟩) (0 : Fin 2) * 64 + 64
    rw [e0, hl]; omega
  | ⟨1, _⟩ =>
    show win0_10.index (lastPt ⟨(i 0).val / 64, hh⟩) (1 : Fin 2) * 256 ≤ (i 1).val ∧ (i 1).val < win0_10.index (lastPt ⟨(i 0).val / 64, hh⟩) (1 : Fin 2) * 256 + 256
    rw [e1]; omega

/-! ## The counts array -/

/-- An index of the array is in point t's block iff each coordinate is in the block's range on its axis. -/
theorem mem_blk11 (t : Fin cfg0.N) (i : S128x128.Idx) :
    i ∈ ((cfg0.win 11).blk t).view.set ↔ ∀ a : Fin 2, win0_11.index t a * S64x128.size a ≤ (i a).val ∧ (i a).val < win0_11.index t a * S64x128.size a + S64x128.size a := by
  show i ∈ ((View.whole main_v5_2).slice (win0_11.rect t)).set ↔ _
  rw [View.set_slice_whole, Rect.mem_set_unit]
  exact Iff.rfl

/-- A function of the half, the graph and the column as contents of the array: row 64 h + g is half h's row g. -/
def countsOf (G : Fin 2 → Fin 64 → Fin 128 → EReal) : S128x128.Idx → EReal :=
  fun i => G ⟨(i 0).val / 64, by have hi : (i 0).val < 128 := (i 0).isLt; show (i 0).val / 64 < 2; omega⟩
    ⟨(i 0).val % 64, Nat.mod_lt _ (by decide)⟩ (i 1)

theorem countsOf_apply (G : Fin 2 → Fin 64 → Fin 128 → EReal) (h : Fin 2) (g : Fin 64) (j : Fin 128) :
    countsOf G (ix2 (⟨h.val * 64 + g.val, by omega⟩ : Fin 128) j) = G h g j := by
  show G ⟨(h.val * 64 + g.val) / 64, _⟩ ⟨(h.val * 64 + g.val) % 64, _⟩ j = G h g j
  have e1 : (⟨(h.val * 64 + g.val) / 64, by omega⟩ : Fin 2) = h := Fin.ext (by show (h.val * 64 + g.val) / 64 = h.val; omega)
  have e2 : (⟨(h.val * 64 + g.val) % 64, Nat.mod_lt _ (by decide)⟩ : Fin 64) = g := Fin.ext (by show (h.val * 64 + g.val) % 64 = g.val; omega)
  exact congrArg₂ (fun a b => G a b j) e1 e2

/-- What the last point of half h writes back is its block of that array. -/
theorem flushed11_last (G : Fin 2 → Fin 64 → Fin 128 → EReal)
    (hG : ∀ (h : Fin 2) (g : Fin 64) (j : Fin 128),
      ((dat0 V c).after 11 (lastPt h) : S64x128.Idx → EReal) (ix2 g j) = G h g j) (h : Fin 2) :
    (dat0 V c).flushed 11 (lastPt h) = ((cfg0.win 11).blk (lastPt h)).view.read (Elt Ideal) (countsOf G) := by
  show (cfg0.win 11).cut (grid0.coords (lastPt h)) ((dat0 V c).after 11 (lastPt h)) = _
  refine funext fun (y : S64x128.Idx) => ?_
  obtain ⟨g, j, rfl⟩ : ∃ (g : Fin 64) (j : Fin 128), y = ix2 g j := ⟨y 0, y 1, eq_ix2 y⟩
  refine (hG h g j).trans ?_
  show G h g j = countsOf G (((cfg0.win 11).blk (lastPt h)).view.emb (ix2 g j))
  have e : ((cfg0.win 11).blk (lastPt h)).view.emb (ix2 g j) = (ix2 (⟨h.val * 64 + g.val, by omega⟩ : Fin 128) j : S128x128.Idx) := by
    funext a; apply Fin.ext
    obtain ⟨-, -, -, -, e0, e1⟩ := idx_out (lastPt h)
    have hl : (lastPt h).val / 125 = h.val := by show (h.val * 125 + 124) / 125 = h.val; omega
    match a with
    | ⟨0, _⟩ => show win0_11.index (lastPt h) (0 : Fin 2) * 64 + 1 * g.val = h.val * 64 + g.val; rw [e0, hl]; omega
    | ⟨1, _⟩ => show win0_11.index (lastPt h) (1 : Fin 2) * 128 + 1 * j.val = j.val; rw [e1]; omega
  exact ((congrArg (countsOf G) e).trans (countsOf_apply G h g j)).symm

/-- The points that write back are the last points of the two halves. -/
theorem flushed11_eq (G : Fin 2 → Fin 64 → Fin 128 → EReal)
    (hG : ∀ (h : Fin 2) (g : Fin 64) (j : Fin 128),
      ((dat0 V c).after 11 (lastPt h) : S64x128.Idx → EReal) (ix2 g j) = G h g j)
    (t : Fin cfg0.N) (hf : (cfg0.win 11).flush t = true) :
    (dat0 V c).flushed 11 t = ((cfg0.win 11).blk t).view.read (Elt Ideal) (countsOf G) := by
  have h124 : t.val % 125 = 124 := (flush0_11 t).mp hf
  have hN : t.val < 250 := lt_of_lt_of_eq t.isLt N_0
  have ht : t = lastPt ⟨t.val / 125, by omega⟩ := Fin.ext (by show t.val = t.val / 125 * 125 + 124; omega)
  rw [ht]
  exact flushed11_last G hG _

/-- Row 64 h + g of the counts array is in the block of half h's last point, which is written back. -/
theorem cover11 (i : S128x128.Idx) :
    ∃ t : Fin cfg0.N, (cfg0.win 11).flush t = true ∧ i ∈ ((cfg0.win 11).blk t).view.set := by
  have hi0 : (i 0).val < 128 := (i 0).isLt
  have hi1 : (i 1).val < 128 := (i 1).isLt
  have hh : (i 0).val / 64 < 2 := by omega
  have hl : (lastPt ⟨(i 0).val / 64, hh⟩).val = (i 0).val / 64 * 125 + 124 := rfl
  refine ⟨lastPt ⟨(i 0).val / 64, hh⟩, (flush0_11 _).mpr (by rw [hl]; omega), ?_⟩
  rw [mem_blk11]
  intro a
  obtain ⟨-, -, -, -, e0, e1⟩ := idx_out (lastPt ⟨(i 0).val / 64, hh⟩)
  match a with
  | ⟨0, _⟩ =>
    show win0_11.index (lastPt ⟨(i 0).val / 64, hh⟩) (0 : Fin 2) * 64 ≤ (i 0).val ∧ (i 0).val < win0_11.index (lastPt ⟨(i 0).val / 64, hh⟩) (0 : Fin 2) * 64 + 64
    rw [e0, hl]; omega
  | ⟨1, _⟩ =>
    show win0_11.index (lastPt ⟨(i 0).val / 64, hh⟩) (1 : Fin 2) * 128 ≤ (i 1).val ∧ (i 1).val < win0_11.index (lastPt ⟨(i 0).val / 64, hh⟩) (1 : Fin 2) * 128 + 128
    rw [e1]; omega

end Blocks0

open Blocks0

/-- The blocks of point t are tile t's rows of the arrays the region finds. -/
theorem tile_of_enters {A : Args} (hV : Enters0 V c A) (t : Fin cfg0.N) :
    Pay0.Tile A (tileOf t) (blk0 V c t) (blk1 V c t) (blk2 V c t) (blk3 V c t) (blk4 V c t) (blk5 V c t)
      (blk6 V c t) (blk7 V c t) (blk8 V c t) :=
  ⟨fun r d => (blk0_apply t r d).trans (congrFun hV.src _),
   fun r d => (blk1_apply t r d).trans (congrFun hV.dest _),
   fun r d => (blk2_apply t r d).trans (congrFun hV.edge _),
   fun r => (blk3_apply t r).trans (hV.batch _),
   fun g j => (blk4_apply t g j).trans (congrFun hV.u _),
   fun j k => (blk5_apply t j k).trans (congrFun hV.W1 _),
   fun k => (blk6_apply t k).trans (hV.b1 k),
   fun k d => (blk7_apply t k d).trans (congrFun hV.W2 _),
   fun d => (blk8_apply t d).trans (hV.b2 d)⟩

/-- The row array after the run, from what each point leaves in its block. -/
theorem arr9_eq (G : Fin 500000 → Fin 128 → EReal)
    (hG : ∀ (t : Fin cfg0.N) (r : Fin 2000) (d : Fin 128),
      ((dat0 V c).after 9 t : S2000x128.Idx → EReal) (ix2 r d) = G (row (tileOf t) r) d)
    (e : Fin 500000) (d : Fin 128) :
    ((dat0 V c).arrAt 9 cfg0.N : S500000x128.Idx → EReal) (ix2 e d) = G e d :=
  congrFun ((dat0 V c).arrAt_eq_of_cover 9 (rowsOf G) (fun t _ => flushed9_eq G hG t) cover9) (ix2 e d)

/-- The sums array after the run: rows 64 h + g hold what half h's last point leaves. -/
theorem arr10_eq (G : Fin 2 → Fin 64 → Fin 256 → EReal)
    (hG : ∀ (h : Fin 2) (g : Fin 64) (j : Fin 256),
      ((dat0 V c).after 10 (lastPt h) : S64x256.Idx → EReal) (ix2 g j) = G h g j)
    (h : Fin 2) (g : Fin 64) (j : Fin 256) :
    ((dat0 V c).arrAt 10 cfg0.N : S128x256.Idx → EReal) (ix2 (⟨h.val * 64 + g.val, by omega⟩ : Fin 128) j) = G h g j :=
  (congrFun ((dat0 V c).arrAt_eq_of_cover 10 (sumsOf G) (flushed10_eq G hG) cover10) _).trans (sumsOf_apply G h g j)

/-- The counts array after the run, likewise. -/
theorem arr11_eq (G : Fin 2 → Fin 64 → Fin 128 → EReal)
    (hG : ∀ (h : Fin 2) (g : Fin 64) (j : Fin 128),
      ((dat0 V c).after 11 (lastPt h) : S64x128.Idx → EReal) (ix2 g j) = G h g j)
    (h : Fin 2) (g : Fin 64) (j : Fin 128) :
    ((dat0 V c).arrAt 11 cfg0.N : S128x128.Idx → EReal) (ix2 (⟨h.val * 64 + g.val, by omega⟩ : Fin 128) j) = G h g j :=
  (congrFun ((dat0 V c).arrAt_eq_of_cover 11 (countsOf G) (flushed11_eq G hG) cover11) _).trans (countsOf_apply G h g j)

end Cert.EdgeNorm.Region0

end
-- ==== Proof.Consts.lean ====
/-
  The five constants of the specification as real numbers: the zero word is 0, the unit words of both formats are 1,
  the word of two is 2, and the small constant under the root is a positive real (its exact value plays no part).
  The patterns are opened here once, so that no other module unfolds them.
-/
import proofs.«429340_j53730040873192_3_alg».proof.Proof.Spec

noncomputable section

namespace Cert.EdgeNorm

open Idealize.ShloMosaic

theorem zero_eq : zero = (0 : EReal) := by
  unfold zero; simp [Ideal.ofBits, Ideal.ieee]

theorem one_eq : one = (1 : EReal) := by
  unfold one; simp [Ideal.ofBits, Ideal.ieee, -EReal.coe_mul]; norm_num

theorem two_eq : two = ((2 : ℝ) : EReal) := by
  unfold two; simp [Ideal.ofBits, Ideal.ieee, -EReal.coe_mul]; norm_num

theorem oneN_eq : oneN = (1 : EReal) := by
  unfold oneN; simp [Ideal.ofBits, Ideal.ieee, -EReal.coe_mul]; norm_num

theorem eps_pos : ∃ r : ℝ, 0 < r ∧ eps = (r : EReal) := by
  unfold eps
  refine ⟨_, ?_, by simp [Ideal.ofBits, Ideal.ieee, -EReal.coe_mul]; rfl⟩
  norm_num

end Cert.EdgeNorm

end
-- ==== Proof.KRegion0.lean ====
/-
  The first region's three output arrays after its run.

  The region walks 250 points, two halves of 125; point t handles tile t (2000 edges). At every point the body
  writes the tile's updated rows into the row block; into the sums block and the counts block it writes the
  block's contents plus the tile's contribution, after setting both blocks to zero at the first point of a half.
  So after point 125 h + i the row block holds tile 125 h + i's updated rows, and the sums and counts blocks hold
  zero plus the contributions of tiles 125 h, …, 125 h + i added in that order; at the last point of a half that is
  the half's sum, which is what the half's rows of the sums and counts arrays end holding.
-/
import proofs.«429340_j53730040873192_3_alg».proof.Proof.Gen.KernelIdeal.Frame
import proofs.«429340_j53730040873192_3_alg».proof.Proof.KArgs
import proofs.«429340_j53730040873192_3_alg».proof.Proof.KPay0
import proofs.«429340_j53730040873192_3_alg».proof.Proof.KBlocks0
import proofs.«429340_j53730040873192_3_alg».proof.Proof.Consts
import Idealize.ShloMosaic.Lib.Pipeline.Value
import Idealize.ShloMosaic.Lib.Tactic
import Mathlib.Algebra.BigOperators.Fin

noncomputable section

namespace Cert.EdgeNorm.Region0

open Idealize.ShloMosaic Idealize.ShloMosaic.TcCoe Idealize.ShloMosaic.ValueIdx Idealize.SL.Sem
open Cert.KernelIdeal Cert.KernelIdeal.Gen Cert.EdgeNorm

variable (V : (c : Dev nD) → (b : Ref sig .tc) → Buf (Elt Ideal) ((c : Thread nD τ).loc b)) (c : Dev nD) (A : Args)

namespace After

/-! ## What each case of the body leaves in the three output blocks, as functions of the loaded blocks

  In both cases the row block ends at the row update of the loaded blocks. At the first point of a half the sums
  block ends at the sums update of the zero block, the counts block at the counts update of the zero block; at any
  other point they end at the updates of what the blocks held before. -/

section Pieces

variable {F : FTy → Type} [FloatOps F]

theorem hz2 : (![0, 0] : Fin 2 → Nat) = fun _ => 0 := funext fun a => by fin_cases a <;> rfl

theorem out_A_9 (c : Dev nD) (i : grid0.Coords) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S2000x1 .i32) (h5 : a5.IsWhole) (a6 : Memref sig .tc .vmem S64x64 .f32) (h6 : a6.IsWhole) (a7 : Memref sig .tc .vmem S448x512 .bf16) (h7 : a7.IsWhole) (a8 : Memref sig .tc .vmem S1x512 .f32) (h8 : a8.IsWhole) (a9 : Memref sig .tc .vmem S512x128 .bf16) (h9 : a9.IsWhole) (a10 : Memref sig .tc .vmem S1x128 .f32) (h10 : a10.IsWhole) (a11 : Memref sig .tc .vmem S2000x128 .f32) (h11 : a11.IsWhole) (a12 : Memref sig .tc .vmem S64x256 .f32) (h12 : a12.IsWhole) (a13 : Memref sig .tc .vmem S64x128 .f32) (h13 : a13.IsWhole) (hc : cond0_0 i) (x0 x1 x2 : Vec F S2000x128 .f32) (x3 : Vec F S2000x1 .i32) (x4 : Vec F S64x64 .f32) (x5 : Vec F S448x512 .bf16) (x6 : Vec F S1x512 .f32) (x7 : Vec F S512x128 .bf16) (x8 : Vec F S1x128 .f32)  :
    out0_A_9 c i a2 h2 a3 h3 a4 h4 a5 h5 a6 h6 a7 h7 a8 h8 a9 h9 a10 h10 a11 h11 a12 h12 a13 h13 hc x0 x1 x2 x3 x4 x5 x6 x7 x8  = k0_pay1 x2 (k0_pay7 x2 x3 x4 x0 x1 x5 x6 x7) x8 := by
  unfold out0_A_9
  rw [View.read_writes_eq_canon _ _ _ (cover0_A_9 c i a2 h2 a3 h3 a4 h4 a5 h5 a6 h6 a7 h7 a8 h8 a9 h9 a10 h10 a11 h11 a12 h12 a13 h13 hc x0 x1 x2 x3 x4 x5 x6 x7 x8 )]
  unfold kernelRun0_A
  dsimp only
  sl_unfold_words
  rw [View.canon_unit_zero (S := S2000x128) hz2]
  simp only [View.readAt_eq_ld, h2.read_unread, h3.read_unread, h4.read_unread, h5.read_unread, h6.read_unread, h7.read_unread, h8.read_unread, h9.read_unread, h10.read_unread, h12.read_unread, h13.read_unread, View.ld_unit_zero (S := S2000x128) hz2, View.ld_unit_zero (S := S2000x1) hz2, View.ld_unit_zero (S := S64x64) hz2, View.ld_unit_zero (S := S448x512) hz2, View.ld_unit_zero (S := S1x512) hz2, View.ld_unit_zero (S := S512x128) hz2, View.ld_unit_zero (S := S1x128) hz2, View.ld_unit_zero (S := S64x256) hz2, View.ld_unit_zero (S := S64x128) hz2]

theorem out_B_9 (c : Dev nD) (i : grid0.Coords) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S2000x1 .i32) (h5 : a5.IsWhole) (a6 : Memref sig .tc .vmem S64x64 .f32) (h6 : a6.IsWhole) (a7 : Memref sig .tc .vmem S448x512 .bf16) (h7 : a7.IsWhole) (a8 : Memref sig .tc .vmem S1x512 .f32) (h8 : a8.IsWhole) (a9 : Memref sig .tc .vmem S512x128 .bf16) (h9 : a9.IsWhole) (a10 : Memref sig .tc .vmem S1x128 .f32) (h10 : a10.IsWhole) (a11 : Memref sig .tc .vmem S2000x128 .f32) (h11 : a11.IsWhole) (a12 : Memref sig .tc .vmem S64x256 .f32) (h12 : a12.IsWhole) (a13 : Memref sig .tc .vmem S64x128 .f32) (h13 : a13.IsWhole) (hc : ¬cond0_0 i) (x0 x1 x2 : Vec F S2000x128 .f32) (x3 : Vec F S2000x1 .i32) (x4 : Vec F S64x64 .f32) (x5 : Vec F S448x512 .bf16) (x6 : Vec F S1x512 .f32) (x7 : Vec F S512x128 .bf16) (x8 : Vec F S1x128 .f32) (xo10 : Vec F S64x256 .f32) (xo11 : Vec F S64x128 .f32) :
    out0_B_9 c i a2 h2 a3 h3 a4 h4 a5 h5 a6 h6 a7 h7 a8 h8 a9 h9 a10 h10 a11 h11 a12 h12 a13 h13 hc x0 x1 x2 x3 x4 x5 x6 x7 x8 xo10 xo11 = k0_pay1 x2 (k0_pay7 x2 x3 x4 x0 x1 x5 x6 x7) x8 := by
  unfold out0_B_9
  rw [View.read_writes_eq_canon _ _ _ (cover0_B_9 c i a2 h2 a3 h3 a4 h4 a5 h5 a6 h6 a7 h7 a8 h8 a9 h9 a10 h10 a11 h11 a12 h12 a13 h13 hc x0 x1 x2 x3 x4 x5 x6 x7 x8 xo10 xo11)]
  unfold kernelRun0_B
  dsimp only
  sl_unfold_words
  rw [View.canon_unit_zero (S := S2000x128) hz2]
  simp only [View.readAt_eq_ld, h2.read_unread, h3.read_unread, h4.read_unread, h5.read_unread, h6.read_unread, h7.read_unread, h8.read_unread, h9.read_unread, h10.read_unread, h12.read_unread, h13.read_unread, View.ld_unit_zero (S := S2000x128) hz2, View.ld_unit_zero (S := S2000x1) hz2, View.ld_unit_zero (S := S64x64) hz2, View.ld_unit_zero (S := S448x512) hz2, View.ld_unit_zero (S := S1x512) hz2, View.ld_unit_zero (S := S512x128) hz2, View.ld_unit_zero (S := S1x128) hz2, View.ld_unit_zero (S := S64x256) hz2, View.ld_unit_zero (S := S64x128) hz2]

theorem out_A_10 (c : Dev nD) (i : grid0.Coords) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S2000x1 .i32) (h5 : a5.IsWhole) (a6 : Memref sig .tc .vmem S64x64 .f32) (h6 : a6.IsWhole) (a7 : Memref sig .tc .vmem S448x512 .bf16) (h7 : a7.IsWhole) (a8 : Memref sig .tc .vmem S1x512 .f32) (h8 : a8.IsWhole) (a9 : Memref sig .tc .vmem S512x128 .bf16) (h9 : a9.IsWhole) (a10 : Memref sig .tc .vmem S1x128 .f32) (h10 : a10.IsWhole) (a11 : Memref sig .tc .vmem S2000x128 .f32) (h11 : a11.IsWhole) (a12 : Memref sig .tc .vmem S64x256 .f32) (h12 : a12.IsWhole) (a13 : Memref sig .tc .vmem S64x128 .f32) (h13 : a13.IsWhole) (hc : cond0_0 i) (x0 x1 x2 : Vec F S2000x128 .f32) (x3 : Vec F S2000x1 .i32) (x4 : Vec F S64x64 .f32) (x5 : Vec F S448x512 .bf16) (x6 : Vec F S1x512 .f32) (x7 : Vec F S512x128 .bf16) (x8 : Vec F S1x128 .f32)  :
    out0_A_10 c i a2 h2 a3 h3 a4 h4 a5 h5 a6 h6 a7 h7 a8 h8 a9 h9 a10 h10 a11 h11 a12 h12 a13 h13 hc x0 x1 x2 x3 x4 x5 x6 x7 x8  = k0_pay2 x2 (k0_pay6 x3) (k0_pay7 x2 x3 x4 x0 x1 x5 x6 x7) x8 k0_pay4 := by
  unfold out0_A_10
  rw [View.read_writes_eq_canon _ _ _ (cover0_A_10 c i a2 h2 a3 h3 a4 h4 a5 h5 a6 h6 a7 h7 a8 h8 a9 h9 a10 h10 a11 h11 a12 h12 a13 h13 hc x0 x1 x2 x3 x4 x5 x6 x7 x8 )]
  unfold kernelRun0_A
  dsimp only
  sl_unfold_words
  rw [View.canon_cons_unit_zero (S := S64x256) hz2, View.readCov_unit_zero (S := S64x256) _ hz2]
  simp only [View.readAt_eq_ld, h2.read_unread, h3.read_unread, h4.read_unread, h5.read_unread, h6.read_unread, h7.read_unread, h8.read_unread, h9.read_unread, h10.read_unread, h12.read_unread, h13.read_unread, View.ld_unit_zero (S := S2000x128) hz2, View.ld_unit_zero (S := S2000x1) hz2, View.ld_unit_zero (S := S64x64) hz2, View.ld_unit_zero (S := S448x512) hz2, View.ld_unit_zero (S := S1x512) hz2, View.ld_unit_zero (S := S512x128) hz2, View.ld_unit_zero (S := S1x128) hz2, View.ld_unit_zero (S := S64x256) hz2, View.ld_unit_zero (S := S64x128) hz2]

theorem out_B_10 (c : Dev nD) (i : grid0.Coords) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S2000x1 .i32) (h5 : a5.IsWhole) (a6 : Memref sig .tc .vmem S64x64 .f32) (h6 : a6.IsWhole) (a7 : Memref sig .tc .vmem S448x512 .bf16) (h7 : a7.IsWhole) (a8 : Memref sig .tc .vmem S1x512 .f32) (h8 : a8.IsWhole) (a9 : Memref sig .tc .vmem S512x128 .bf16) (h9 : a9.IsWhole) (a10 : Memref sig .tc .vmem S1x128 .f32) (h10 : a10.IsWhole) (a11 : Memref sig .tc .vmem S2000x128 .f32) (h11 : a11.IsWhole) (a12 : Memref sig .tc .vmem S64x256 .f32) (h12 : a12.IsWhole) (a13 : Memref sig .tc .vmem S64x128 .f32) (h13 : a13.IsWhole) (hc : ¬cond0_0 i) (x0 x1 x2 : Vec F S2000x128 .f32) (x3 : Vec F S2000x1 .i32) (x4 : Vec F S64x64 .f32) (x5 : Vec F S448x512 .bf16) (x6 : Vec F S1x512 .f32) (x7 : Vec F S512x128 .bf16) (x8 : Vec F S1x128 .f32) (xo10 : Vec F S64x256 .f32) (xo11 : Vec F S64x128 .f32) :
    out0_B_10 c i a2 h2 a3 h3 a4 h4 a5 h5 a6 h6 a7 h7 a8 h8 a9 h9 a10 h10 a11 h11 a12 h12 a13 h13 hc x0 x1 x2 x3 x4 x5 x6 x7 x8 xo10 xo11 = k0_pay2 x2 (k0_pay6 x3) (k0_pay7 x2 x3 x4 x0 x1 x5 x6 x7) x8 xo10 := by
  unfold out0_B_10
  rw [View.read_writes_eq_canon _ _ _ (cover0_B_10 c i a2 h2 a3 h3 a4 h4 a5 h5 a6 h6 a7 h7 a8 h8 a9 h9 a10 h10 a11 h11 a12 h12 a13 h13 hc x0 x1 x2 x3 x4 x5 x6 x7 x8 xo10 xo11)]
  unfold kernelRun0_B
  dsimp only
  sl_unfold_words
  rw [View.canon_unit_zero (S := S64x256) hz2]
  simp only [View.readAt_eq_ld, h2.read_unread, h3.read_unread, h4.read_unread, h5.read_unread, h6.read_unread, h7.read_unread, h8.read_unread, h9.read_unread, h10.read_unread, h12.read_unread, h13.read_unread, View.ld_unit_zero (S := S2000x128) hz2, View.ld_unit_zero (S := S2000x1) hz2, View.ld_unit_zero (S := S64x64) hz2, View.ld_unit_zero (S := S448x512) hz2, View.ld_unit_zero (S := S1x512) hz2, View.ld_unit_zero (S := S512x128) hz2, View.ld_unit_zero (S := S1x128) hz2, View.ld_unit_zero (S := S64x256) hz2, View.ld_unit_zero (S := S64x128) hz2]

theorem out_A_11 (c : Dev nD) (i : grid0.Coords) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S2000x1 .i32) (h5 : a5.IsWhole) (a6 : Memref sig .tc .vmem S64x64 .f32) (h6 : a6.IsWhole) (a7 : Memref sig .tc .vmem S448x512 .bf16) (h7 : a7.IsWhole) (a8 : Memref sig .tc .vmem S1x512 .f32) (h8 : a8.IsWhole) (a9 : Memref sig .tc .vmem S512x128 .bf16) (h9 : a9.IsWhole) (a10 : Memref sig .tc .vmem S1x128 .f32) (h10 : a10.IsWhole) (a11 : Memref sig .tc .vmem S2000x128 .f32) (h11 : a11.IsWhole) (a12 : Memref sig .tc .vmem S64x256 .f32) (h12 : a12.IsWhole) (a13 : Memref sig .tc .vmem S64x128 .f32) (h13 : a13.IsWhole) (hc : cond0_0 i) (x0 x1 x2 : Vec F S2000x128 .f32) (x3 : Vec F S2000x1 .i32) (x4 : Vec F S64x64 .f32) (x5 : Vec F S448x512 .bf16) (x6 : Vec F S1x512 .f32) (x7 : Vec F S512x128 .bf16) (x8 : Vec F S1x128 .f32)  :
    out0_A_11 c i a2 h2 a3 h3 a4 h4 a5 h5 a6 h6 a7 h7 a8 h8 a9 h9 a10 h10 a11 h11 a12 h12 a13 h13 hc x0 x1 x2 x3 x4 x5 x6 x7 x8  = k0_pay3 (k0_pay6 x3) k0_pay5 := by
  unfold out0_A_11
  rw [View.read_writes_eq_canon _ _ _ (cover0_A_11 c i a2 h2 a3 h3 a4 h4 a5 h5 a6 h6 a7 h7 a8 h8 a9 h9 a10 h10 a11 h11 a12 h12 a13 h13 hc x0 x1 x2 x3 x4 x5 x6 x7 x8 )]
  unfold kernelRun0_A
  dsimp only
  sl_unfold_words
  rw [View.canon_cons_unit_zero (S := S64x128) hz2, View.readCov_unit_zero (S := S64x128) _ hz2]
  simp only [View.readAt_eq_ld, h2.read_unread, h3.read_unread, h4.read_unread, h5.read_unread, h6.read_unread, h7.read_unread, h8.read_unread, h9.read_unread, h10.read_unread, h12.read_unread, h13.read_unread, View.ld_unit_zero (S := S2000x128) hz2, View.ld_unit_zero (S := S2000x1) hz2, View.ld_unit_zero (S := S64x64) hz2, View.ld_unit_zero (S := S448x512) hz2, View.ld_unit_zero (S := S1x512) hz2, View.ld_unit_zero (S := S512x128) hz2, View.ld_unit_zero (S := S1x128) hz2, View.ld_unit_zero (S := S64x256) hz2, View.ld_unit_zero (S := S64x128) hz2]

theorem out_B_11 (c : Dev nD) (i : grid0.Coords) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S2000x1 .i32) (h5 : a5.IsWhole) (a6 : Memref sig .tc .vmem S64x64 .f32) (h6 : a6.IsWhole) (a7 : Memref sig .tc .vmem S448x512 .bf16) (h7 : a7.IsWhole) (a8 : Memref sig .tc .vmem S1x512 .f32) (h8 : a8.IsWhole) (a9 : Memref sig .tc .vmem S512x128 .bf16) (h9 : a9.IsWhole) (a10 : Memref sig .tc .vmem S1x128 .f32) (h10 : a10.IsWhole) (a11 : Memref sig .tc .vmem S2000x128 .f32) (h11 : a11.IsWhole) (a12 : Memref sig .tc .vmem S64x256 .f32) (h12 : a12.IsWhole) (a13 : Memref sig .tc .vmem S64x128 .f32) (h13 : a13.IsWhole) (hc : ¬cond0_0 i) (x0 x1 x2 : Vec F S2000x128 .f32) (x3 : Vec F S2000x1 .i32) (x4 : Vec F S64x64 .f32) (x5 : Vec F S448x512 .bf16) (x6 : Vec F S1x512 .f32) (x7 : Vec F S512x128 .bf16) (x8 : Vec F S1x128 .f32) (xo10 : Vec F S64x256 .f32) (xo11 : Vec F S64x128 .f32) :
    out0_B_11 c i a2 h2 a3 h3 a4 h4 a5 h5 a6 h6 a7 h7 a8 h8 a9 h9 a10 h10 a11 h11 a12 h12 a13 h13 hc x0 x1 x2 x3 x4 x5 x6 x7 x8 xo10 xo11 = k0_pay3 (k0_pay6 x3) xo11 := by
  unfold out0_B_11
  rw [View.read_writes_eq_canon _ _ _ (cover0_B_11 c i a2 h2 a3 h3 a4 h4 a5 h5 a6 h6 a7 h7 a8 h8 a9 h9 a10 h10 a11 h11 a12 h12 a13 h13 hc x0 x1 x2 x3 x4 x5 x6 x7 x8 xo10 xo11)]
  unfold kernelRun0_B
  dsimp only
  sl_unfold_words
  rw [View.canon_unit_zero (S := S64x128) hz2]
  simp only [View.readAt_eq_ld, h2.read_unread, h3.read_unread, h4.read_unread, h5.read_unread, h6.read_unread, h7.read_unread, h8.read_unread, h9.read_unread, h10.read_unread, h12.read_unread, h13.read_unread, View.ld_unit_zero (S := S2000x128) hz2, View.ld_unit_zero (S := S2000x1) hz2, View.ld_unit_zero (S := S64x64) hz2, View.ld_unit_zero (S := S448x512) hz2, View.ld_unit_zero (S := S1x512) hz2, View.ld_unit_zero (S := S512x128) hz2, View.ld_unit_zero (S := S1x128) hz2, View.ld_unit_zero (S := S64x256) hz2, View.ld_unit_zero (S := S64x128) hz2]

end Pieces

/-! ## The three blocks after each point -/

variable {V c A}

/-- The row block after point t holds tile t's updated rows, whichever case the point is. -/
theorem x_at (hV : Enters0 V c A) (hr : InRange A) (t : Fin cfg0.N) (r : Fin 2000) (d : Fin 128) :
    ((outsAt0 V c t.val t.isLt).1 : S2000x128.Idx → EReal) (ix2 r d) = xv A (row (tileOf t) r) d := by
  by_cases h0 : t.val % 125 = 0
  · rw [outsAt0_A V c t h0]
    dsimp only
    refine (congrFun (out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (blk0 V c t) (blk1 V c t) (blk2 V c t) (blk3 V c t) (blk4 V c t) (blk5 V c t) (blk6 V c t) (blk7 V c t) (blk8 V c t)) (ix2 r d)).trans ?_
    exact Pay0.pay_x (tile_of_enters hV t) hr r d
  · rw [outsAt0_B V c t h0]
    dsimp only
    refine (congrFun (out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (blk0 V c t) (blk1 V c t) (blk2 V c t) (blk3 V c t) (blk4 V c t) (blk5 V c t) (blk6 V c t) (blk7 V c t) (blk8 V c t) (outsAt0 V c (t.val - 1) (Nat.lt_of_le_of_lt (Nat.sub_le _ _) t.isLt)).2.1 (outsAt0 V c (t.val - 1) (Nat.lt_of_le_of_lt (Nat.sub_le _ _) t.isLt)).2.2) (ix2 r d)).trans ?_
    exact Pay0.pay_x (tile_of_enters hV t) hr r d

/-- At the first point of a half the sums block is reset and then takes the tile's contribution. -/
theorem stats_A (hV : Enters0 V c A) (hr : InRange A) (g : Fin 64) (j : Fin 256) (t : Fin cfg0.N) (h0 : t.val % 125 = 0) :
    ((outsAt0 V c t.val t.isLt).2.1 : S64x256.Idx → EReal) (ix2 g j) = zero + tileStat A (tileOf t) g j := by
  rw [outsAt0_A V c t h0]
  dsimp only
  refine (congrFun (out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (blk0 V c t) (blk1 V c t) (blk2 V c t) (blk3 V c t) (blk4 V c t) (blk5 V c t) (blk6 V c t) (blk7 V c t) (blk8 V c t)) (ix2 g j)).trans ?_
  refine (Pay0.pay_stats (tile_of_enters hV t) hr (k0_pay4 (F := Ideal)) g j).trans ?_
  rw [Pay0.pay_zero_stats]

/-- At every other point it takes the tile's contribution on top of what the point before left. -/
theorem stats_B (hV : Enters0 V c A) (hr : InRange A) (g : Fin 64) (j : Fin 256) (t : Fin cfg0.N) (h0 : ¬t.val % 125 = 0) :
    ((outsAt0 V c t.val t.isLt).2.1 : S64x256.Idx → EReal) (ix2 g j)
      = ((outsAt0 V c (t.val - 1) (Nat.lt_of_le_of_lt (Nat.sub_le _ _) t.isLt)).2.1 : S64x256.Idx → EReal) (ix2 g j) + tileStat A (tileOf t) g j := by
  rw [outsAt0_B V c t h0]
  dsimp only
  refine (congrFun (out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (blk0 V c t) (blk1 V c t) (blk2 V c t) (blk3 V c t) (blk4 V c t) (blk5 V c t) (blk6 V c t) (blk7 V c t) (blk8 V c t) (outsAt0 V c (t.val - 1) (Nat.lt_of_le_of_lt (Nat.sub_le _ _) t.isLt)).2.1 (outsAt0 V c (t.val - 1) (Nat.lt_of_le_of_lt (Nat.sub_le _ _) t.isLt)).2.2) (ix2 g j)).trans ?_
  exact Pay0.pay_stats (tile_of_enters hV t) hr (outsAt0 V c (t.val - 1) (Nat.lt_of_le_of_lt (Nat.sub_le _ _) t.isLt)).2.1 g j

/-- The counts block, likewise. -/
theorem cnt_A (hV : Enters0 V c A) (g : Fin 64) (j : Fin 128) (t : Fin cfg0.N) (h0 : t.val % 125 = 0) :
    ((outsAt0 V c t.val t.isLt).2.2 : S64x128.Idx → EReal) (ix2 g j) = zero + tileCnt A (tileOf t) g := by
  rw [outsAt0_A V c t h0]
  dsimp only
  refine (congrFun (out_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (blk0 V c t) (blk1 V c t) (blk2 V c t) (blk3 V c t) (blk4 V c t) (blk5 V c t) (blk6 V c t) (blk7 V c t) (blk8 V c t)) (ix2 g j)).trans ?_
  refine (Pay0.pay_cnt (tile_of_enters hV t).batch (k0_pay5 (F := Ideal)) g j).trans ?_
  rw [Pay0.pay_zero_cnt]

theorem cnt_B (hV : Enters0 V c A) (g : Fin 64) (j : Fin 128) (t : Fin cfg0.N) (h0 : ¬t.val % 125 = 0) :
    ((outsAt0 V c t.val t.isLt).2.2 : S64x128.Idx → EReal) (ix2 g j)
      = ((outsAt0 V c (t.val - 1) (Nat.lt_of_le_of_lt (Nat.sub_le _ _) t.isLt)).2.2 : S64x128.Idx → EReal) (ix2 g j) + tileCnt A (tileOf t) g := by
  rw [outsAt0_B V c t h0]
  dsimp only
  refine (congrFun (out_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (blk0 V c t) (blk1 V c t) (blk2 V c t) (blk3 V c t) (blk4 V c t) (blk5 V c t) (blk6 V c t) (blk7 V c t) (blk8 V c t) (outsAt0 V c (t.val - 1) (Nat.lt_of_le_of_lt (Nat.sub_le _ _) t.isLt)).2.1 (outsAt0 V c (t.val - 1) (Nat.lt_of_le_of_lt (Nat.sub_le _ _) t.isLt)).2.2) (ix2 g j)).trans ?_
  exact Pay0.pay_cnt (tile_of_enters hV t).batch (outsAt0 V c (t.val - 1) (Nat.lt_of_le_of_lt (Nat.sub_le _ _) t.isLt)).2.2 g j

/-! ## The running total over the points -/

/-- The total a block keeps over the points: started afresh from zero at the first point of each half of 125 points,
    grown by the point's term at every other point. -/
def acc (f : ℕ → EReal) : ℕ → EReal
  | 0 => zero + f 0
  | n + 1 => if (n + 1) % 125 = 0 then zero + f (n + 1) else acc f n + f (n + 1)

theorem acc_reset (f : ℕ → EReal) (n : ℕ) (h : n % 125 = 0) : acc f n = zero + f n := by
  cases n with
  | zero => rfl
  | succ n => rw [acc, if_pos h]

theorem acc_step (f : ℕ → EReal) (n : ℕ) (h : ¬(n + 1) % 125 = 0) : acc f (n + 1) = acc f n + f (n + 1) := by
  rw [acc, if_neg h]

/-- At offset i of half h the total is zero plus the half's first i + 1 terms, added in order. -/
theorem acc_half (f : ℕ → EReal) (h : ℕ) :
    ∀ i, i < 125 → acc f (h * 125 + i) = zero + ∑ s ∈ Finset.range (i + 1), f (h * 125 + s)
  | 0, _ => by rw [acc_reset f (h * 125 + 0) (by omega), Finset.sum_range_one]
  | i + 1, hi => by
    have hne : ¬(h * 125 + i + 1) % 125 = 0 := by omega
    rw [show h * 125 + (i + 1) = (h * 125 + i) + 1 from rfl, acc_step f _ hne, acc_half f h i (by omega),
      Finset.sum_range_succ (fun s => f (h * 125 + s)) (i + 1), add_assoc]
    rfl

/-- Tile n's contribution to the sums, by number; nothing past the last tile. -/
def tS (A : Args) (g : Fin 64) (j : Fin 256) (n : ℕ) : EReal := if h : n < 250 then tileStat A ⟨n, h⟩ g j else 0
/-- Tile n's contribution to the counts. -/
def tC (A : Args) (g : Fin 64) (n : ℕ) : EReal := if h : n < 250 then tileCnt A ⟨n, h⟩ g else 0

theorem tS_tile (A : Args) (g : Fin 64) (j : Fin 256) (t : Fin cfg0.N) : tS A g j t.val = tileStat A (tileOf t) g j := by
  unfold tS tileOf
  rw [dif_pos (lt_of_lt_of_eq t.isLt N_0)]
theorem tC_tile (A : Args) (g : Fin 64) (t : Fin cfg0.N) : tC A g t.val = tileCnt A (tileOf t) g := by
  unfold tC tileOf
  rw [dif_pos (lt_of_lt_of_eq t.isLt N_0)]

/-- The sums block after point n is the running total of the tiles' contributions. -/
theorem stats_inv (hV : Enters0 V c A) (hr : InRange A) (g : Fin 64) (j : Fin 256) :
    ∀ (n : ℕ) (hn : n < cfg0.N), ((outsAt0 V c n hn).2.1 : S64x256.Idx → EReal) (ix2 g j) = acc (tS A g j) n
  | 0, hn => by
    rw [acc_reset _ 0 (Nat.zero_mod 125)]
    exact (stats_A hV hr g j ⟨0, hn⟩ (Nat.zero_mod 125)).trans (congrArg (zero + ·) (tS_tile A g j ⟨0, hn⟩).symm)
  | n + 1, hn => by
    by_cases h0 : (n + 1) % 125 = 0
    · rw [acc_reset _ _ h0]
      exact (stats_A hV hr g j ⟨n + 1, hn⟩ h0).trans (congrArg (zero + ·) (tS_tile A g j ⟨n + 1, hn⟩).symm)
    · rw [acc_step _ _ h0]
      refine (stats_B hV hr g j ⟨n + 1, hn⟩ h0).trans ?_
      exact congrArg₂ (· + ·) (stats_inv hV hr g j n (Nat.lt_of_succ_lt hn)) (tS_tile A g j ⟨n + 1, hn⟩).symm

/-- The counts block after point n, likewise. -/
theorem cnt_inv (hV : Enters0 V c A) (g : Fin 64) (j : Fin 128) :
    ∀ (n : ℕ) (hn : n < cfg0.N), ((outsAt0 V c n hn).2.2 : S64x128.Idx → EReal) (ix2 g j) = acc (tC A g) n
  | 0, hn => by
    rw [acc_reset _ 0 (Nat.zero_mod 125)]
    exact (cnt_A hV g j ⟨0, hn⟩ (Nat.zero_mod 125)).trans (congrArg (zero + ·) (tC_tile A g ⟨0, hn⟩).symm)
  | n + 1, hn => by
    by_cases h0 : (n + 1) % 125 = 0
    · rw [acc_reset _ _ h0]
      exact (cnt_A hV g j ⟨n + 1, hn⟩ h0).trans (congrArg (zero + ·) (tC_tile A g ⟨n + 1, hn⟩).symm)
    · rw [acc_step _ _ h0]
      refine (cnt_B hV g j ⟨n + 1, hn⟩ h0).trans ?_
      exact congrArg₂ (· + ·) (cnt_inv hV g j n (Nat.lt_of_succ_lt hn)) (tC_tile A g ⟨n + 1, hn⟩).symm

end After

open After

/-- The updated rows. -/
theorem x_after (hV : Enters0 V c A) (hr : InRange A) (e : Fin 500000) (d : Fin 128) :
    ((dat0 V c).arrAt 9 cfg0.N : S500000x128.Idx → EReal) (ix2 e d) = xv A e d :=
  arr9_eq (fun e d => xv A e d) (fun t r d => by rw [after0_9]; exact x_at hV hr t r d) e d

/-- The two halves' sums: rows 64 h + g of the sums array are half h's sums of graph g. -/
theorem stats_after (hV : Enters0 V c A) (hr : InRange A) (h : Fin 2) (g : Fin 64) (j : Fin 256) :
    ((dat0 V c).arrAt 10 cfg0.N : S128x256.Idx → EReal) (ix2 (⟨h.val * 64 + g.val, by omega⟩ : Fin 128) j)
      = statsPart A h g j :=
  arr10_eq (fun h g j => statsPart A h g j) (fun h g j => by
    rw [after0_10]
    refine (stats_inv hV hr g j (lastPt h).val (lastPt h).isLt).trans ?_
    show acc (tS A g j) (h.val * 125 + 124) = _
    rw [acc_half _ h.val 124 (by omega), zero_eq, zero_add]
    show ∑ s ∈ Finset.range 125, tS A g j (h.val * 125 + s) = _
    rw [Finset.sum_range (fun s => tS A g j (h.val * 125 + s))]
    unfold statsPart
    refine Finset.sum_congr rfl fun i _ => ?_
    unfold tS pt
    rw [dif_pos (by have := h.isLt; have := i.isLt; omega)]) h g j

/-- The two halves' counts, the same in every column. -/
theorem cnt_after (hV : Enters0 V c A) (h : Fin 2) (g : Fin 64) (j : Fin 128) :
    ((dat0 V c).arrAt 11 cfg0.N : S128x128.Idx → EReal) (ix2 (⟨h.val * 64 + g.val, by omega⟩ : Fin 128) j)
      = cntPart A h g :=
  arr11_eq (fun h g _ => cntPart A h g) (fun h g j => by
    rw [after0_11]
    refine (cnt_inv hV g j (lastPt h).val (lastPt h).isLt).trans ?_
    show acc (tC A g) (h.val * 125 + 124) = _
    rw [acc_half _ h.val 124 (by omega), zero_eq, zero_add]
    show ∑ s ∈ Finset.range 125, tC A g (h.val * 125 + s) = _
    rw [Finset.sum_range (fun s => tC A g (h.val * 125 + s))]
    unfold cntPart
    refine Finset.sum_congr rfl fun i _ => ?_
    unfold tC pt
    rw [dif_pos (by have := h.isLt; have := i.isLt; omega)]) h g j

end Cert.EdgeNorm.Region0

end
-- ==== Proof.KRegion1.lean ====
/-
  The second region's output array after its run.

  The region walks the 500000 updated rows in 250 blocks of 2000. At each block it builds, from the block's label
  column, the zero-one selection matrix (entry (r, g) is one exactly when row r's label word is the number g),
  multiplies it into the per-graph table and into the table less itself, adds the two products, and stores the row
  times the first 128 columns of that sum plus its last 128 columns. Read at one entry this is the specification's
  result at that row; the blocks tile the array, so the array ends holding the result everywhere.
-/
import proofs.«429340_j53730040873192_3_alg».proof.Proof.Gen.KernelIdeal.Frame
import proofs.«429340_j53730040873192_3_alg».proof.Proof.KArgs
import Idealize.ShloMosaic.Lib.StackMember
import Idealize.ShloMosaic.Lib.ValueLayout
import Idealize.ShloMosaic.PureOps.Ideal.Laws

noncomputable section

namespace Cert.EdgeNorm.Region1

open Idealize.ShloMosaic Idealize.ShloMosaic.TcCoe Idealize.ShloMosaic.ValueIdx Idealize.SL.Sem
open Cert.KernelIdeal Cert.KernelIdeal.Gen Cert.EdgeNorm

variable (V : (c : Dev nD) → (b : Ref sig .tc) → Buf (Elt Ideal) ((c : Thread nD τ).loc b)) (c : Dev nD) (A : Args)

/-! ## The stored value at an entry -/

/-- One where the label word is the number g, zero elsewhere. -/
def ohw (b : BitVec 32) (g : Fin 64) : EReal := if b.toNat = g.val then 1 else 0

/-- A label word equals the word of a graph number exactly when it reads as that number. -/
theorem word_eq_iff (b : BitVec 32) (g : Fin 64) : b = BitVec.ofNat 32 g.val ↔ b.toNat = g.val := by
  have hg : g.val < 2 ^ 32 := by have := g.isLt; omega
  constructor
  · intro h; rw [h, BitVec.toNat_ofNat, Nat.mod_eq_of_lt hg]
  · intro h; apply BitVec.eq_of_toNat_eq; rw [h, BitVec.toNat_ofNat, Nat.mod_eq_of_lt hg]

/-- The widened comparison of a label word with a graph number, read as a number: one or zero. -/
theorem sel_entry (b : BitVec 32) (g : Fin 64) :
    (FloatOps.sitofp (F := Ideal) .f32 ((IntOp.cmpi .eq b (BitVec.ofNat 32 g.val)).setWidth 32) : EReal) = ohw b g := by
  show ((((BitVec.ofBool (b == BitVec.ofNat 32 g.val)).setWidth 32).toInt : ℝ) : EReal) = ohw b g
  unfold ohw
  by_cases h : b.toNat = g.val
  · have hb : (b == BitVec.ofNat 32 g.val) = true := by rw [beq_iff_eq]; exact (word_eq_iff b g).2 h
    rw [hb, if_pos h]
    simp
  · have hb : (b == BitVec.ofNat 32 g.val) = false := by
      rw [beq_eq_false_iff_ne]; exact fun e => h ((word_eq_iff b g).1 e)
    rw [hb, if_neg h]
    simp

/-- A product of an m×k array by a k×n array into the zero array, at entry (a, b): the sum over the contracted
    coordinate of the products of the entries. -/
theorem matmul_zero_entry {m k n : Nat} {φ₁ φ₂ : FTy} (prec : Option ContractPrecision)
    (X : FVec Ideal ⟨2, ![m, k]⟩ φ₁) (Y : FVec Ideal ⟨2, ![k, n]⟩ φ₂) (a : Fin m) (b : Fin n) :
    matmul (DotDims.plain m k n) prec X Y (constant (F := Ideal) ⟨2, ![m, n]⟩ .f32 0x00000000#32) (ix2 a b)
      = ∑ j : Fin k, X (ix2 a j) * Y (ix2 j b) := by
  refine Eq.trans ?_ (StackMember.dotGeneral_plain_apply prec X Y a b)
  show FloatOps.matmul _ prec X Y _ (ix2 a b) = FloatOps.dotGeneral _ prec _ X Y (ix2 a b)
  rw [Ideal.matmul_constant_zero_apply, Ideal.dotGeneral_apply]

/-- The body's product record is the plain one: rows by columns. -/
theorem dims_eq : dot_S2000x64_S64x256_S2000x256_1_0_0_1_n_n = DotDims.plain 2000 64 256 := rfl

/-- The selection matrix times a table, at entry (r, k). -/
theorem prod_entry (OH : FVec Ideal S2000x64 .bf16) (T : FVec Ideal S64x256 .bf16) (r : Fin 2000) (k : Fin 256) :
    matmul dot_S2000x64_S64x256_S2000x256_1_0_0_1_n_n none OH T (constant (F := Ideal) S2000x256 .f32 0x00000000#32) (ix2 r k)
      = ∑ g : Fin 64, OH (ix2 r g) * T (ix2 g k) := by
  rw [dims_eq]
  exact matmul_zero_entry none OH T r k

/-- A column broadcast along its unit axis: entry (p, c) of the result is entry p of the column. -/
theorem col_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The selection matrix the body builds from the label column, at entry (r, g). -/
theorem sel_apply (v0 : Vec Ideal S2000x1 .i32) (r : Fin 2000) (g : Fin 64) :
    (truncf .bf16 (sitofp .f32 (extui 32 (cmpi .eq
        (broadcastTo S2000x64 (shapeCast S2000x1 v0 shapeCasts_S2000x1_S2000x1) broadcasts_S2000x1_S2000x64)
        (iota .tc S2000x64 32 [1] iota_S2000x64_d1_w32)) natLt_1_32)) bitsLt_bf16_f32 : FVec Ideal S2000x64 .bf16) (ix2 r g)
      = ohw (v0 (ix2 r (0 : Fin 1))) g := by
  show FloatOps.sitofp (F := Ideal) .f32 ((IntOp.cmpi .eq
      (broadcastTo S2000x64 (shapeCast S2000x1 v0 shapeCasts_S2000x1_S2000x1) broadcasts_S2000x1_S2000x64 (ix2 r g))
      (iota .tc S2000x64 32 [1] iota_S2000x64_d1_w32 (ix2 r g))).setWidth 32) = _
  rw [shapeCast_self, col_broadcast_apply, iota_single_apply]
  exact sel_entry _ g

/-- The body's stored value at entry (r, d): the updated row's entry times the selected scale plus the selected shift,
    each looked up by two selection products (from the table and from the table less itself). -/
theorem pay_apply (v0 : Vec Ideal S2000x1 .i32) (v8 v11 : Vec Ideal S64x256 .bf16) (v17 : Vec Ideal S2000x128 .f32)
    (r : Fin 2000) (d : Fin 128) :
    (k1_pay1 (F := Ideal) v0 v8 v11 v17 (ix2 r d) : EReal)
      = v17 (ix2 r d) * ((∑ g : Fin 64, ohw (v0 (ix2 r (0 : Fin 1))) g * v8 (ix2 g (⟨d.val, by omega⟩ : Fin 256)))
                         + ∑ g : Fin 64, ohw (v0 (ix2 r (0 : Fin 1))) g * v11 (ix2 g (⟨d.val, by omega⟩ : Fin 256)))
        + ((∑ g : Fin 64, ohw (v0 (ix2 r (0 : Fin 1))) g * v8 (ix2 g (⟨128 + d.val, by omega⟩ : Fin 256)))
           + ∑ g : Fin 64, ohw (v0 (ix2 r (0 : Fin 1))) g * v11 (ix2 g (⟨128 + d.val, by omega⟩ : Fin 256))) := by
  unfold k1_pay1
  dsimp only
  show (shapeCast S2000x128 v17 shapeCasts_S2000x128_S2000x128 (ix2 r d))
        * (extractStridedSlice (s := S2000x256) S2000x128 ![0, 0] _ slices_S2000x256_o0_0_S2000x128 (ix2 r d))
      + extractStridedSlice (s := S2000x256) S2000x128 ![0, 128] _ slices_S2000x256_o0_128_S2000x128 (ix2 r d) = _
  rw [shapeCast_self,
    slice2_axis1_apply 0 _ slices_S2000x256_o0_0_S2000x128 r d (⟨d.val, by omega⟩ : Fin 256) (Nat.zero_add _).symm,
    slice2_axis1_apply 128 _ slices_S2000x256_o0_128_S2000x128 r d (⟨128 + d.val, by omega⟩ : Fin 256) rfl]
  rw [addf_apply, addf_apply, prod_entry, prod_entry, prod_entry, prod_entry]
  have hs := sel_apply v0 r
  refine congrArg₂ (· + ·) (congrArg (v17 (ix2 r d) * ·) (congrArg₂ (· + ·) ?_ ?_)) (congrArg₂ (· + ·) ?_ ?_) <;>
    exact Finset.sum_congr rfl fun g _ => by rw [hs g, shapeCast_self]

/-! ## From the blocks to the array -/

theorem hz : (![0, 0] : Fin 2 → Nat) = fun _ => 0 :=
  funext fun a => match a with | ⟨0, _⟩ => rfl | ⟨1, _⟩ => rfl

/-- The windows' block numbers at grid point t: the row windows sit at block t, the table windows at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The updated rows' block at point t holds rows 2000 t … 2000 t + 1999. -/
theorem blk0_apply (hV : Enters1 V c A) (t : Fin cfg1.N) (r : Fin 2000) (d : Fin 128) (e : Fin 500000)
    (he : e.val = t.val * 2000 + r.val) :
    (iblk1 V c 0 t : Vec Ideal S2000x128 .f32) (ix2 r d) = xv A e d := by
  obtain ⟨e0, e1, -⟩ := idx_facts t
  rw [← hV.x e d]
  unfold iblk1
  rw [View.read_apply]
  show V c main_v5_0 _ = V c main_v5_0 _
  refine congrArg (V c main_v5_0) (funext fun a => Fin.ext ?_)
  match a with
  | ⟨0, _⟩ => show win1_0.index t (0 : Fin 2) * 2000 + 1 * r.val = e.val; rw [e0, he]; omega
  | ⟨1, _⟩ => show win1_0.index t (1 : Fin 2) * 128 + 1 * d.val = d.val; rw [e1]; omega

/-- The label column's block at point t holds the labels of rows 2000 t … 2000 t + 1999. -/
theorem blk1_apply (hV : Enters1 V c A) (t : Fin cfg1.N) (r : Fin 2000) (e : Fin 500000)
    (he : e.val = t.val * 2000 + r.val) :
    (iblk1 V c 1 t : Vec Ideal S2000x1 .i32) (ix2 r (0 : Fin 1)) = A.batch (ix1 e) := by
  obtain ⟨-, -, e2, e3, -⟩ := idx_facts t
  rw [← hV.batch e]
  unfold iblk1
  rw [View.read_apply]
  show V c main_v0 _ = V c main_v0 _
  refine congrArg (V c main_v0) (funext fun a => Fin.ext ?_)
  match a with
  | ⟨0, _⟩ => show win1_1.index t (0 : Fin 2) * 2000 + 1 * r.val = e.val; rw [e2, he]; omega
  | ⟨1, _⟩ => show win1_1.index t (1 : Fin 2) * 1 + 1 * 0 = 0; rw [e3]

/-- The table's block is the table, at every point. -/
theorem blk2_apply (hV : Enters1 V c A) (t : Fin cfg1.N) (g : Fin 64) (j : Fin 256) :
    (iblk1 V c 2 t : Vec Ideal S64x256 .bf16) (ix2 g j) = tab A g j := by
  obtain ⟨-, -, -, -, e4, e5, -⟩ := idx_facts t
  rw [← hV.hi g j]
  unfold iblk1
  rw [View.read_apply]
  show V c main_v44 _ = V c main_v44 _
  refine congrArg (V c main_v44) (funext fun a => Fin.ext ?_)
  match a with
  | ⟨0, _⟩ => show win1_2.index t (0 : Fin 2) * 64 + 1 * g.val = g.val; rw [e4]; omega
  | ⟨1, _⟩ => show win1_2.index t (1 : Fin 2) * 256 + 1 * j.val = j.val; rw [e5]; omega

/-- The block of the table less itself is that array, at every point. -/
theorem blk3_apply (hV : Enters1 V c A) (t : Fin cfg1.N) (g : Fin 64) (j : Fin 256) :
    (iblk1 V c 3 t : Vec Ideal S64x256 .bf16) (ix2 g j) = tabLo A g j := by
  obtain ⟨-, -, -, -, -, -, e6, e7, -⟩ := idx_facts t
  rw [← hV.lo g j]
  unfold iblk1
  rw [View.read_apply]
  show V c main_v47 _ = V c main_v47 _
  refine congrArg (V c main_v47) (funext fun a => Fin.ext ?_)
  match a with
  | ⟨0, _⟩ => show win1_3.index t (0 : Fin 2) * 64 + 1 * g.val = g.val; rw [e6]; omega
  | ⟨1, _⟩ => show win1_3.index t (1 : Fin 2) * 256 + 1 * j.val = j.val; rw [e7]; omega

/-- The selection entry of a label word is the specification's. -/
theorem ohw_batch (e : Fin 500000) (g : Fin 64) : ohw (A.batch (ix1 e)) g = oh A e g := rfl

/-- The body's stored value over blocks that hold the arguments' rows: the specification's result at that row. -/
theorem blk_value (x0 : Vec Ideal S2000x128 .f32) (x1 : Vec Ideal S2000x1 .i32) (x2 x3 : Vec Ideal S64x256 .bf16)
    (e : Fin 500000) (r : Fin 2000) (d : Fin 128)
    (h0 : x0 (ix2 r d) = xv A e d) (h1 : x1 (ix2 r (0 : Fin 1)) = A.batch (ix1 e))
    (h2 : ∀ (g : Fin 64) (j : Fin 256), x2 (ix2 g j) = tab A g j)
    (h3 : ∀ (g : Fin 64) (j : Fin 256), x3 (ix2 g j) = tabLo A g j) :
    (k1_pay1 (F := Ideal) x1 x2 x3 x0 (ix2 r d) : EReal) = outK A e d := by
  rw [pay_apply, h0, h1]
  simp only [h2, h3, ohw_batch]
  rfl

/-- The result array as one function of the arguments. -/
def G (A : Args) : S500000x128.Idx → EReal := fun i => outK A (i 0) (i 1)

/-- The body's stored value at point t, at a block index y, is the result at the array index i the block puts y at. -/
theorem blk4_value (hV : Enters1 V c A) (t : Fin cfg1.N) (y : S2000x128.Idx) (i : S500000x128.Idx)
    (hi0 : (i 0).val = t.val * 2000 + (y 0).val) (hi1 : (i 1).val = (y 1).val) :
    (k1_pay1 (F := Ideal) (iblk1 V c 1 t) (iblk1 V c 2 t) (iblk1 V c 3 t) (iblk1 V c 0 t) : Vec Ideal S2000x128 .f32) y
      = G A i := by
  obtain ⟨r, d, rfl⟩ : ∃ (r : Fin 2000) (d : Fin 128), y = ix2 r d := ⟨y 0, y 1, eq_ix2 y⟩
  obtain ⟨e, d', rfl⟩ : ∃ (e : Fin 500000) (d' : Fin 128), i = ix2 e d' := ⟨i 0, i 1, eq_ix2 i⟩
  have hd : d' = d := Fin.ext hi1
  subst hd
  show _ = outK A e d'
  exact blk_value A _ _ _ _ e r d' (blk0_apply V c A hV t r d' e hi0) (blk1_apply V c A hV t r e hi0)
    (blk2_apply V c A hV t) (blk3_apply V c A hV t)

/-- What point t writes back is block t of the result array. -/
theorem flushed_eq (hV : Enters1 V c A) (t : Fin cfg1.N) :
    (dat1 V c).flushed 4 t = ((cfg1.win 4).blk t).view.read (Elt Ideal) (G A) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz,
    View.ld_unit_zero (S := S64x256) hz]
  obtain ⟨-, -, -, -, -, -, -, -, e8, e9⟩ := idx_facts t
  funext j
  refine blk4_value V c A hV t _ _ ?_ ?_
  · show win1_4.index t (0 : Fin 2) * 2000 + 1 * (j 0).val = t.val * 2000 + (j 0).val
    rw [e8]; omega
  · show win1_4.index t (1 : Fin 2) * 128 + 1 * (j 1).val = (j 1).val
    rw [e9]; omega

/-- An index of the array is in point t's block iff each coordinate is in the block's range on its axis. -/
theorem mem_blk (t : Fin cfg1.N) (i : S500000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v48).slice (win1_4.rect t)).set ↔ _
  rw [View.set_slice_whole, Rect.mem_set_unit]
  exact Iff.rfl

/-- Every row lies in the block of the point its number divided by 2000 names. -/
theorem cover (i : S500000x128.Idx) :
    ∃ t : Fin cfg1.N, (cfg1.win 4).flush t = true ∧ i ∈ ((cfg1.win 4).blk t).view.set := by
  have hi0 : (i 0).val < 500000 := (i 0).isLt
  have hi1 : (i 1).val < 128 := (i 1).isLt
  have hN : cfg1.N = 250 := N_1
  obtain ⟨t, ht⟩ : ∃ t : Fin cfg1.N, t.val = (i 0).val / 2000 := ⟨⟨(i 0).val / 2000, by rw [hN]; omega⟩, rfl⟩
  obtain ⟨-, -, -, -, -, -, -, -, e8, e9⟩ := idx_facts t
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    rw [e8, ht]; omega
  | ⟨1, _⟩ =>
    show win1_4.index t (1 : Fin 2) * 128 ≤ (i 1).val ∧ (i 1).val < win1_4.index t (1 : Fin 2) * 128 + 128
    rw [e9]; omega

/-- The result: each updated row times its graph's scale plus its graph's shift, both looked up by selection products. -/
theorem out_after (hV : Enters1 V c A) (e : Fin 500000) (d : Fin 128) :
    ((dat1 V c).arrAt 4 cfg1.N : S500000x128.Idx → EReal) (ix2 e d) = outK A e d := by
  rw [(dat1 V c).arrAt_eq_of_cover 4 (G A) (fun t _ => flushed_eq V c A hV t) cover]
  rfl

end Cert.EdgeNorm.Region1

end
-- ==== Proof.KGlue_Host.lean ====
/-
  The per-graph table the host operations between the two regions make, as functions of five arrays: the
  array of the two halves' sums, the array of the two halves' counts, and the weight, bias and scale rows.
  Each stage is written as the program writes it and then read at an entry (graph g, column d): the halves
  added, the count kept at least one, the two moments, the variance from the moments kept at least zero, its
  root with the small constant added, the scale and the shift, the two laid side by side. Under the
  hypotheses that the two arrays hold the specification's half sums and half counts and the rows are the
  arguments, the entries are the specification's table and the table less itself.
-/
import proofs.«429340_j53730040873192_3_alg».proof.Proof.Gen.KernelIdeal
import proofs.«429340_j53730040873192_3_alg».proof.Proof.Spec
import Idealize.ShloMosaic.Lib.ValueLayout
import Idealize.ShloMosaic.Lib.IdealHost
import Idealize.ShloMosaic.Lib.Pipeline.Value

noncomputable section

namespace Cert.EdgeNorm.Glue

open Idealize.ShloMosaic Idealize.ShloMosaic.ValueIdx
open Cert.KernelIdeal Cert.KernelIdeal.Gen Cert.EdgeNorm

/-! ## Layout operations at an entry -/

/-- A vector cast to a column: entry (i, 0) of the column is entry i of the vector. -/
theorem colCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One row laid down the 64 rows: entry (g, d) is the row's entry d. -/
theorem rowDown_apply (x : FVec Ideal S1x128 .f32) (g : Fin 64) (d : Fin 128) :
    broadcastInDim S64x128 ![0, 1] bcast_S1x128_S64x128_0_1 x (ix2 g d) = x (ix2 (0 : Fin 1) d) :=
  broadcastInDim_apply _ _ x _ _ fun ax => by
    match ax with
    | ⟨0, _⟩ => rfl
    | ⟨1, _⟩ => rfl

/-- One column laid along the 128 columns: entry (g, d) is the column's entry g. -/
theorem colAlong_apply (x : FVec Ideal S64x1 .f32) (g : Fin 64) (d : Fin 128) :
    broadcastInDim S64x128 ![0, 1] bcast_S64x1_S64x128_0_1 x (ix2 g d) = x (ix2 g (0 : Fin 1)) :=
  broadcastInDim_apply _ _ x _ _ fun ax => by
    match ax with
    | ⟨0, _⟩ => rfl
    | ⟨1, _⟩ => rfl

/-- The host's root at an entry is the root of the entry. -/
theorem hostSqrt_apply {T : Shape} (a : FVec Ideal T .f32) (j : T.Idx) : Host.sqrt a j = Ideal.sqrt (a j) := rfl

/-- A constant laid over any shape reads the constant's value. -/
theorem splat_apply {T : Shape} (h : S_.BroadcastsInDim T ![]) (b : BitVec 32) (j : T.Idx) :
    broadcastInDim T ![] h (constant (F := Ideal) S_ .f32 b) j = Ideal.ofBits .f32 b :=
  broadcastInDim_scalar_apply h _ j

/-! ## The stages, as the program writes them -/

section Stages

variable (s : FVec Ideal S128x256 .f32) (cn : FVec Ideal S128x128 .f32) (gw gb ms : FVec Ideal S128 .f32)

/-- The two halves of the sums, added. -/
def hStats : FVec Ideal S64x256 .f32 :=
  addf (extractStridedSlice S64x256 ![0, 0] s slices_S128x256_S64x256_0_0)
    (extractStridedSlice S64x256 ![64, 0] s slices_S128x256_S64x256_64_0)

/-- The two halves of the counts, added, kept at least one. -/
def hCnt : FVec Ideal S64x1 .f32 :=
  maximumf
    (addf (extractStridedSlice S64x1 ![0, 0] cn slices_S128x128_S64x1_0_0)
      (extractStridedSlice S64x1 ![64, 0] cn slices_S128x128_S64x1_64_0))
    (broadcastInDim S64x1 ![] bcast_S_S64x1 (constant (F := Ideal) S_ .f32 0x3F800000#32))

/-- The first moment. -/
def hMean : FVec Ideal S64x128 .f32 :=
  Host.divf (extractStridedSlice S64x128 ![0, 0] (hStats s) slices_S64x256_S64x128_0_0)
    (broadcastInDim S64x128 ![0, 1] bcast_S64x1_S64x128_0_1 (hCnt cn))

/-- The second moment. -/
def hMeanSq : FVec Ideal S64x128 .f32 :=
  Host.divf (extractStridedSlice S64x128 ![0, 128] (hStats s) slices_S64x256_S64x128_0_128)
    (broadcastInDim S64x128 ![0, 1] bcast_S64x1_S64x128_0_1 (hCnt cn))

/-- A vector as one row. -/
def hRow (v : FVec Ideal S128 .f32) : FVec Ideal S1x128 .f32 := fun i => shapeCast S1x128 v shapeCasts_S128_S1x128 i

/-- The variance from the two moments, kept at least zero. -/
def hVar : FVec Ideal S64x128 .f32 :=
  maximumf
    (addf (hMeanSq s cn)
      (mulf
        (mulf (mulf (hMean s cn) (hMean s cn)) (broadcastInDim S64x128 ![0, 1] bcast_S1x128_S64x128_0_1 (hRow ms)))
        (broadcastInDim S64x128 ![0, 1] bcast_S1x128_S64x128_0_1
          (subf (hRow ms) (broadcastInDim S1x128 ![] bcast_S_S1x128 (constant (F := Ideal) S_ .f32 0x40000000#32))))))
    (broadcastInDim S64x128 ![] bcast_S_S64x128 (constant (F := Ideal) S_ .f32 0x00000000#32))

/-- The root of the variance plus the small constant. -/
def hStd : FVec Ideal S64x128 .f32 :=
  Host.sqrt (addf (hVar s cn ms) (broadcastInDim S64x128 ![] bcast_S_S64x128 (constant (F := Ideal) S_ .f32 0x3727C5AC#32)))

/-- The scale: the weight over the root. -/
def hScale : FVec Ideal S64x128 .f32 :=
  Host.divf (broadcastInDim S64x128 ![0, 1] bcast_S1x128_S64x128_0_1 (hRow gw)) (hStd s cn ms)

/-- The shift: the bias less the scaled mean times the scale. -/
def hShift : FVec Ideal S64x128 .f32 :=
  subf (broadcastInDim S64x128 ![0, 1] bcast_S1x128_S64x128_0_1 (hRow gb))
    (mulf (mulf (hMean s cn) (broadcastInDim S64x128 ![0, 1] bcast_S1x128_S64x128_0_1 (hRow ms))) (hScale s cn gw ms))

/-- Two blocks of 128 columns side by side. -/
def hCat (P Q : FVec Ideal S64x128 .f32) : FVec Ideal S64x256 .f32 :=
  concatenate S64x256 1 [⟨S64x128, P⟩, ⟨S64x128, Q⟩] concatenates_S64x128_S64x128_S64x256_d1

/-- The table in the narrow format. -/
def hHi (P Q : FVec Ideal S64x128 .f32) : FVec Ideal S64x256 .bf16 := truncf .bf16 (hCat P Q) bitsLt_bf16_f32

/-- The table less its narrow form widened back, in the narrow format. -/
def hLo (P Q : FVec Ideal S64x128 .f32) : FVec Ideal S64x256 .bf16 :=
  truncf .bf16 (subf (hCat P Q) (extf .f32 (truncf .bf16 (hCat P Q) bitsLt_bf16_f32) bitsLt_bf16_f32)) bitsLt_bf16_f32

/-! ## The stages at an entry, under what the arrays hold -/

variable (A : Args)
  (hs : ∀ (h : Fin 2) (g : Fin 64) (j : Fin 256),
    s (ix2 (⟨h.val * 64 + g.val, by omega⟩ : Fin 128) j) = statsPart A h g j)
  (hc : ∀ (h : Fin 2) (g : Fin 64) (j : Fin 128),
    cn (ix2 (⟨h.val * 64 + g.val, by omega⟩ : Fin 128) j) = cntPart A h g)
  (hgw : gw = A.gw) (hgb : gb = A.gb) (hms : ms = A.ms)

include hs in
theorem stats_eq (g : Fin 64) (j : Fin 256) : hStats s (ix2 g j) = statsK A g j := by
  unfold hStats statsK
  rw [addf_apply, ← hs 0 g j, ← hs 1 g j]
  exact congrArg₂ (· + ·) (slice2_axis0_apply 0 s _ g j _ (by show 0 * 64 + g.val = 0 + g.val; omega))
    (slice2_axis0_apply 64 s _ g j _ (by show 1 * 64 + g.val = 64 + g.val; omega))

include hc in
theorem cnt_eq (g : Fin 64) (u : Fin 1) : hCnt cn (ix2 g u) = cntSafeK A g := by
  unfold hCnt cntSafeK cntK
  rw [maximumf_apply, addf_apply, splat_apply, ← hc 0 g 0, ← hc 1 g 0]
  have hu : u.val = 0 := by omega
  refine congrArg₂ max (congrArg₂ (· + ·) ?_ ?_) rfl
  · refine extractStridedSlice_apply _ cn _ _ _ fun ax => ?_
    match ax with
    | ⟨0, _⟩ => show 0 * 64 + g.val = 0 + g.val; omega
    | ⟨1, _⟩ => show 0 = 0 + u.val; omega
  · refine extractStridedSlice_apply _ cn _ _ _ fun ax => ?_
    match ax with
    | ⟨0, _⟩ => show 1 * 64 + g.val = 64 + g.val; omega
    | ⟨1, _⟩ => show 0 = 0 + u.val; omega

include hs hc in
theorem mean_eq (g : Fin 64) (d : Fin 128) : hMean s cn (ix2 g d) = meanK A g d := by
  unfold hMean meanK
  rw [hostDivf_apply, colAlong_apply, cnt_eq cn A hc, ← stats_eq s A hs]
  exact congrArg (Ideal.div · _) (slice2_axis1_apply 0 _ _ g d _ (by show d.val = 0 + d.val; omega))

include hs hc in
theorem meansq_eq (g : Fin 64) (d : Fin 128) : hMeanSq s cn (ix2 g d) = meansqK A g d := by
  unfold hMeanSq meansqK
  rw [hostDivf_apply, colAlong_apply, cnt_eq cn A hc, ← stats_eq s A hs]
  exact congrArg (Ideal.div · _) (slice2_axis1_apply 128 _ _ g d _ rfl)

theorem row_apply (v : FVec Ideal S128 .f32) (u : Fin 1) (d : Fin 128) : hRow v (ix2 u d) = v (ix1 d) :=
  shapeCast_a_1a_apply v _ u d

include hs hc hms in
theorem var_eq (g : Fin 64) (d : Fin 128) : hVar s cn ms (ix2 g d) = varK A g d := by
  unfold hVar varK
  rw [maximumf_apply, addf_apply, mulf_apply, mulf_apply, mulf_apply, rowDown_apply, rowDown_apply, subf_apply,
    splat_apply, splat_apply, row_apply, meansq_eq s cn A hs hc, mean_eq s cn A hs hc, hms]
  rfl

include hs hc hms in
theorem std_eq (g : Fin 64) (d : Fin 128) : hStd s cn ms (ix2 g d) = stdK A g d := by
  unfold hStd stdK
  rw [hostSqrt_apply, addf_apply, splat_apply, var_eq s cn ms A hs hc hms]
  rfl

include hs hc hms hgw in
theorem scale_eq (g : Fin 64) (d : Fin 128) : hScale s cn gw ms (ix2 g d) = scaleK A g d := by
  unfold hScale scaleK
  rw [hostDivf_apply, rowDown_apply, row_apply, std_eq s cn ms A hs hc hms, hgw]

include hs hc hms hgw hgb in
theorem shift_eq (g : Fin 64) (d : Fin 128) : hShift s cn gw gb ms (ix2 g d) = shiftK A g d := by
  unfold hShift shiftK
  rw [subf_apply, mulf_apply, mulf_apply, rowDown_apply, rowDown_apply, row_apply, row_apply,
    scale_eq s cn gw ms A hs hc hgw hms, mean_eq s cn A hs hc, hgb, hms]

end Stages

/-! ## Two blocks side by side, at an entry -/

theorem cat_left (P Q : FVec Ideal S64x128 .f32) (g : Fin 64) (j : Fin 256) (h : j.val < 128) :
    hCat P Q (ix2 g j) = P (ix2 g ⟨j.val, h⟩) := by
  unfold hCat
  exact concatenate_pair_apply_left (1 : Fin 2) P Q _ (ix2 g j) rfl (ix2 g ⟨j.val, h⟩) fun b => by
    match b with
    | ⟨0, _⟩ => rfl
    | ⟨1, _⟩ => rfl

theorem cat_right (P Q : FVec Ideal S64x128 .f32) (g : Fin 64) (j : Fin 256) (h : ¬ j.val < 128) :
    hCat P Q (ix2 g j) = Q (ix2 g ⟨j.val - 128, by omega⟩) := by
  unfold hCat
  exact concatenate_pair_apply_right (1 : Fin 2) P Q _ (ix2 g j) rfl rfl (ix2 g ⟨j.val - 128, by omega⟩)
    (fun b hb => by
      match b with
      | ⟨0, _⟩ => rfl
      | ⟨1, _⟩ => exact absurd rfl hb)
    (by show j.val - 128 + 128 = j.val; omega)

/-! ## The table and the table less itself -/

section Table

variable (s : FVec Ideal S128x256 .f32) (cn : FVec Ideal S128x128 .f32) (gw gb ms : FVec Ideal S128 .f32) (A : Args)
  (hs : ∀ (h : Fin 2) (g : Fin 64) (j : Fin 256),
    s (ix2 (⟨h.val * 64 + g.val, by omega⟩ : Fin 128) j) = statsPart A h g j)
  (hc : ∀ (h : Fin 2) (g : Fin 64) (j : Fin 128),
    cn (ix2 (⟨h.val * 64 + g.val, by omega⟩ : Fin 128) j) = cntPart A h g)
  (hgw : gw = A.gw) (hgb : gb = A.gb) (hms : ms = A.ms)

include hs hc hgw hgb hms in
theorem cat_eq (g : Fin 64) (j : Fin 256) :
    hCat (hScale s cn gw ms) (hShift s cn gw gb ms) (ix2 g j) = tab A g j := by
  unfold tab
  by_cases h : j.val < 128
  · rw [dif_pos h, cat_left _ _ g j h, scale_eq s cn gw ms A hs hc hgw hms]
  · rw [dif_neg h, cat_right _ _ g j h, shift_eq s cn gw gb ms A hs hc hgw hgb hms]

include hs hc hgw hgb hms in
theorem hi_eq (g : Fin 64) (j : Fin 256) :
    hHi (hScale s cn gw ms) (hShift s cn gw gb ms) (ix2 g j) = tab A g j :=
  cat_eq s cn gw gb ms A hs hc hgw hgb hms g j

include hs hc hgw hgb hms in
theorem lo_eq (g : Fin 64) (j : Fin 256) :
    hLo (hScale s cn gw ms) (hShift s cn gw gb ms) (ix2 g j) = tabLo A g j := by
  unfold tabLo
  rw [← cat_eq s cn gw gb ms A hs hc hgw hgb hms g j]
  rfl

end Table

end Cert.EdgeNorm.Glue

end
-- ==== Proof.KGlue.lean ====
/-
  What each region finds in its input arrays, read off the host operations before it.

  Before the first region five operations run: the labels become a column, each bias a row, each weight matrix is
  recast (a change of format, which keeps every entry). No operation writes an argument array, so the region finds the
  arguments as launched. Between the regions forty-six operations make the per-graph table from the first region's
  sums and counts and from the weight, bias and scale rows; the stages of that computation and their entries are the
  companion module's, and here each array the second region reads is shown to be the stages' composition over what
  the first region left.
-/
import proofs.«429340_j53730040873192_3_alg».proof.Proof.Gen.KernelIdeal.Frame
import proofs.«429340_j53730040873192_3_alg».proof.Proof.KArgs
import proofs.«429340_j53730040873192_3_alg».proof.Proof.KGlue_Host

noncomputable section

namespace Cert.EdgeNorm.Glue

open Idealize.ShloMosaic Idealize.ShloMosaic.TcCoe Idealize.ShloMosaic.ValueIdx Idealize.SL.Sem
open Cert.KernelIdeal Cert.KernelIdeal.Gen Cert.EdgeNorm

variable (m : (ℓ : Loc nD τ sig) → Buf (Elt Ideal) ℓ) (ρ : Dev nD → PrngReg) (c : Dev nD)

/-! ## Before the first region -/

/-- An array none of the first five operations writes is as launched. -/
theorem W1_of_not_written (b : Ref sig .tc)
    (hb : b ≠ main_v0 ∧ b ≠ main_v1 ∧ b ≠ main_v2 ∧ b ≠ main_v3 ∧ b ≠ main_v4) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

theorem v0_eq : (V1 m ρ c main_v0 : S500000x1.Idx → BitVec 32)
    = shapeCast S500000x1 (m ((c : Thread nD τ).loc main_arg4) : S500000.Idx → BitVec 32) shapeCasts_S500000_S500000x1 := by
  show StableHlo.after hostOps0 (W0 m ρ c) (Proc.devRef .tc main_v0) = _
  after_results
  rfl

theorem v1_eq : (V1 m ρ c main_v1 : S1x512.Idx → EReal)
    = shapeCast S1x512 (m ((c : Thread nD τ).loc main_arg6) : S512.Idx → EReal) shapeCasts_S512_S1x512 := by
  show StableHlo.after hostOps0 (W0 m ρ c) (Proc.devRef .tc main_v1) = _
  after_results
  rfl

theorem v2_eq : (V1 m ρ c main_v2 : S1x128.Idx → EReal)
    = shapeCast S1x128 (m ((c : Thread nD τ).loc main_arg8) : S128.Idx → EReal) shapeCasts_S128_S1x128 := by
  show StableHlo.after hostOps0 (W0 m ρ c) (Proc.devRef .tc main_v2) = _
  after_results
  rfl

theorem v3_eq : (V1 m ρ c main_v3 : S448x512.Idx → EReal) = (m ((c : Thread nD τ).loc main_arg5) : S448x512.Idx → EReal) := by
  show StableHlo.after hostOps0 (W0 m ρ c) (Proc.devRef .tc main_v3) = _
  after_results
  rfl

theorem v4_eq : (V1 m ρ c main_v4 : S512x128.Idx → EReal) = (m ((c : Thread nD τ).loc main_arg7) : S512x128.Idx → EReal) := by
  show StableHlo.after hostOps0 (W0 m ρ c) (Proc.devRef .tc main_v4) = _
  after_results
  rfl

/-- The first region finds the arguments, the labels reshaped to a column and the biases to rows, the weights recast. -/
theorem enters0 : Enters0 (V1 m ρ) c (argsK m c) where
  src := W1_of_not_written m ρ c main_arg0 (by decide)
  dest := W1_of_not_written m ρ c main_arg1 (by decide)
  edge := W1_of_not_written m ρ c main_arg2 (by decide)
  batch := fun e => by rw [v0_eq]; exact colCast_apply _ _ e 0
  u := W1_of_not_written m ρ c main_arg3 (by decide)
  W1 := v3_eq m ρ c
  b1 := fun k => by rw [v1_eq]; exact shapeCast_a_1a_apply _ _ 0 k
  W2 := v4_eq m ρ c
  b2 := fun d => by rw [v2_eq]; exact shapeCast_a_1a_apply _ _ 0 d

/-! ## Between the regions -/

/-- No operation between the regions writes the first region's rows. -/
theorem V3_v5_0 : V3 m ρ c main_v5_0 = W2 m ρ c (Proc.devRef .tc main_v5_0) :=
  StableHlo.after_of_forall_not_mem (b := Proc.devRef .tc main_v5_0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- The label column reaches the second region as the first one found it. -/
theorem V3_v0 : V3 m ρ c main_v0 = V1 m ρ c main_v0 :=
  calc V3 m ρ c main_v0
    _ = W2 m ρ c (Proc.devRef .tc main_v0) :=
      StableHlo.after_of_forall_not_mem (b := Proc.devRef .tc main_v0) _ _ (List.forall_iff_forall_mem.mp (by
        simp only [hostOps1, List.Forall, StableHlo.nullary_writes, StableHlo.unary_writes, StableHlo.binary_writes,
          StableHlo.reshape_writes, Finset.mem_singleton]
        repeat' apply And.intro
        all_goals exact StableHlo.devRef_ne_of_ne (by decide)))
    _ = W1 m ρ c (Proc.devRef .tc main_v0) :=
      (W2_arr m ρ c 3).trans (((dat0 (V1 m ρ) c).arrAt_in 3 rfl _).trans (A_eq0 (V1 m ρ) c 3))

theorem W2_arg9 : W2 m ρ c (Proc.devRef .tc main_arg9) = m ((c : Thread nD τ).loc main_arg9) :=
  (W2_of_ne m ρ c main_arg9 (by decide)).trans (W1_of_not_written m ρ c main_arg9 (by decide))
theorem W2_arg10 : W2 m ρ c (Proc.devRef .tc main_arg10) = m ((c : Thread nD τ).loc main_arg10) :=
  (W2_of_ne m ρ c main_arg10 (by decide)).trans (W1_of_not_written m ρ c main_arg10 (by decide))
theorem W2_arg11 : W2 m ρ c (Proc.devRef .tc main_arg11) = m ((c : Thread nD τ).loc main_arg11) :=
  (W2_of_ne m ρ c main_arg11 (by decide)).trans (W1_of_not_written m ρ c main_arg11 (by decide))

/-- The table array is the stages' composition over the first region's sums and counts and the three rows. -/
theorem hi_term : (V3 m ρ c main_v44 : S64x256.Idx → EReal)
    = hHi (hScale (W2 m ρ c (Proc.devRef .tc main_v5_1)) (W2 m ρ c (Proc.devRef .tc main_v5_2))
          (W2 m ρ c (Proc.devRef .tc main_arg9)) (W2 m ρ c (Proc.devRef .tc main_arg11)))
        (hShift (W2 m ρ c (Proc.devRef .tc main_v5_1)) (W2 m ρ c (Proc.devRef .tc main_v5_2))
          (W2 m ρ c (Proc.devRef .tc main_arg9)) (W2 m ρ c (Proc.devRef .tc main_arg10)) (W2 m ρ c (Proc.devRef .tc main_arg11))) := by
  show StableHlo.after hostOps1 (W2 m ρ c) (Proc.devRef .tc main_v44) = _
  after_results_simp
  refine congrArg₂ hHi ?_ ?_
  · after_results_simp; rfl
  · after_results_simp; rfl

theorem lo_term : (V3 m ρ c main_v47 : S64x256.Idx → EReal)
    = hLo (hScale (W2 m ρ c (Proc.devRef .tc main_v5_1)) (W2 m ρ c (Proc.devRef .tc main_v5_2))
          (W2 m ρ c (Proc.devRef .tc main_arg9)) (W2 m ρ c (Proc.devRef .tc main_arg11)))
        (hShift (W2 m ρ c (Proc.devRef .tc main_v5_1)) (W2 m ρ c (Proc.devRef .tc main_v5_2))
          (W2 m ρ c (Proc.devRef .tc main_arg9)) (W2 m ρ c (Proc.devRef .tc main_arg10)) (W2 m ρ c (Proc.devRef .tc main_arg11))) := by
  show StableHlo.after hostOps1 (W2 m ρ c) (Proc.devRef .tc main_v47) = _
  after_results_simp
  refine congrArg₂ hLo ?_ ?_
  · after_results_simp; rfl
  · after_results_simp; rfl

/-- The second region finds the first one's rows, the label column, and the table the host operations between the two
    regions make of the first one's sums and counts. -/
theorem enters1
    (hx : ∀ (e : Fin 500000) (d : Fin 128),
      (W2 m ρ c (Proc.devRef .tc main_v5_0) : S500000x128.Idx → EReal) (ix2 e d) = xv (argsK m c) e d)
    (hs : ∀ (h : Fin 2) (g : Fin 64) (j : Fin 256),
      (W2 m ρ c (Proc.devRef .tc main_v5_1) : S128x256.Idx → EReal) (ix2 (⟨h.val * 64 + g.val, by omega⟩ : Fin 128) j)
        = statsPart (argsK m c) h g j)
    (hc : ∀ (h : Fin 2) (g : Fin 64) (j : Fin 128),
      (W2 m ρ c (Proc.devRef .tc main_v5_2) : S128x128.Idx → EReal) (ix2 (⟨h.val * 64 + g.val, by omega⟩ : Fin 128) j)
        = cntPart (argsK m c) h g) :
    Enters1 (V3 m ρ) c (argsK m c) where
  x := fun e d => (congrFun (V3_v5_0 m ρ c) _).trans (hx e d)
  batch := fun e => (congrFun (V3_v0 m ρ c) _).trans ((enters0 m ρ c).batch e)
  hi := fun g j => (congrFun (hi_term m ρ c) _).trans
    (hi_eq _ _ _ _ _ (argsK m c) hs hc (W2_arg9 m ρ c) (W2_arg10 m ρ c) (W2_arg11 m ρ c) g j)
  lo := fun g j => (congrFun (lo_term m ρ c) _).trans
    (lo_eq _ _ _ _ _ (argsK m c) hs hc (W2_arg9 m ρ c) (W2_arg10 m ρ c) (W2_arg11 m ρ c) g j)

end Cert.EdgeNorm.Glue

end
-- ==== Proof.KValue.lean ====
/-
  The kernel program's result array, read at an entry, is the tiled road's function of the launch arguments:
  the second region's output over what the host operations make of the first region's three outputs.
-/
import proofs.«429340_j53730040873192_3_alg».proof.Proof.Gen.KernelIdeal.Frame
import proofs.«429340_j53730040873192_3_alg».proof.Proof.KArgs
import proofs.«429340_j53730040873192_3_alg».proof.Proof.KRegion0
import proofs.«429340_j53730040873192_3_alg».proof.Proof.KRegion1
import proofs.«429340_j53730040873192_3_alg».proof.Proof.KGlue

noncomputable section

namespace Cert.EdgeNorm

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- Entry (e, d) of the result array at the last boundary. -/
theorem result_value (hr : InRange (argsK m c)) (e : Fin 500000) (d : Fin 128) :
    (W4 m ρ c (Proc.devRef .tc main_v48) : S500000x128.Idx → EReal) (ix2 e d) = outK (argsK m c) e d := by
  have h0 := Glue.enters0 m ρ c
  have hx : ∀ (e : Fin 500000) (d : Fin 128),
      (W2 m ρ c (Proc.devRef .tc main_v5_0) : S500000x128.Idx → EReal) (ix2 e d) = xv (argsK m c) e d := fun e d => by
    rw [show W2 m ρ c (Proc.devRef .tc main_v5_0) = (dat0 (V1 m ρ) c).arrAt 9 cfg0.N from W2_arr m ρ c 9]
    exact Region0.x_after (V1 m ρ) c _ h0 hr e d
  have hs : ∀ (h : Fin 2) (g : Fin 64) (j : Fin 256),
      (W2 m ρ c (Proc.devRef .tc main_v5_1) : S128x256.Idx → EReal) (ix2 (⟨h.val * 64 + g.val, by omega⟩ : Fin 128) j)
        = statsPart (argsK m c) h g j := fun h g j => by
    rw [show W2 m ρ c (Proc.devRef .tc main_v5_1) = (dat0 (V1 m ρ) c).arrAt 10 cfg0.N from W2_arr m ρ c 10]
    exact Region0.stats_after (V1 m ρ) c _ h0 hr h g j
  have hc : ∀ (h : Fin 2) (g : Fin 64) (j : Fin 128),
      (W2 m ρ c (Proc.devRef .tc main_v5_2) : S128x128.Idx → EReal) (ix2 (⟨h.val * 64 + g.val, by omega⟩ : Fin 128) j)
        = cntPart (argsK m c) h g := fun h g j => by
    rw [show W2 m ρ c (Proc.devRef .tc main_v5_2) = (dat0 (V1 m ρ) c).arrAt 11 cfg0.N from W2_arr m ρ c 11]
    exact Region0.cnt_after (V1 m ρ) c _ h0 h g j
  have h1 := Glue.enters1 m ρ c hx hs hc
  rw [show W4 m ρ c (Proc.devRef .tc main_v48) = (dat1 (V3 m ρ) c).arrAt 4 cfg1.N from W4_arr m ρ c 4]
  exact Region1.out_after (V3 m ρ) c _ h1 e d

end Cert.EdgeNorm

end
-- ==== Proof.LibRowGather.lean ====
/-
  A gather of whole rows: the operand is an N×C array, the start indices an R×1 array of words, and row `e` of the
  R×C result is the operand's row named by word `e`, read signed and clamped into `[0, N − 1]` (every start index of a
  gather is clamped so that the slice fits). This is what taking rows of a table at an integer vector lowers to.
-/
import Idealize.ShloMosaic.Lib.ValueIdx

noncomputable section

namespace Cert.Lib.RowGather

open Idealize.ShloMosaic Idealize.ShloMosaic.ValueIdx

variable {α : Type}

/-- The dimension numbers of a row gather: the result's axis 1 is the offset axis, the operand's axis 0 is collapsed
    and is the one the start index names, the index vector lies along the start indices' axis 1, slices are `1 × C`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: column `j` of the operand's row `idx[e, 0]`, the word read signed and clamped. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.RefX.lean ====
/-
  The reference program's updated rows, read at an entry.
-/
import proofs.«429340_j53730040873192_3_alg».proof.Proof.Gen.ReferenceIdeal.Read
import proofs.«429340_j53730040873192_3_alg».proof.Proof.Spec
import proofs.«429340_j53730040873192_3_alg».proof.Proof.LibRowGather

noncomputable section

namespace Cert.EdgeNorm.Ref

open Idealize.ShloMosaic Idealize.ShloMosaic.ValueIdx
open Cert.ReferenceIdeal Cert.ReferenceIdeal.Read
open Cert.EdgeNorm

/-! ## The labels -/

/-- A word below 64, read signed, is not below zero. -/
theorem cmpi_slt_zero (w : BitVec 32) (h : w.toNat < 64) : IntOp.cmpi .slt w 0#32 = 0#1 := by
  have e := BitVec.toInt_eq_toNat_cond w
  have hn : ¬ (w.toInt < (0#32 : BitVec 32).toInt) := by
    rw [BitVec.toInt_zero]; omega
  have hs : w.slt 0#32 = false := by
    rw [← Bool.not_eq_true, BitVec.slt_iff_toInt_lt]; exact hn
  show BitVec.ofBool (w.slt 0#32) = 0#1
  rw [hs]; rfl

/-- The index normalisation keeps a label that is a graph number. -/
theorem v5_value (A : Args) (hr : InRange A) (e : Fin 500000) :
    val_main_v5 (F := Ideal) A.batch (ix2 e 0) = A.batch (ix1 e) := by
  have hi : idx_main_v5 (ix2 e (0 : Fin 1)) = ix1 e :=
    funext fun a => Fin.ext (by match a with | ⟨0, _⟩ => rfl)
  rw [val_main_v5_apply, hi, val_main_v4_apply, val_main_v1_apply, val_main_v0_apply, val_main_c_apply,
    cmpi_slt_zero _ (hr e), select_zero]

/-! ## The graph's row -/

/-- The gathered row of edge e is its graph's row. -/
theorem v6_value (A : Args) (hr : InRange A) (e : Fin 500000) (j : Fin 64) :
    val_main_v6 (F := Ideal) A.u A.batch (ix2 e j) = A.u (ix2 (gsel A e) j) := by
  unfold val_main_v6
  have hd : gather_S64x64_S500000x1_S500000x64_1_0_n_n_0_1_164
      = Cert.Lib.RowGather.rowDims 64 64 500000
          Facts₀.gather_S64x64_S500000x1_S500000x64_1_0_n_n_0_1_164_wf := rfl
  rw [hd, Cert.Lib.RowGather.gather_rows_apply (by norm_num) _ A.u (val_main_v5 (F := Ideal) A.batch) e j]
  refine congrArg (fun r : Fin 64 => A.u (ix2 r j)) (Fin.ext ?_)
  show min (val_main_v5 (F := Ideal) A.batch (ix2 e 0)).toInt.toNat (64 - 1) = min (A.batch (ix1 e)).toNat 63
  rw [v5_value A hr e]
  have e' := BitVec.toInt_eq_toNat_cond (A.batch (ix1 e))
  have := hr e
  omega

/-! ## The joined input -/

/-- The four-way join of edge e's rows is the joined input. -/
theorem v7_value (A : Args) (hr : InRange A) (e : Fin 500000) (j : Fin 448) :
    val_main_v7 (F := Ideal) A.src A.dest A.edge A.u A.batch (ix2 e j) = hin A e j := by
  unfold val_main_v7 hin
  by_cases h1 : j.val < 128
  · rw [dif_pos h1]
    exact concatenate_apply_piece _ _ _ (ix2 e j) 0 (by show (0 : Nat) < 4; omega) S500000x128 A.src rfl rfl 0 rfl
      (ix2 e ⟨j.val, h1⟩)
      (fun b hb => by match b with | ⟨0, _⟩ => rfl | ⟨1, _⟩ => exact absurd rfl hb)
      (by show 0 + j.val = j.val; omega)
  · rw [dif_neg h1]
    by_cases h2 : j.val < 256
    · rw [dif_pos h2]
      exact concatenate_apply_piece _ _ _ (ix2 e j) 1 (by show (1 : Nat) < 4; omega) S500000x128 A.dest rfl rfl 128 rfl
        (ix2 e ⟨j.val - 128, by omega⟩)
        (fun b hb => by match b with | ⟨0, _⟩ => rfl | ⟨1, _⟩ => exact absurd rfl hb)
        (by show 128 + (j.val - 128) = j.val; omega)
    · rw [dif_neg h2]
      by_cases h3 : j.val < 384
      · rw [dif_pos h3]
        exact concatenate_apply_piece _ _ _ (ix2 e j) 2 (by show (2 : Nat) < 4; omega) S500000x128 A.edge rfl rfl 256 rfl
          (ix2 e ⟨j.val - 256, by omega⟩)
          (fun b hb => by match b with | ⟨0, _⟩ => rfl | ⟨1, _⟩ => exact absurd rfl hb)
          (by show 256 + (j.val - 256) = j.val; omega)
      · rw [dif_neg h3]
        have hj := j.isLt
        rw [← v6_value A hr e ⟨j.val - 384, by omega⟩]
        exact concatenate_apply_piece _ _ _ (ix2 e j) 3 (by show (3 : Nat) < 4; omega) S500000x64
          (val_main_v6 (F := Ideal) A.u A.batch) rfl rfl 384 rfl
          (ix2 e ⟨j.val - 384, by omega⟩)
          (fun b hb => by match b with | ⟨0, _⟩ => rfl | ⟨1, _⟩ => exact absurd rfl hb)
          (by show 384 + (j.val - 384) = j.val; omega)

/-! ## The first layer -/

/-- The first layer's entry, clamped at zero. -/
theorem v12_value (A : Args) (hr : InRange A) (e : Fin 500000) (k : Fin 512) :
    val_main_v12 (F := Ideal) A.src A.dest A.edge A.u A.batch A.W1 A.b1 (ix2 e k) = hid A e k := by
  have hl : ∀ j : Fin 448, lidx_main_v8 (ix2 e k) j = ix2 e j := fun j =>
    funext fun a => Fin.ext (by match a with | ⟨0, _⟩ => rfl | ⟨1, _⟩ => rfl)
  have hrr : ∀ j : Fin 448, ridx_main_v8 (ix2 e k) j = ix2 j k := fun j =>
    funext fun a => Fin.ext (by match a with | ⟨0, _⟩ => rfl | ⟨1, _⟩ => rfl)
  have hb : idx_main_v9 (idx_main_v10 (ix2 e k)) = ix1 k :=
    funext fun a => Fin.ext (by match a with | ⟨0, _⟩ => rfl)
  have hs : (∑ j : Fin 448, val_main_v7 (F := Ideal) A.src A.dest A.edge A.u A.batch (lidx_main_v8 (ix2 e k) j)
        * A.W1 (ridx_main_v8 (ix2 e k) j)) = ∑ j : Fin 448, hin A e j * A.W1 (ix2 j k) :=
    Finset.sum_congr rfl fun j _ => by rw [hl j, hrr j, v7_value A hr e j]
  rw [val_main_v12_apply, val_main_v11_apply, val_main_v8_apply, val_main_v10_apply, val_main_v9_apply, hb,
    val_main_call0_v0_apply, val_main_call0_cst_apply, hs]
  simp only [Ideal.addf_def, Ideal.maximumf_def, Ideal.ofBits_def]
  rfl

/-! ## The second layer and the attribute -/

/-- Entry (e, d) of the reference's updated rows (its second layer plus the attribute). -/
theorem v17_value (A : Args) (hr : InRange A) (e : Fin 500000) (d : Fin 128) :
    (Cert.ReferenceIdeal.Read.val_main_v17 (F := Ideal) A.src A.dest A.edge A.u A.batch A.W1 A.b1 A.W2 A.b2
      (ix2 e d) : EReal) = xv A e d := by
  have hl : ∀ k : Fin 512, lidx_main_v13 (ix2 e d) k = ix2 e k := fun k =>
    funext fun a => Fin.ext (by match a with | ⟨0, _⟩ => rfl | ⟨1, _⟩ => rfl)
  have hrr : ∀ k : Fin 512, ridx_main_v13 (ix2 e d) k = ix2 k d := fun k =>
    funext fun a => Fin.ext (by match a with | ⟨0, _⟩ => rfl | ⟨1, _⟩ => rfl)
  have hb : idx_main_v14 (idx_main_v15 (ix2 e d)) = ix1 d :=
    funext fun a => Fin.ext (by match a with | ⟨0, _⟩ => rfl)
  have hs : (∑ k : Fin 512, val_main_v12 (F := Ideal) A.src A.dest A.edge A.u A.batch A.W1 A.b1
        (lidx_main_v13 (ix2 e d) k) * A.W2 (ridx_main_v13 (ix2 e d) k))
      = ∑ k : Fin 512, hid A e k * A.W2 (ix2 k d) :=
    Finset.sum_congr rfl fun k _ => by rw [hl k, hrr k, v12_value A hr e k]
  rw [val_main_v17_apply, val_main_v16_apply, val_main_v13_apply, val_main_v15_apply, val_main_v14_apply, hb, hs]
  simp only [Ideal.addf_def]
  rfl

end Cert.EdgeNorm.Ref

end
-- ==== Proof.LibSegmentSum.lean ====
/-
  A segment sum read at one of its entries, and a batched row gather read at one of its entries.

  A scatter with an additive body whose scatter indices are an [n × 1] column of words adds update `i` to the
  operand entry that word `i` names (read signed, not clamped; an entry the word does not name receives
  nothing). At the exact instance each operand entry therefore ends at its own value plus the sum of the updates
  whose word names it. Three layouts of the same operation are read here: a vector of `P` segments; `B` rows of
  `P` segments fed by `B` rows of updates; and `P` segments of `C` columns fed by `n` rows of `C` columns.

  A gather that reads, for each of `n` words, one column of a [B × N] table (all `B` rows of it) returns at
  (b, i) the table's entry in row `b` at the column word `i` names, read signed and clamped into `[0, N − 1]`.
-/
import Idealize.ShloMosaic.PureOps.Ideal
import Idealize.ShloMosaic.PureOps.Contract
import Idealize.ShloMosaic.Lib.ValueIdx

noncomputable section

namespace Idealize.ShloMosaic.SegmentSum

open Idealize.ShloMosaic.ValueIdx

/-- Row `i` of an [n × 1] column of words. -/
abbrev colIx {n : Nat} (i : Fin n) : (⟨2, ![n, 1]⟩ : Shape).Idx := ix2 i (0 : Fin 1)

/-! ## A vector of segments -/

/-- The dimension numbers of `segment_sum` over a vector: operand [P], words [n × 1], updates [n]. -/
abbrev dimsVec (P n : Nat) (wf : ScatterDims.WF ⟨1, ![P]⟩ ⟨2, ![n, 1]⟩ ⟨1, ![n]⟩ [] [0] [0] 1) :
    ScatterDims ⟨1, ![P]⟩ ⟨2, ![n, 1]⟩ ⟨1, ![n]⟩ where
  updateWindowDims := []
  insertedWindowDims := [0]
  scatterDimsToOperandDims := [0]
  indexVectorDim := 1
  wf := wf

section Vec
variable {P n w : Nat} (wf : ScatterDims.WF ⟨1, ![P]⟩ ⟨2, ![n, 1]⟩ ⟨1, ![n]⟩ [] [0] [0] 1)

/-- The operand's one axis starts at the word the update's coordinate names. -/
private theorem vec_start0 (j : (⟨1, ![n]⟩ : Shape).Idx) (idx : IVec ⟨2, ![n, 1]⟩ w) :
    (dimsVec P n wf).start j idx 0 = (idx (colIx (j 0))).toInt := by
  unfold ScatterDims.start
  rw [dif_pos (show (0 : Fin 1) ∈ (dimsVec P n wf).scatterDimsToOperandDims from List.mem_singleton.mpr rfl)]
  congr 2
  funext b; refine Fin.ext ?_
  match b with
  | ⟨0, _⟩ => rfl
  | ⟨1, _⟩ => rfl

/-- The operand's one axis is inserted: no window coordinate. -/
private theorem vec_window0 (j : (⟨1, ![n]⟩ : Shape).Idx) :
    (dimsVec P n wf).window j 0 = 0 := by
  unfold ScatterDims.window
  have h : (0 : Fin 1) ∉ (dimsVec P n wf).sKept :=
    show (0 : Fin 1) ∉ (List.finRange 1).filter (· ∉ ([0] : List (Fin 1))) by decide
  rw [dif_neg h]

/-- An update lands on segment `p` exactly when its word is `p`. -/
private theorem vec_resultIdx_iff (j : (⟨1, ![n]⟩ : Shape).Idx) (idx : IVec ⟨2, ![n, 1]⟩ w) (p : Fin P) :
    (dimsVec P n wf).resultIdx? j idx = some (ix1 p) ↔ (idx (colIx (j 0))).toInt = (p.val : Int) := by
  have hs0 : (⟨1, ![P]⟩ : Shape).size 0 = P := rfl
  unfold ScatterDims.resultIdx?
  split
  · rename_i h
    rw [Option.some.injEq]
    constructor
    · intro he
      have h0 := congrArg Fin.val (congrFun he 0)
      have g0 := h 0
      simp only [vec_start0, vec_window0] at h0 g0
      change _ = p.val at h0
      omega
    · intro h0
      funext a
      refine Fin.ext ?_
      match a with
      | ⟨0, _⟩ =>
        show ((dimsVec P n wf).start j idx 0 + ((dimsVec P n wf).window j 0 : Int)).toNat = p.val
        rw [vec_start0, vec_window0, h0]; omega
  · rename_i h
    constructor
    · intro he; exact absurd he (by simp)
    · intro h0
      exfalso; apply h
      intro a
      match a with
      | ⟨0, _⟩ =>
        show 0 ≤ (dimsVec P n wf).start j idx 0 + ((dimsVec P n wf).window j 0 : Int)
          ∧ (dimsVec P n wf).start j idx 0 + ((dimsVec P n wf).window j 0 : Int) < ((⟨1, ![P]⟩ : Shape).size 0 : Nat)
        have := p.isLt
        rw [vec_start0, vec_window0, h0, hs0]; omega
end Vec

/-- Segment `p` ends at its own value plus the sum of the updates whose word is `p`. -/
theorem scatterAdd_vec_apply {P n w : Nat} (wf : ScatterDims.WF ⟨1, ![P]⟩ ⟨2, ![n, 1]⟩ ⟨1, ![n]⟩ [] [0] [0] 1)
    (x : (⟨1, ![P]⟩ : Shape).Idx → EReal) (idx : IVec ⟨2, ![n, 1]⟩ w) (upd : (⟨1, ![n]⟩ : Shape).Idx → EReal) (p : Fin P) :
    Ideal.hostScatterAdd (dimsVec P n wf) x idx upd (ix1 p)
      = x (ix1 p) + ∑ i ∈ Finset.univ.filter (fun i : Fin n => (idx (colIx i)).toInt = (p.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (vec_resultIdx_iff wf j idx p).mp hj'⟩
  · intro i hi
    have hi' := (Finset.mem_filter.mp hi).2
    exact Finset.mem_filter.mpr ⟨Finset.mem_univ _, (vec_resultIdx_iff wf (ix1 i) idx p).mpr hi'⟩
  · intro j _
    exact (eq_ix1 j).symm
  · intro i _
    rfl
  · intro j _
    exact congrArg upd (eq_ix1 j)

/-! ## Rows of segments -/

/-- Operand [B × P], words [n × 1], updates [B × n]: update column `i` goes, whole, to operand column word `i` names. -/
abbrev dimsRows (B P n : Nat) (wf : ScatterDims.WF ⟨2, ![B, P]⟩ ⟨2, ![n, 1]⟩ ⟨2, ![B, n]⟩ [0] [1] [1] 1) :
    ScatterDims ⟨2, ![B, P]⟩ ⟨2, ![n, 1]⟩ ⟨2, ![B, n]⟩ where
  updateWindowDims := [0]
  insertedWindowDims := [1]
  scatterDimsToOperandDims := [1]
  indexVectorDim := 1
  wf := wf

section Rows
variable {B P n w : Nat} (wf : ScatterDims.WF ⟨2, ![B, P]⟩ ⟨2, ![n, 1]⟩ ⟨2, ![B, n]⟩ [0] [1] [1] 1)

/-- Axis 0 of the operand is not named by the map: its start is 0. -/
private theorem rows_start0 (j : (⟨2, ![B, n]⟩ : Shape).Idx) (idx : IVec ⟨2, ![n, 1]⟩ w) :
    (dimsRows B P n wf).start j idx 0 = 0 := by
  unfold ScatterDims.start
  rw [dif_neg (show (0 : Fin 2) ∉ ([1] : List (Fin 2)) by decide)]

/-- Axis 1 of the operand starts at the word the update's second coordinate names. -/
private theorem rows_start1 (j : (⟨2, ![B, n]⟩ : Shape).Idx) (idx : IVec ⟨2, ![n, 1]⟩ w) :
    (dimsRows B P n wf).start j idx 1 = (idx (colIx (j 1))).toInt := by
  unfold ScatterDims.start
  rw [dif_pos (show (1 : Fin 2) ∈ (dimsRows B P n wf).scatterDimsToOperandDims from List.mem_singleton.mpr rfl)]
  congr 2
  funext b; refine Fin.ext ?_
  match b with
  | ⟨0, _⟩ => rfl
  | ⟨1, _⟩ => rfl

/-- Axis 0 of the operand is the window axis: its window coordinate is the update's first coordinate. -/
private theorem rows_window0 (j : (⟨2, ![B, n]⟩ : Shape).Idx) :
    (dimsRows B P n wf).window j 0 = (j 0).val := by
  unfold ScatterDims.window
  have h : (0 : Fin 2) ∈ (dimsRows B P n wf).sKept :=
    show (0 : Fin 2) ∈ (List.finRange 2).filter (· ∉ ([1] : List (Fin 2))) by decide
  rw [dif_pos h]
  rfl

/-- Axis 1 of the operand is inserted: no window coordinate. -/
private theorem rows_window1 (j : (⟨2, ![B, n]⟩ : Shape).Idx) :
    (dimsRows B P n wf).window j 1 = 0 := by
  unfold ScatterDims.window
  have h : (1 : Fin 2) ∉ (dimsRows B P n wf).sKept :=
    show (1 : Fin 2) ∉ (List.finRange 2).filter (· ∉ ([1] : List (Fin 2))) by decide
  rw [dif_neg h]

/-- An update lands on entry (b, p) exactly when it sits in row `b` and its word is `p`. -/
private theorem rows_resultIdx_iff (j : (⟨2, ![B, n]⟩ : Shape).Idx) (idx : IVec ⟨2, ![n, 1]⟩ w) (b : Fin B) (p : Fin P) :
    (dimsRows B P n wf).resultIdx? j idx = some (ix2 b p)
      ↔ j 0 = b ∧ (idx (colIx (j 1))).toInt = (p.val : Int) := by
  have hb := (j 0).isLt
  have hB : (⟨2, ![B, n]⟩ : Shape).size 0 = B := rfl
  have hs0 : (⟨2, ![B, P]⟩ : Shape).size 0 = B := rfl
  have hs1 : (⟨2, ![B, P]⟩ : Shape).size 1 = P := rfl
  unfold ScatterDims.resultIdx?
  split
  · rename_i h
    rw [Option.some.injEq]
    constructor
    · intro he
      have h0 := congrArg Fin.val (congrFun he 0)
      have h1 := congrArg Fin.val (congrFun he 1)
      have g1 := h 1
      simp only [rows_start0, rows_start1, rows_window0, rows_window1] at h0 h1 g1
      change _ = b.val at h0
      change _ = p.val at h1
      refine ⟨Fin.ext ?_, ?_⟩ <;> omega
    · rintro ⟨h0, h1⟩
      funext a
      refine Fin.ext ?_
      match a with
      | ⟨0, _⟩ =>
        show ((dimsRows B P n wf).start j idx 0 + ((dimsRows B P n wf).window j 0 : Int)).toNat = b.val
        rw [rows_start0, rows_window0, ← h0]; omega
      | ⟨1, _⟩ =>
        show ((dimsRows B P n wf).start j idx 1 + ((dimsRows B P n wf).window j 1 : Int)).toNat = p.val
        rw [rows_start1, rows_window1, h1]; omega
  · rename_i h
    constructor
    · intro he; exact absurd he (by simp)
    · rintro ⟨h0, h1⟩
      exfalso; apply h
      intro a
      match a with
      | ⟨0, _⟩ =>
        show 0 ≤ (dimsRows B P n wf).start j idx 0 + ((dimsRows B P n wf).window j 0 : Int)
          ∧ (dimsRows B P n wf).start j idx 0 + ((dimsRows B P n wf).window j 0 : Int) < ((⟨2, ![B, P]⟩ : Shape).size 0 : Nat)
        rw [rows_start0, rows_window0, hs0]; omega
      | ⟨1, _⟩ =>
        show 0 ≤ (dimsRows B P n wf).start j idx 1 + ((dimsRows B P n wf).window j 1 : Int)
          ∧ (dimsRows B P n wf).start j idx 1 + ((dimsRows B P n wf).window j 1 : Int) < ((⟨2, ![B, P]⟩ : Shape).size 1 : Nat)
        have := p.isLt
        rw [rows_start1, rows_window1, h1, hs1]; omega
end Rows

/-- Entry (b, p) ends at its own value plus the sum over the words equal to `p` of row `b` of the updates. -/
theorem scatterAdd_rows_apply {B P n w : Nat} (wf : ScatterDims.WF ⟨2, ![B, P]⟩ ⟨2, ![n, 1]⟩ ⟨2, ![B, n]⟩ [0] [1] [1] 1)
    (x : (⟨2, ![B, P]⟩ : Shape).Idx → EReal) (idx : IVec ⟨2, ![n, 1]⟩ w) (upd : (⟨2, ![B, n]⟩ : Shape).Idx → EReal)
    (b : Fin B) (p : Fin P) :
    Ideal.hostScatterAdd (dimsRows B P n wf) x idx upd (ix2 b p)
      = x (ix2 b p) + ∑ i ∈ Finset.univ.filter (fun i : Fin n => (idx (colIx i)).toInt = (p.val : Int)), upd (ix2 b i) := by
  unfold Ideal.hostScatterAdd
  congr 1
  refine Finset.sum_nbij' (fun j => (j 1 : Fin n)) (fun i => ix2 b i) ?_ ?_ ?_ ?_ ?_
  · intro j hj
    have hj' := (Finset.mem_filter.mp hj).2
    exact Finset.mem_filter.mpr ⟨Finset.mem_univ _, ((rows_resultIdx_iff wf j idx b p).mp hj').2⟩
  · intro i hi
    have hi' := (Finset.mem_filter.mp hi).2
    exact Finset.mem_filter.mpr ⟨Finset.mem_univ _, (rows_resultIdx_iff wf (ix2 b i) idx b p).mpr ⟨rfl, hi'⟩⟩
  · intro j hj
    have h0 := ((rows_resultIdx_iff wf j idx b p).mp (Finset.mem_filter.mp hj).2).1
    show ix2 b (j 1) = j
    rw [← h0]; exact (eq_ix2 j).symm
  · intro i _
    rfl
  · intro j hj
    have h0 := ((rows_resultIdx_iff wf j idx b p).mp (Finset.mem_filter.mp hj).2).1
    show upd j = upd (ix2 b (j 1))
    rw [← h0]; exact congrArg upd (eq_ix2 j)

/-! ## Segments of columns -/

/-- Operand [P × C], words [n × 1], updates [n × C]: update row `i` goes, whole, to operand row word `i` names. -/
abbrev dimsCols (P C n : Nat) (wf : ScatterDims.WF ⟨2, ![P, C]⟩ ⟨2, ![n, 1]⟩ ⟨2, ![n, C]⟩ [1] [0] [0] 1) :
    ScatterDims ⟨2, ![P, C]⟩ ⟨2, ![n, 1]⟩ ⟨2, ![n, C]⟩ where
  updateWindowDims := [1]
  insertedWindowDims := [0]
  scatterDimsToOperandDims := [0]
  indexVectorDim := 1
  wf := wf

section Cols
variable {P C n w : Nat} (wf : ScatterDims.WF ⟨2, ![P, C]⟩ ⟨2, ![n, 1]⟩ ⟨2, ![n, C]⟩ [1] [0] [0] 1)

/-- Axis 0 of the operand starts at the word the update's first coordinate names. -/
private theorem cols_start0 (j : (⟨2, ![n, C]⟩ : Shape).Idx) (idx : IVec ⟨2, ![n, 1]⟩ w) :
    (dimsCols P C n wf).start j idx 0 = (idx (colIx (j 0))).toInt := by
  unfold ScatterDims.start
  rw [dif_pos (show (0 : Fin 2) ∈ (dimsCols P C n wf).scatterDimsToOperandDims from List.mem_singleton.mpr rfl)]
  congr 2
  funext b; refine Fin.ext ?_
  match b with
  | ⟨0, _⟩ => rfl
  | ⟨1, _⟩ => rfl

/-- Axis 1 of the operand is not named by the map: its start is 0. -/
private theorem cols_start1 (j : (⟨2, ![n, C]⟩ : Shape).Idx) (idx : IVec ⟨2, ![n, 1]⟩ w) :
    (dimsCols P C n wf).start j idx 1 = 0 := by
  unfold ScatterDims.start
  rw [dif_neg (show (1 : Fin 2) ∉ ([0] : List (Fin 2)) by decide)]

/-- Axis 0 of the operand is inserted: no window coordinate. -/
private theorem cols_window0 (j : (⟨2, ![n, C]⟩ : Shape).Idx) :
    (dimsCols P C n wf).window j 0 = 0 := by
  unfold ScatterDims.window
  have h : (0 : Fin 2) ∉ (dimsCols P C n wf).sKept :=
    show (0 : Fin 2) ∉ (List.finRange 2).filter (· ∉ ([0] : List (Fin 2))) by decide
  rw [dif_neg h]

/-- Axis 1 of the operand is the window axis: its window coordinate is the update's second coordinate. -/
private theorem cols_window1 (j : (⟨2, ![n, C]⟩ : Shape).Idx) :
    (dimsCols P C n wf).window j 1 = (j 1).val := by
  unfold ScatterDims.window
  have h : (1 : Fin 2) ∈ (dimsCols P C n wf).sKept :=
    show (1 : Fin 2) ∈ (List.finRange 2).filter (· ∉ ([0] : List (Fin 2))) by decide
  rw [dif_pos h]
  rfl

/-- An update lands on entry (p, c) exactly when its word is `p` and it sits in column `c`. -/
private theorem cols_resultIdx_iff (j : (⟨2, ![n, C]⟩ : Shape).Idx) (idx : IVec ⟨2, ![n, 1]⟩ w) (p : Fin P) (c : Fin C) :
    (dimsCols P C n wf).resultIdx? j idx = some (ix2 p c)
      ↔ (idx (colIx (j 0))).toInt = (p.val : Int) ∧ j 1 = c := by
  have hc := (j 1).isLt
  have hC : (⟨2, ![n, C]⟩ : Shape).size 1 = C := rfl
  have hs0 : (⟨2, ![P, C]⟩ : Shape).size 0 = P := rfl
  have hs1 : (⟨2, ![P, C]⟩ : Shape).size 1 = C := rfl
  unfold ScatterDims.resultIdx?
  split
  · rename_i h
    rw [Option.some.injEq]
    constructor
    · intro he
      have h0 := congrArg Fin.val (congrFun he 0)
      have h1 := congrArg Fin.val (congrFun he 1)
      have g0 := h 0
      simp only [cols_start0, cols_start1, cols_window0, cols_window1] at h0 h1 g0
      change _ = p.val at h0
      change _ = c.val at h1
      refine ⟨?_, Fin.ext ?_⟩ <;> omega
    · rintro ⟨h0, h1⟩
      funext a
      refine Fin.ext ?_
      match a with
      | ⟨0, _⟩ =>
        show ((dimsCols P C n wf).start j idx 0 + ((dimsCols P C n wf).window j 0 : Int)).toNat = p.val
        rw [cols_start0, cols_window0, h0]; omega
      | ⟨1, _⟩ =>
        show ((dimsCols P C n wf).start j idx 1 + ((dimsCols P C n wf).window j 1 : Int)).toNat = c.val
        rw [cols_start1, cols_window1, ← h1]; omega
  · rename_i h
    constructor
    · intro he; exact absurd he (by simp)
    · rintro ⟨h0, h1⟩
      exfalso; apply h
      intro a
      match a with
      | ⟨0, _⟩ =>
        show 0 ≤ (dimsCols P C n wf).start j idx 0 + ((dimsCols P C n wf).window j 0 : Int)
          ∧ (dimsCols P C n wf).start j idx 0 + ((dimsCols P C n wf).window j 0 : Int) < ((⟨2, ![P, C]⟩ : Shape).size 0 : Nat)
        have := p.isLt
        rw [cols_start0, cols_window0, h0, hs0]; omega
      | ⟨1, _⟩ =>
        show 0 ≤ (dimsCols P C n wf).start j idx 1 + ((dimsCols P C n wf).window j 1 : Int)
          ∧ (dimsCols P C n wf).start j idx 1 + ((dimsCols P C n wf).window j 1 : Int) < ((⟨2, ![P, C]⟩ : Shape).size 1 : Nat)
        rw [cols_start1, cols_window1, hs1]; omega
end Cols

/-- Entry (p, c) ends at its own value plus the sum over the words equal to `p` of column `c` of the updates. -/
theorem scatterAdd_cols_apply {P C n w : Nat} (wf : ScatterDims.WF ⟨2, ![P, C]⟩ ⟨2, ![n, 1]⟩ ⟨2, ![n, C]⟩ [1] [0] [0] 1)
    (x : (⟨2, ![P, C]⟩ : Shape).Idx → EReal) (idx : IVec ⟨2, ![n, 1]⟩ w) (upd : (⟨2, ![n, C]⟩ : Shape).Idx → EReal)
    (p : Fin P) (c : Fin C) :
    Ideal.hostScatterAdd (dimsCols P C n wf) x idx upd (ix2 p c)
      = x (ix2 p c) + ∑ i ∈ Finset.univ.filter (fun i : Fin n => (idx (colIx i)).toInt = (p.val : Int)), upd (ix2 i c) := by
  unfold Ideal.hostScatterAdd
  congr 1
  refine Finset.sum_nbij' (fun j => (j 0 : Fin n)) (fun i => ix2 i c) ?_ ?_ ?_ ?_ ?_
  · intro j hj
    have hj' := (Finset.mem_filter.mp hj).2
    exact Finset.mem_filter.mpr ⟨Finset.mem_univ _, ((cols_resultIdx_iff wf j idx p c).mp hj').1⟩
  · intro i hi
    have hi' := (Finset.mem_filter.mp hi).2
    exact Finset.mem_filter.mpr ⟨Finset.mem_univ _, (cols_resultIdx_iff wf (ix2 i c) idx p c).mpr ⟨hi', rfl⟩⟩
  · intro j hj
    have h1 := ((cols_resultIdx_iff wf j idx p c).mp (Finset.mem_filter.mp hj).2).2
    show ix2 (j 0) c = j
    rw [← h1]; exact (eq_ix2 j).symm
  · intro i _
    rfl
  · intro j hj
    have h1 := ((cols_resultIdx_iff wf j idx p c).mp (Finset.mem_filter.mp hj).2).2
    show upd j = upd (ix2 (j 0) c)
    rw [← h1]; exact congrArg upd (eq_ix2 j)

/-! ## A gather of whole columns of a table -/

/-- Operand [B × N], words [n × 1], result [B × n]: for each word one column of the table, all `B` rows of it. -/
abbrev dimsTakeCols (B N n : Nat)
    (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

/-- Entry (b, i) of the result is the table's row `b` at the column word `i` names, signed and clamped. -/
theorem gather_cols_apply {α : Type} {B N n w : Nat} (hN : 0 < N)
    (wf : GatherDims.WF ⟨2, ![B, N]⟩ ⟨2, ![n, 1]⟩ ⟨2, ![B, n]⟩ [0] [1] [] [1] [] 1 ![B, 1])
    (x : (⟨2, ![B, N]⟩ : Shape).Idx → α) (idx : IVec ⟨2, ![n, 1]⟩ w) (b : Fin B) (i : Fin n) :
    Host.gather (dimsTakeCols B N n wf) x idx (ix2 b i)
      = x (ix2 b ⟨min (idx (colIx i)).toInt.toNat (N - 1), by omega⟩) := by
  unfold Host.gather
  congr 1
  funext a
  refine Fin.ext ?_
  have hob : ∀ a : Fin 2, a ∉ (dimsTakeCols B N n wf).operandBatchingDims := fun _ => List.not_mem_nil
  match a with
  | ⟨0, _⟩ =>
    -- the row axis: not start-indexed, an offset axis read off the result's first coordinate
    show (dimsTakeCols B N n wf).start (ix2 b i) idx 0 + (dimsTakeCols B N n wf).batchCoord (ix2 b i) 0
      + (dimsTakeCols B N n wf).offCoord (ix2 b i) 0 = b.val
    rw [GatherDims.batchCoord_eq_zero _ _ _ (hob 0)]
    unfold GatherDims.start GatherDims.offCoord
    have hk : (0 : Fin 2) ∈ (dimsTakeCols B N n wf).sKept :=
      show (0 : Fin 2) ∈ (List.finRange 2).filter (· ∉ (([1] : List (Fin 2)) ++ [])) by decide
    rw [dif_neg (show (0 : Fin 2) ∉ ([1] : List (Fin 2)) by decide), dif_pos hk]
    simp only [Nat.zero_add, Nat.add_zero]
    rfl
  | ⟨1, _⟩ =>
    -- the column axis: start-indexed and collapsed, the word clamped into the table
    show (dimsTakeCols B N n wf).start (ix2 b i) idx 1 + (dimsTakeCols B N n wf).batchCoord (ix2 b i) 1
      + (dimsTakeCols B N n wf).offCoord (ix2 b i) 1 = min (idx (colIx i)).toInt.toNat (N - 1)
    have hk : (1 : Fin 2) ∉ (dimsTakeCols B N n wf).sKept :=
      show (1 : Fin 2) ∉ (List.finRange 2).filter (· ∉ (([1] : List (Fin 2)) ++ [])) by decide
    rw [GatherDims.batchCoord_eq_zero _ _ _ (hob 1), GatherDims.offCoord_eq_zero _ _ _ hk]
    simp only [Nat.add_zero]
    unfold GatherDims.start
    rw [dif_pos (show (1 : Fin 2) ∈ (dimsTakeCols B N n wf).startIndexMap from List.mem_singleton.mpr rfl)]
    have hsi : (dimsTakeCols B N n wf).siIdx (ix2 b i) ⟨List.idxOf (1 : Fin 2) (dimsTakeCols B N n wf).startIndexMap,
        List.idxOf_lt_length_iff.2 (List.mem_singleton.mpr rfl)⟩ = colIx i := by
      funext c; refine Fin.ext ?_
      match c with
      | ⟨0, _⟩ => rfl
      | ⟨1, _⟩ => rfl
    rw [hsi]
    rfl

end Idealize.ShloMosaic.SegmentSum

end
-- ==== Proof.LibSegmentSumHost.lean ====
/-
  The segment-sum reads, stated for the host's accumulating scatter at the exact instance.

  At the exact instance the host's scatter with an additive body is, by definition, the operand plus the sum of the
  updates landing on each entry. With the sizes left as variables that identification is immediate; stated once
  here, a program at concrete sizes rewrites with these forms and never opens the scatter itself.
-/
import proofs.«429340_j53730040873192_3_alg».proof.Proof.LibSegmentSum

noncomputable section

namespace Idealize.ShloMosaic.SegmentSum

open Idealize.ShloMosaic.ValueIdx

/-- A vector of segments: segment `p` ends at its own value plus the sum of the updates whose word is `p`. -/
theorem scatterAdd_vec_host {P n w : Nat} {φ : FTy}
    (wf : ScatterDims.WF ⟨1, ![P]⟩ ⟨2, ![n, 1]⟩ ⟨1, ![n]⟩ [] [0] [0] 1)
    (x : FVec Ideal ⟨1, ![P]⟩ φ) (idx : IVec ⟨2, ![n, 1]⟩ w) (upd : FVec Ideal ⟨1, ![n]⟩ φ) (p : Fin P) :
    Host.scatterAdd (dimsVec P n wf) x idx upd (ix1 p)
      = x (ix1 p) + ∑ i ∈ Finset.univ.filter (fun i : Fin n => (idx (colIx i)).toInt = (p.val : Int)), upd (ix1 i) :=
  scatterAdd_vec_apply wf x idx upd p

/-- Rows of segments: entry (b, p) ends at its own value plus the sum, over the words equal to `p`, of row `b` of the updates. -/
theorem scatterAdd_rows_host {B P n w : Nat} {φ : FTy}
    (wf : ScatterDims.WF ⟨2, ![B, P]⟩ ⟨2, ![n, 1]⟩ ⟨2, ![B, n]⟩ [0] [1] [1] 1)
    (x : FVec Ideal ⟨2, ![B, P]⟩ φ) (idx : IVec ⟨2, ![n, 1]⟩ w) (upd : FVec Ideal ⟨2, ![B, n]⟩ φ)
    (b : Fin B) (p : Fin P) :
    Host.scatterAdd (dimsRows B P n wf) x idx upd (ix2 b p)
      = x (ix2 b p) + ∑ i ∈ Finset.univ.filter (fun i : Fin n => (idx (colIx i)).toInt = (p.val : Int)), upd (ix2 b i) :=
  scatterAdd_rows_apply wf x idx upd b p

/-- Segments of columns: entry (p, c) ends at its own value plus the sum, over the words equal to `p`, of column `c` of the updates. -/
theorem scatterAdd_cols_host {P C n w : Nat} {φ : FTy}
    (wf : ScatterDims.WF ⟨2, ![P, C]⟩ ⟨2, ![n, 1]⟩ ⟨2, ![n, C]⟩ [1] [0] [0] 1)
    (x : FVec Ideal ⟨2, ![P, C]⟩ φ) (idx : IVec ⟨2, ![n, 1]⟩ w) (upd : FVec Ideal ⟨2, ![n, C]⟩ φ)
    (p : Fin P) (c : Fin C) :
    Host.scatterAdd (dimsCols P C n wf) x idx upd (ix2 p c)
      = x (ix2 p c) + ∑ i ∈ Finset.univ.filter (fun i : Fin n => (idx (colIx i)).toInt = (p.val : Int)), upd (ix2 i c) :=
  scatterAdd_cols_apply wf x idx upd p c

end Idealize.ShloMosaic.SegmentSum

end
-- ==== Proof.RefValue.lean ====
/-
  The reference program's result, read at an entry, is the direct road's function.

  The reference counts each graph's edges (ones added into a zero vector at the label words, the count then clamped
  below at one), sums each graph's updated rows and divides by the count, takes each edge's row less its graph's mean
  times the column's scale, sums the squares of those per graph and divides by the count, adds the small constant
  and takes the root, and last divides each centred row by its graph's root, multiplies by the weight and adds the
  bias. Each of the three sums is an accumulating scatter at the label words: the entry of graph g collects the
  updates whose word, read signed, is g, and for a word of 32 bits and g below 64 that says the word is the number g.
  Each of the two look-ups is a gather of rows at the label words after the index normalisation "a negative word
  gets 64 added": a word that is a graph number is not negative, so the normalisation keeps it, and so does the
  gather's clamp into [0, 63].
-/
import proofs.«429340_j53730040873192_3_alg».proof.Proof.Gen.ReferenceIdeal.Read
import proofs.«429340_j53730040873192_3_alg».proof.Proof.Spec
import proofs.«429340_j53730040873192_3_alg».proof.Proof.RefX
import proofs.«429340_j53730040873192_3_alg».proof.Proof.LibSegmentSumHost
import proofs.«429340_j53730040873192_3_alg».proof.Proof.LibRowGather

noncomputable section

namespace Cert.EdgeNorm.Ref

open Idealize.ShloMosaic Idealize.ShloMosaic.ValueIdx
open Cert.EdgeNorm

namespace Norm

open Cert.ReferenceIdeal Cert.ReferenceIdeal.Gen Cert.ReferenceIdeal.Read

/-! ## Label words -/

/-- A 32-bit word read signed is the number p below 64 exactly when the word is p. -/
theorem toInt_eq_iff (b : BitVec 32) (p : Nat) (hp : p < 64) : b.toInt = (p : Int) ↔ b.toNat = p := by
  have hb := b.isLt
  rw [BitVec.toInt_eq_toNat_cond]
  split <;> omega

/-- The index normalisation (a negative word gets 64 added) keeps a word that is a graph number. -/
theorem norm_word (b : BitVec 32) (hb : b.toNat < 64) :
    Scalar.select (IntOp.cmpi .slt b 0#32) (IntOp.addi b 64#32) b = b := by
  have hi : b.toInt = (b.toNat : Int) := BitVec.toInt_eq_toNat_of_lt (by omega)
  have h : IntOp.cmpi .slt b 0#32 = 0#1 := by
    show BitVec.ofBool (b.slt 0#32) = 0#1
    have : b.slt 0#32 = false := by
      unfold BitVec.slt
      rw [hi]
      simp
    rw [this]; rfl
  rw [h, select_zero]

/-- The clamp into [0, 63] of a word read signed keeps a word that is a graph number. -/
theorem clamp_word (b : BitVec 32) (hb : b.toNat < 64) : min b.toInt.toNat (64 - 1) = min b.toNat 63 := by
  have hi : b.toInt = (b.toNat : Int) := BitVec.toInt_eq_toNat_of_lt (by omega)
  rw [hi]; simp

/-! ## The three sums and the two look-ups, over any label column that repeats the label words -/

/-- A sum of ones into a vector of 64 entries at the label words: entry g collects the edges of graph g. -/
theorem seg_vec (A : Args) (x : (⟨S64, .f32⟩ : BufTy).Contents (Elt Ideal))
    (lab : (⟨S500000x1, .i32⟩ : BufTy).Contents (Elt Ideal)) (upd : (⟨S500000, .f32⟩ : BufTy).Contents (Elt Ideal))
    (hlab : ∀ i : Fin 500000, lab (ix2 i (0 : Fin 1)) = A.batch (ix1 i)) (g : Fin 64) :
    (Host.scatterAdd (F := Ideal) (φ := .f32) scatter_S64_S500000x1_S500000_n_0_0_1 x lab upd (ix1 g) : EReal)
      = x (ix1 g) + ∑ e ∈ Finset.univ.filter (fun e : Fin 500000 => sel A e g), upd (ix1 e) := by
  refine (SegmentSum.scatterAdd_vec_host (P := 64) (n := 500000) (w := 32) (φ := .f32)
    Facts₀.scatter_S64_S500000x1_S500000_n_0_0_1_wf x lab upd g).trans ?_
  refine congrArg (fun t => (x (ix1 g) : EReal) + t) ?_
  refine Finset.sum_congr (Finset.filter_congr (fun i _ => ?_)) (fun _ _ => rfl)
  rw [hlab i]
  exact toInt_eq_iff _ _ g.isLt

/-- A sum of rows into 64 rows at the label words: row g collects the rows of the edges of graph g. -/
theorem seg_cols (A : Args) (x : (⟨S64x128, .f32⟩ : BufTy).Contents (Elt Ideal))
    (lab : (⟨S500000x1, .i32⟩ : BufTy).Contents (Elt Ideal)) (upd : (⟨S500000x128, .f32⟩ : BufTy).Contents (Elt Ideal))
    (hlab : ∀ i : Fin 500000, lab (ix2 i (0 : Fin 1)) = A.batch (ix1 i)) (g : Fin 64) (d : Fin 128) :
    (Host.scatterAdd (F := Ideal) (φ := .f32) scatter_S64x128_S500000x1_S500000x128_1_0_0_1 x lab upd (ix2 g d) : EReal)
      = x (ix2 g d) + ∑ e ∈ Finset.univ.filter (fun e : Fin 500000 => sel A e g), upd (ix2 e d) := by
  refine (SegmentSum.scatterAdd_cols_host (P := 64) (C := 128) (n := 500000) (w := 32) (φ := .f32)
    Facts₀.scatter_S64x128_S500000x1_S500000x128_1_0_0_1_wf x lab upd g d).trans ?_
  refine congrArg (fun t => (x (ix2 g d) : EReal) + t) ?_
  refine Finset.sum_congr (Finset.filter_congr (fun i _ => ?_)) (fun _ _ => rfl)
  rw [hlab i]
  exact toInt_eq_iff _ _ g.isLt

/-- A gather of rows of a 64-row table at the label words: edge e reads the row of its graph. -/
theorem gather_rows (A : Args) (hr : InRange A) (x : (⟨S64x128, .f32⟩ : BufTy).Contents (Elt Ideal))
    (lab : (⟨S500000x1, .i32⟩ : BufTy).Contents (Elt Ideal))
    (hlab : ∀ i : Fin 500000, lab (ix2 i (0 : Fin 1)) = A.batch (ix1 i)) (e : Fin 500000) (d : Fin 128) :
    (Host.gather gather_S64x128_S500000x1_S500000x128_1_0_n_n_0_1_1128 x lab (ix2 e d) : EReal)
      = x (ix2 (gsel A e) d) := by
  refine (Cert.Lib.RowGather.gather_rows_apply (N := 64) (C := 128) (R := 500000) (w := 32) (by decide)
    Facts₀.gather_S64x128_S500000x1_S500000x128_1_0_n_n_0_1_1128_wf x lab e d).trans ?_
  refine congrArg (fun r : Fin 64 => (x (ix2 r d) : EReal)) (Fin.ext ?_)
  show min (lab (ix2 e (0 : Fin 1))).toInt.toNat (64 - 1) = min (A.batch (ix1 e)).toNat 63
  rw [hlab e]
  exact clamp_word _ (hr e)

/-! ## The label columns the program builds -/

/-- The plain label column repeats the label words. -/
theorem v20_value (A : Args) (i : Fin 500000) :
    val_main_v20 (F := Ideal) A.batch (ix2 i (0 : Fin 1)) = A.batch (ix1 i) := by
  rw [val_main_v20_apply]
  refine congrArg A.batch ?_
  funext a; match a with | ⟨0, _⟩ => rfl

theorem v26_value (A : Args) (i : Fin 500000) :
    val_main_v26 (F := Ideal) A.batch (ix2 i (0 : Fin 1)) = A.batch (ix1 i) := by
  rw [val_main_v26_apply]
  refine congrArg A.batch ?_
  funext a; match a with | ⟨0, _⟩ => rfl

theorem v43_value (A : Args) (i : Fin 500000) :
    val_main_v43 (F := Ideal) A.batch (ix2 i (0 : Fin 1)) = A.batch (ix1 i) := by
  rw [val_main_v43_apply]
  refine congrArg A.batch ?_
  funext a; match a with | ⟨0, _⟩ => rfl

/-- The normalised label column repeats the label words where every word is a graph number. -/
theorem v35_value (A : Args) (hr : InRange A) (i : Fin 500000) :
    val_main_v35 (F := Ideal) A.batch (ix2 i (0 : Fin 1)) = A.batch (ix1 i) := by
  rw [val_main_v35_apply]
  have hi : idx_main_v35 (ix2 i (0 : Fin 1)) = ix1 i := by
    funext a; match a with | ⟨0, _⟩ => rfl
  rw [hi, val_main_v34_apply, val_main_v31_apply, val_main_v33_apply, val_main_v30_apply, val_main_c_4_apply,
    val_main_v32_apply, val_main_c_5_apply]
  exact norm_word _ (hr i)

theorem v55_value (A : Args) (hr : InRange A) (i : Fin 500000) :
    val_main_v55 (F := Ideal) A.batch (ix2 i (0 : Fin 1)) = A.batch (ix1 i) := by
  rw [val_main_v55_apply]
  have hi : idx_main_v55 (ix2 i (0 : Fin 1)) = ix1 i := by
    funext a; match a with | ⟨0, _⟩ => rfl
  rw [hi, val_main_v54_apply, val_main_v51_apply, val_main_v53_apply, val_main_v50_apply, val_main_c_8_apply,
    val_main_v52_apply, val_main_c_9_apply]
  exact norm_word _ (hr i)

/-! ## The count -/

/-- Graph g's count: the ones of its edges added to zero, clamped below at one. -/
theorem v23_value (A : Args) (g : Fin 64) :
    (val_main_v23 (F := Ideal) A.batch (ix1 g) : EReal) = cntR A g := by
  rw [val_main_v23_apply]
  have h21 : (val_main_v21 (F := Ideal) A.batch (ix1 g) : EReal)
      = zero + ∑ e ∈ Finset.univ.filter (fun e : Fin 500000 => sel A e g), one := by
    refine (seg_vec A _ _ _ (v20_value A) g).trans ?_
    rw [val_main_v19_apply, val_main_cst_1_apply]
    refine congrArg (fun t => zero + t) (Finset.sum_congr rfl (fun i _ => ?_))
    rw [val_main_v18_apply, val_main_cst_apply]
    rfl
  rw [h21, val_main_v22_apply, val_main_cst_2_apply]
  rfl

/-- The count spread along the columns. -/
theorem v28_value (A : Args) (g : Fin 64) (d : Fin 128) :
    (val_main_v28 (F := Ideal) A.batch (ix2 g d) : EReal) = cntR A g := by
  rw [val_main_v28_apply, val_main_v24_apply, ← v23_value A g]
  refine congrArg (val_main_v23 (F := Ideal) A.batch) ?_
  funext a; match a with | ⟨0, _⟩ => rfl

theorem v45_value (A : Args) (g : Fin 64) (d : Fin 128) :
    (val_main_v45 (F := Ideal) A.batch (ix2 g d) : EReal) = cntR A g := by
  rw [val_main_v45_apply, val_main_v24_apply, ← v23_value A g]
  refine congrArg (val_main_v23 (F := Ideal) A.batch) ?_
  funext a; match a with | ⟨0, _⟩ => rfl

/-! ## The means -/

/-- Graph g's mean in column d: the sum of its edges' updated rows over its count. -/
theorem v29_value (A : Args) (hr : InRange A) (g : Fin 64) (d : Fin 128) :
    (val_main_v29 (F := Ideal) A.src A.dest A.edge A.u A.batch A.W1 A.b1 A.W2 A.b2 (ix2 g d) : EReal) = meanR A g d := by
  rw [val_main_v29_apply, v28_value A g d]
  have h27 : (val_main_v27 (F := Ideal) A.src A.dest A.edge A.u A.batch A.W1 A.b1 A.W2 A.b2 (ix2 g d) : EReal)
      = zero + ∑ e ∈ Finset.univ.filter (fun e : Fin 500000 => sel A e g), xv A e d := by
    refine (seg_cols A _ _ _ (v26_value A) g d).trans ?_
    rw [val_main_v25_apply, val_main_cst_3_apply]
    refine congrArg (fun t => zero + t) (Finset.sum_congr rfl (fun i _ => ?_))
    exact v17_value A hr i d
  rw [h27]
  rfl

/-- Edge e's look-up of the means: its graph's mean. -/
theorem v36_value (A : Args) (hr : InRange A) (e : Fin 500000) (d : Fin 128) :
    (val_main_v36 (F := Ideal) A.src A.dest A.edge A.u A.batch A.W1 A.b1 A.W2 A.b2 (ix2 e d) : EReal) = meanR A (gsel A e) d := by
  refine (gather_rows A hr _ _ (v35_value A hr) e d).trans ?_
  exact v29_value A hr (gsel A e) d

/-! ## A vector of 128 numbers spread along the edges -/

theorem v38_value (x : (⟨S128, .f32⟩ : BufTy).Contents (Elt Ideal)) (e : Fin 500000) (d : Fin 128) :
    (val_main_v38 (F := Ideal) x (ix2 e d) : EReal) = x (ix1 d) := by
  rw [val_main_v38_apply, val_main_v37_apply]
  refine congrArg x ?_
  funext a; match a with | ⟨0, _⟩ => rfl

theorem v59_value (x : (⟨S128, .f32⟩ : BufTy).Contents (Elt Ideal)) (e : Fin 500000) (d : Fin 128) :
    (val_main_v59 (F := Ideal) x (ix2 e d) : EReal) = x (ix1 d) := by
  rw [val_main_v59_apply, val_main_v58_apply]
  refine congrArg x ?_
  funext a; match a with | ⟨0, _⟩ => rfl

theorem v62_value (x : (⟨S128, .f32⟩ : BufTy).Contents (Elt Ideal)) (e : Fin 500000) (d : Fin 128) :
    (val_main_v62 (F := Ideal) x (ix2 e d) : EReal) = x (ix1 d) := by
  rw [val_main_v62_apply, val_main_v61_apply]
  refine congrArg x ?_
  funext a; match a with | ⟨0, _⟩ => rfl

/-! ## The centred rows, the variances and the roots -/

/-- Edge e's row less its graph's mean times the column's scale. -/
theorem v40_value (A : Args) (hr : InRange A) (e : Fin 500000) (d : Fin 128) :
    (val_main_v40 (F := Ideal) A.src A.dest A.edge A.u A.batch A.W1 A.b1 A.W2 A.b2 A.ms (ix2 e d) : EReal) = ctr A e d := by
  rw [val_main_v40_apply, val_main_v39_apply, v17_value A hr e d, v36_value A hr e d, v38_value]
  rfl

/-- Graph g's variance in column d: the sum of its edges' squared centred rows over its count. -/
theorem v46_value (A : Args) (hr : InRange A) (g : Fin 64) (d : Fin 128) :
    (val_main_v46 (F := Ideal) A.src A.dest A.edge A.u A.batch A.W1 A.b1 A.W2 A.b2 A.ms (ix2 g d) : EReal) = varR A g d := by
  rw [val_main_v46_apply, v45_value A g d]
  have h44 : (val_main_v44 (F := Ideal) A.src A.dest A.edge A.u A.batch A.W1 A.b1 A.W2 A.b2 A.ms (ix2 g d) : EReal)
      = zero + ∑ e ∈ Finset.univ.filter (fun e : Fin 500000 => sel A e g), ctr A e d * ctr A e d := by
    refine (seg_cols A _ _ _ (v43_value A) g d).trans ?_
    rw [val_main_v42_apply, val_main_cst_6_apply]
    refine congrArg (fun t => zero + t) (Finset.sum_congr rfl (fun i _ => ?_))
    rw [val_main_v41_apply, v40_value A hr i d]
    rfl
  rw [h44]
  rfl

/-- Graph g's root in column d. -/
theorem v49_value (A : Args) (hr : InRange A) (g : Fin 64) (d : Fin 128) :
    (val_main_v49 (F := Ideal) A.src A.dest A.edge A.u A.batch A.W1 A.b1 A.W2 A.b2 A.ms (ix2 g d) : EReal) = stdR A g d := by
  rw [val_main_v49_apply, val_main_v48_apply, v46_value A hr g d, val_main_v47_apply, val_main_cst_7_apply,
    Ideal.hostUnary_sqrt_def, Ideal.addf_def, Ideal.ofBits_def]
  rfl

/-- Edge e's look-up of the roots: its graph's root. -/
theorem v56_value (A : Args) (hr : InRange A) (e : Fin 500000) (d : Fin 128) :
    (val_main_v56 (F := Ideal) A.src A.dest A.edge A.u A.batch A.W1 A.b1 A.W2 A.b2 A.ms (ix2 e d) : EReal) = stdR A (gsel A e) d := by
  refine (gather_rows A hr _ _ (v55_value A hr) e d).trans ?_
  exact v49_value A hr (gsel A e) d

end Norm

/-- Entry (e, d) of the reference's result, as a function of the twelve arrays. -/
theorem ref_value (A : Args) (hr : InRange A) (e : Fin 500000) (d : Fin 128) :
    (Cert.ReferenceIdeal.Read.val_main_v63 (F := Ideal) A.src A.dest A.edge A.u A.batch A.W1 A.b1 A.W2 A.b2 A.gw A.gb A.ms
      (ix2 e d) : EReal) = outR A e d := by
  rw [Cert.ReferenceIdeal.Read.val_main_v63_apply, Cert.ReferenceIdeal.Read.val_main_v60_apply,
    Cert.ReferenceIdeal.Read.val_main_v57_apply, Norm.v40_value A hr e d, Norm.v56_value A hr e d,
    Norm.v59_value, Norm.v62_value]
  rfl

end Cert.EdgeNorm.Ref

end
-- ==== Proof.BridgeSums.lean ====
/-
  The tiled sums are the sums over each graph's edges; a selection product looks up one row.

  Three observations carry the module.  Where every argument is real, every intermediate quantity of the edge update
  is real (sums, products and the larger of two reals are real), so a row less itself is zero and its selection
  products vanish.  The tiles of both halves enumerate every edge exactly once: edge (125 c + i) * 2000 + r for half
  c, tile i, row r; so a sum over halves, tiles and rows is a sum over all edges.  And where the label of an edge is a
  graph number, its selection vector is one at exactly that graph, so a selection product over the graphs returns
  that graph's entry.
-/
import Mathlib.Data.EReal.Operations
import Mathlib.Algebra.BigOperators.Fin
import Mathlib.Algebra.BigOperators.Ring.Finset
import Mathlib.Data.Fintype.BigOperators
import proofs.«429340_j53730040873192_3_alg».proof.Proof.Spec
import proofs.«429340_j53730040873192_3_alg».proof.Proof.Consts

noncomputable section

namespace Cert.EdgeNorm

open Idealize.ShloMosaic Idealize.ShloMosaic.ValueIdx

variable {A : Args}

/-! ## Real numbers among the extended reals -/

/-- The sum of two reals is real. -/
private theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two reals is real. -/
private theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The larger of two reals is one of them, hence real. -/
private theorem real_max {x y : EReal} (hx : ∃ r : ℝ, x = (r : EReal)) (hy : ∃ r : ℝ, y = (r : EReal)) :
    ∃ r : ℝ, max x y = (r : EReal) := by
  rcases max_choice x y with h | h
  · rw [h]; exact hx
  · rw [h]; exact hy

/-- A finite sum of reals is real. -/
private theorem real_sum {ι : Type} (s : Finset ι) (f : ι → EReal)
    (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A real less itself is zero. -/
private theorem real_sub_self {x : EReal} (hx : ∃ r : ℝ, x = (r : EReal)) : x - x = 0 := by
  obtain ⟨a, rfl⟩ := hx
  rw [← EReal.coe_sub, sub_self, EReal.coe_zero]

/-! ## The edge update is real -/

/-- The joined input is real: each of its four stretches is an argument's entry. -/
private theorem hin_real (hf : Finite A) (e : Fin 500000) (j : Fin 448) : ∃ r : ℝ, hin A e j = (r : EReal) := by
  unfold hin
  split_ifs
  · exact hf.src _
  · exact hf.dest _
  · exact hf.edge _
  · exact hf.u _

/-- The clamped first layer is real. -/
private theorem hid_real (hf : Finite A) (e : Fin 500000) (k : Fin 512) : ∃ r : ℝ, hid A e k = (r : EReal) := by
  unfold hid
  refine real_max
    (real_add (real_sum _ _ fun j _ => real_mul (hin_real hf e j) (hf.W1 _)) (hf.b1 _)) ⟨0, ?_⟩
  rw [zero_eq, EReal.coe_zero]

/-- The updated rows are real where the arguments are. -/
theorem xv_real (hf : Finite A) (e : Fin 500000) (d : Fin 128) : ∃ r : ℝ, xv A e d = (r : EReal) := by
  unfold xv
  exact real_add
    (real_add (real_sum _ _ fun k _ => real_mul (hid_real hf e k) (hf.W2 _)) (hf.b2 _)) (hf.edge _)

/-- The row beside its square is real. -/
private theorem st_real (hf : Finite A) (e : Fin 500000) (j : Fin 256) : ∃ r : ℝ, st A e j = (r : EReal) := by
  unfold st
  split_ifs
  · exact xv_real hf e _
  · exact real_mul (xv_real hf e _) (xv_real hf e _)

/-! ## Selection products -/

/-- A selection product keeps the factor where the edge belongs to the graph and is zero elsewhere. -/
private theorem oh_mul (e : Fin 500000) (g : Fin 64) (x : EReal) :
    oh A e g * x = if sel A e g then x else 0 := by
  unfold oh
  split_ifs
  · exact one_mul x
  · exact zero_mul x

/-! ## Halves, tiles and rows enumerate the edges -/

/-- Half c, tile i, row r is edge (125 c + i) * 2000 + r, and every edge is reached exactly once. -/
private theorem tiles_bijective :
    Function.Bijective (fun x : Fin 2 × Fin 125 × Fin 2000 => row (pt x.1 x.2.1) x.2.2) := by
  rw [Fintype.bijective_iff_injective_and_card]
  refine ⟨?_, by simp⟩
  rintro ⟨c, i, r⟩ ⟨c', i', r'⟩ h
  have h' : (c.val * 125 + i.val) * 2000 + r.val = (c'.val * 125 + i'.val) * 2000 + r'.val :=
    congrArg Fin.val h
  have hc := c.isLt
  have hc' := c'.isLt
  have hi := i.isLt
  have hi' := i'.isLt
  have hr := r.isLt
  have hr' := r'.isLt
  obtain ⟨e1, e2, e3⟩ : c.val = c'.val ∧ i.val = i'.val ∧ r.val = r'.val := by omega
  exact Prod.ext (Fin.ext e1) (Prod.ext (Fin.ext e2) (Fin.ext e3))

/-- The two halves' sums over tiles and rows together are the sum over all edges. -/
private theorem sum_tiles (F : Fin 500000 → EReal) :
    (∑ i : Fin 125, ∑ r : Fin 2000, F (row (pt 0 i) r)) + (∑ i : Fin 125, ∑ r : Fin 2000, F (row (pt 1 i) r))
      = ∑ e : Fin 500000, F e := by
  rw [← tiles_bijective.sum_comp F, Fintype.sum_prod_type, Fin.sum_univ_two]
  simp only [Fintype.sum_prod_type]

/-! ## The sums and the count of a graph -/

/-- Both halves' tiles together are all the edges: the sums of graph g. -/
theorem statsK_eq (hf : Finite A) (g : Fin 64) (j : Fin 256) :
    statsK A g j = ∑ e ∈ Finset.univ.filter (fun e : Fin 500000 => sel A e g), st A e j := by
  have ht : ∀ t, tileStat A t g j = ∑ r : Fin 2000, if sel A (row t r) g then st A (row t r) j else 0 := by
    intro t
    unfold tileStat
    have h0 : ∑ r : Fin 2000, oh A (row t r) g * (st A (row t r) j - st A (row t r) j) = 0 :=
      Finset.sum_eq_zero fun r _ => by rw [real_sub_self (st_real hf _ _), mul_zero]
    rw [h0, add_zero]
    exact Finset.sum_congr rfl fun r _ => oh_mul _ _ _
  unfold statsK statsPart
  simp only [ht]
  rw [sum_tiles (fun e => if sel A e g then st A e j else 0), Finset.sum_filter]

/-- The count of graph g. -/
theorem cntK_eq (g : Fin 64) :
    cntK A g = ∑ _e ∈ Finset.univ.filter (fun e : Fin 500000 => sel A e g), (1 : EReal) := by
  have ht : ∀ t, tileCnt A t g = ∑ r : Fin 2000, if sel A (row t r) g then (1 : EReal) else 0 := by
    intro t
    unfold tileCnt
    exact Finset.sum_congr rfl fun r _ => by rw [oneN_eq, oh_mul]
  unfold cntK cntPart
  simp only [ht]
  rw [sum_tiles (fun e => if sel A e g then (1 : EReal) else 0), Finset.sum_filter]

/-! ## Looking up a graph's row -/

/-- Where the labels are graph numbers, an edge belongs to exactly its own graph. -/
private theorem sel_iff (hr : InRange A) (e : Fin 500000) (g : Fin 64) : sel A e g ↔ g = gsel A e := by
  have hlt := hr e
  unfold sel gsel
  constructor
  · intro h
    apply Fin.ext
    show g.val = min (A.batch (ix1 e)).toNat 63
    omega
  · intro h
    subst h
    show (A.batch (ix1 e)).toNat = min (A.batch (ix1 e)).toNat 63
    omega

/-- A selection product over the graphs returns the entry of the edge's own graph. -/
private theorem sum_oh (hr : InRange A) (e : Fin 500000) (y : Fin 64 → EReal) :
    ∑ g : Fin 64, oh A e g * y g = y (gsel A e) := by
  rw [Finset.sum_eq_single (gsel A e)]
  · rw [oh_mul, if_pos ((sel_iff hr e _).2 rfl)]
  · intro g _ hg
    rw [oh_mul, if_neg fun h => hg ((sel_iff hr e g).1 h)]
  · intro h
    exact absurd (Finset.mem_univ _) h

/-- Where the labels are graph numbers and the looked-up entry is real, the selection products pick the edge's own row. -/
theorem gath_eq (hr : InRange A) (e : Fin 500000) (j : Fin 256) (ht : ∃ r : ℝ, tab A (gsel A e) j = (r : EReal)) :
    gath A e j = tab A (gsel A e) j := by
  unfold gath
  rw [sum_oh hr e (fun g => tab A g j), sum_oh hr e (fun g => tabLo A g j)]
  unfold tabLo
  rw [real_sub_self ht, add_zero]

end Cert.EdgeNorm

end
-- ==== Proof.Bridge.lean ====
/-
  The tiled road and the direct road give one result.

  Fix a graph g and a column d, and write S for the set of g's edges, n for their number, n' = max n 1, x i for the
  updated entry of edge i in column d (a real number), S1 and S2 for the sums of x and of its square over S, and
  mu = S1 / n'. The tiled road forms the variance from the two moments, max (S2 / n' + mu^2 s (s - 2)) 0; the direct
  road forms it as the mean of (x i - mu s)^2 over S. Expanding the square,
      sum (x i - mu s)^2 = S2 - 2 mu s S1 + n (mu s)^2,
  and where n >= 1 (so n' = n and S1 = mu n) this is n (S2 / n + mu^2 s (s - 2)); where n = 0 the set S is empty and
  both sides vanish. So the two variances are one number v, which is a mean of squares, hence not negative, and the
  clamp at zero does nothing. The roots of v plus the small positive constant agree and are positive, and
      x (w / sigma) + (b - mu s (w / sigma)) = (x - mu s) / sigma * w + b.
  Everything else is bookkeeping: every quantity of the specification is shown to be the image of a real number.
-/
import proofs.«429340_j53730040873192_3_alg».proof.Proof.Spec
import proofs.«429340_j53730040873192_3_alg».proof.Proof.Consts
import proofs.«429340_j53730040873192_3_alg».proof.Proof.BridgeSums
import Mathlib.Data.EReal.Operations
import Mathlib.Analysis.SpecialFunctions.Sqrt
import Mathlib.Algebra.BigOperators.Ring.Finset
import Mathlib.Tactic.FieldSimp
import Mathlib.Tactic.Ring
import Mathlib.Tactic.Positivity
import Mathlib.Tactic.Linarith

noncomputable section

namespace Cert.EdgeNorm

open Idealize.ShloMosaic Idealize.ShloMosaic.ValueIdx

namespace Bridge

/-! ## The real algebra -/

section RealAlgebra

variable {ι : Type}

/-- The number of elements of a finite set, or one for the empty set. -/
def cnt (S : Finset ι) : ℝ := max (S.card : ℝ) 1

theorem cnt_pos (S : Finset ι) : 0 < cnt S := lt_of_lt_of_le one_pos (le_max_right _ _)

theorem cnt_ne_zero (S : Finset ι) : cnt S ≠ 0 := (cnt_pos S).ne'

/-- The mean of x over S. -/
def mu (S : Finset ι) (x : ι → ℝ) : ℝ := (∑ i ∈ S, x i) * (1 / cnt S)

/-- The mean square of x over S. -/
def m2 (S : Finset ι) (x : ι → ℝ) : ℝ := (∑ i ∈ S, x i * x i) * (1 / cnt S)

/-- The variance from the two moments, clamped at zero. -/
def vK (S : Finset ι) (x : ι → ℝ) (s : ℝ) : ℝ := max (m2 S x + ((mu S x * mu S x) * s) * (s - 2)) 0

/-- The variance as the mean of the squared differences. -/
def vR (S : Finset ι) (x : ι → ℝ) (s : ℝ) : ℝ :=
  (∑ i ∈ S, (x i - mu S x * s) * (x i - mu S x * s)) * (1 / cnt S)

theorem vR_nonneg (S : Finset ι) (x : ι → ℝ) (s : ℝ) : 0 ≤ vR S x s :=
  mul_nonneg (Finset.sum_nonneg fun i _ => mul_self_nonneg _) (by have := cnt_pos S; positivity)

/-- The mean of the squared differences is the mean square plus mu^2 s (s - 2). -/
theorem moments (S : Finset ι) (x : ι → ℝ) (s : ℝ) :
    vR S x s = m2 S x + ((mu S x * mu S x) * s) * (s - 2) := by
  have hexp : ∑ i ∈ S, (x i - mu S x * s) * (x i - mu S x * s)
      = (∑ i ∈ S, x i * x i) - 2 * (mu S x * s) * (∑ i ∈ S, x i)
        + (S.card : ℝ) * ((mu S x * s) * (mu S x * s)) := by
    rw [Finset.mul_sum, ← Finset.sum_sub_distrib, ← nsmul_eq_mul, ← Finset.sum_const, ← Finset.sum_add_distrib]
    exact Finset.sum_congr rfl fun i _ => by ring
  rcases Nat.eq_zero_or_pos S.card with h0 | hpos
  · have hS : S = ∅ := Finset.card_eq_zero.1 h0
    subst hS
    simp [vR, m2, mu]
  · have hc : cnt S = (S.card : ℝ) := max_eq_left (by exact_mod_cast hpos)
    have hne : (S.card : ℝ) ≠ 0 := by exact_mod_cast hpos.ne'
    have hS1 : ∑ i ∈ S, x i = mu S x * (S.card : ℝ) := by
      rw [mu, hc]; field_simp
    rw [vR, hexp, m2, hc, hS1]
    field_simp
    ring

/-- The clamp at zero does nothing: the two variances are one number. -/
theorem vK_eq_vR (S : Finset ι) (x : ι → ℝ) (s : ℝ) : vK S x s = vR S x s := by
  rw [vK, ← moments, max_eq_left (vR_nonneg S x s)]

theorem vK_nonneg (S : Finset ι) (x : ι → ℝ) (s : ℝ) : 0 ≤ vK S x s := le_max_right _ _

/-- The root of the variance plus a positive constant. -/
def sd (S : Finset ι) (x : ι → ℝ) (s ε : ℝ) : ℝ := Real.sqrt (vK S x s + ε)

theorem sd_pos (S : Finset ι) (x : ι → ℝ) (s : ℝ) {ε : ℝ} (hε : 0 < ε) : 0 < sd S x s ε :=
  Real.sqrt_pos.2 (by have := vK_nonneg S x s; linarith)

/-- Scale and shift applied to x is the centred x over the root, times the weight, plus the bias. -/
theorem affine_eq (x w b m s σ : ℝ) :
    x * (w * (1 / σ)) + (b - (m * s) * (w * (1 / σ))) = ((x - m * s) * (1 / σ)) * w + b := by
  ring

end RealAlgebra

/-! ## The specification's quantities as real numbers -/

section Bookkeeping

/-- The inclusion of the reals carries a finite sum to the sum of the included terms. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The inclusion of the reals is monotone, so it carries the larger of two reals to the larger of their images. -/
theorem coe_max (a b : ℝ) : ((max a b : ℝ) : EReal) = max (a : EReal) (b : EReal) :=
  EReal.coe_strictMono.monotone.map_max

/-- The edges of graph g. -/
abbrev fil (A : Args) (g : Fin 64) : Finset (Fin 500000) :=
  Finset.univ.filter (fun i : Fin 500000 => sel A i g)

/-- An edge of graph g has g as its graph. -/
theorem gsel_of_sel {A : Args} {i : Fin 500000} {g : Fin 64} (h : sel A i g) : gsel A i = g := by
  unfold sel at h
  apply Fin.ext
  show min (A.batch (ix1 i)).toNat 63 = g.val
  have := g.isLt
  omega

theorem st_lo (A : Args) (i : Fin 500000) (d : Fin 128) (h : d.val < 256) :
    st A i ⟨d.val, h⟩ = xv A i d := by
  unfold st
  rw [dif_pos (show (⟨d.val, h⟩ : Fin 256).val < 128 from d.isLt)]

theorem st_hi (A : Args) (i : Fin 500000) (d : Fin 128) (h : 128 + d.val < 256) :
    st A i ⟨128 + d.val, h⟩ = xv A i d * xv A i d := by
  unfold st
  rw [dif_neg (show ¬ (⟨128 + d.val, h⟩ : Fin 256).val < 128 from by simp)]
  have : (⟨(⟨128 + d.val, h⟩ : Fin 256).val - 128, by simp⟩ : Fin 128) = d := Fin.ext (by simp)
  simp only [this]

variable {A : Args} {d : Fin 128} {x : Fin 500000 → ℝ} {w b s ε : ℝ}

theorem cntK_coe (g : Fin 64) : cntK A g = (((fil A g).card : ℝ) : EReal) := by
  rw [cntK_eq, Finset.sum_const, EReal.nsmul_eq_mul, mul_one]; rfl

theorem cntSafeK_coe (g : Fin 64) : cntSafeK A g = ((cnt (fil A g) : ℝ) : EReal) := by
  rw [cntSafeK, cntK_coe, one_eq, ← EReal.coe_one, ← coe_max]; rfl

theorem statsK_lo (hf : Finite A) (hx : ∀ i, xv A i d = (x i : EReal)) (g : Fin 64) (h : d.val < 256) :
    statsK A g ⟨d.val, h⟩ = ((∑ i ∈ fil A g, x i : ℝ) : EReal) := by
  rw [statsK_eq hf, coe_sum]
  exact Finset.sum_congr rfl fun i _ => by rw [st_lo, hx]

theorem statsK_hi (hf : Finite A) (hx : ∀ i, xv A i d = (x i : EReal)) (g : Fin 64) (h : 128 + d.val < 256) :
    statsK A g ⟨128 + d.val, h⟩ = ((∑ i ∈ fil A g, x i * x i : ℝ) : EReal) := by
  rw [statsK_eq hf, coe_sum]
  exact Finset.sum_congr rfl fun i _ => by rw [st_hi, hx, EReal.coe_mul]

theorem meanK_coe (hf : Finite A) (hx : ∀ i, xv A i d = (x i : EReal)) (g : Fin 64) :
    meanK A g d = ((mu (fil A g) x : ℝ) : EReal) := by
  rw [meanK, statsK_lo hf hx, cntSafeK_coe, Ideal.div_coe (cnt_ne_zero _), ← EReal.coe_mul]; rfl

theorem meansqK_coe (hf : Finite A) (hx : ∀ i, xv A i d = (x i : EReal)) (g : Fin 64) :
    meansqK A g d = ((m2 (fil A g) x : ℝ) : EReal) := by
  rw [meansqK, statsK_hi hf hx, cntSafeK_coe, Ideal.div_coe (cnt_ne_zero _), ← EReal.coe_mul]; rfl

theorem varK_coe (hf : Finite A) (hx : ∀ i, xv A i d = (x i : EReal)) (hs : A.ms (ix1 d) = (s : EReal))
    (g : Fin 64) : varK A g d = ((vK (fil A g) x s : ℝ) : EReal) := by
  rw [varK, meansqK_coe hf hx, meanK_coe hf hx, hs, two_eq, zero_eq, ← EReal.coe_mul, ← EReal.coe_mul,
    ← EReal.coe_sub, ← EReal.coe_mul, ← EReal.coe_add, ← EReal.coe_zero, ← coe_max]; rfl

theorem stdK_coe (hf : Finite A) (hx : ∀ i, xv A i d = (x i : EReal)) (hs : A.ms (ix1 d) = (s : EReal))
    (hε : 0 < ε) (he : eps = (ε : EReal)) (g : Fin 64) :
    stdK A g d = ((sd (fil A g) x s ε : ℝ) : EReal) := by
  rw [stdK, varK_coe hf hx hs, he, ← EReal.coe_add, Ideal.sqrt_coe,
    if_neg (not_lt.2 (by have := vK_nonneg (fil A g) x s; linarith))]; rfl

theorem scaleK_coe (hf : Finite A) (hx : ∀ i, xv A i d = (x i : EReal)) (hs : A.ms (ix1 d) = (s : EReal))
    (hw : A.gw (ix1 d) = (w : EReal)) (hε : 0 < ε) (he : eps = (ε : EReal)) (g : Fin 64) :
    scaleK A g d = ((w * (1 / sd (fil A g) x s ε) : ℝ) : EReal) := by
  rw [scaleK, stdK_coe hf hx hs hε he, hw, Ideal.div_coe (sd_pos _ _ _ hε).ne', ← EReal.coe_mul]

theorem shiftK_coe (hf : Finite A) (hx : ∀ i, xv A i d = (x i : EReal)) (hs : A.ms (ix1 d) = (s : EReal))
    (hw : A.gw (ix1 d) = (w : EReal)) (hb : A.gb (ix1 d) = (b : EReal)) (hε : 0 < ε) (he : eps = (ε : EReal))
    (g : Fin 64) :
    shiftK A g d
      = ((b - (mu (fil A g) x * s) * (w * (1 / sd (fil A g) x s ε)) : ℝ) : EReal) := by
  rw [shiftK, scaleK_coe hf hx hs hw hε he, meanK_coe hf hx, hs, hb, ← EReal.coe_mul, ← EReal.coe_mul,
    ← EReal.coe_sub]

theorem tab_lo (A : Args) (g : Fin 64) (d : Fin 128) (h : d.val < 256) :
    tab A g ⟨d.val, h⟩ = scaleK A g d := by
  unfold tab
  rw [dif_pos (show (⟨d.val, h⟩ : Fin 256).val < 128 from d.isLt)]

theorem tab_hi (A : Args) (g : Fin 64) (d : Fin 128) (h : 128 + d.val < 256) :
    tab A g ⟨128 + d.val, h⟩ = shiftK A g d := by
  unfold tab
  rw [dif_neg (show ¬ (⟨128 + d.val, h⟩ : Fin 256).val < 128 from by simp)]
  have : (⟨(⟨128 + d.val, h⟩ : Fin 256).val - 128, by simp⟩ : Fin 128) = d := Fin.ext (by simp)
  simp only [this]

/-- The tiled road's result as a real number. -/
theorem outK_coe (hr : InRange A) (hf : Finite A) (hx : ∀ i, xv A i d = (x i : EReal))
    (hs : A.ms (ix1 d) = (s : EReal)) (hw : A.gw (ix1 d) = (w : EReal)) (hb : A.gb (ix1 d) = (b : EReal))
    (hε : 0 < ε) (he : eps = (ε : EReal)) (e : Fin 500000) :
    outK A e d
      = ((x e * (w * (1 / sd (fil A (gsel A e)) x s ε))
          + (b - (mu (fil A (gsel A e)) x * s) * (w * (1 / sd (fil A (gsel A e)) x s ε))) : ℝ) : EReal) := by
  have h1 : gath A e ⟨d.val, by omega⟩ = scaleK A (gsel A e) d := by
    rw [gath_eq hr e _ ⟨_, by rw [tab_lo, scaleK_coe hf hx hs hw hε he]⟩, tab_lo]
  have h2 : gath A e ⟨128 + d.val, by omega⟩ = shiftK A (gsel A e) d := by
    rw [gath_eq hr e _ ⟨_, by rw [tab_hi, shiftK_coe hf hx hs hw hb hε he]⟩, tab_hi]
  rw [outK, h1, h2, scaleK_coe hf hx hs hw hε he, shiftK_coe hf hx hs hw hb hε he, hx, ← EReal.coe_mul,
    ← EReal.coe_add]

theorem cntR_coe (g : Fin 64) : cntR A g = ((cnt (fil A g) : ℝ) : EReal) := by
  rw [cntR, zero_eq, one_eq, zero_add, Finset.sum_const, EReal.nsmul_eq_mul, mul_one, ← EReal.coe_one, cnt, coe_max]
  rfl

theorem meanR_coe (hx : ∀ i, xv A i d = (x i : EReal)) (g : Fin 64) :
    meanR A g d = ((mu (fil A g) x : ℝ) : EReal) := by
  have hsum : ∑ i ∈ fil A g, xv A i d = ((∑ i ∈ fil A g, x i : ℝ) : EReal) := by
    rw [coe_sum]; exact Finset.sum_congr rfl fun i _ => hx i
  rw [meanR, zero_eq, zero_add, hsum, cntR_coe, Ideal.div_coe (cnt_ne_zero _), ← EReal.coe_mul]; rfl

theorem ctr_coe (hx : ∀ i, xv A i d = (x i : EReal)) (hs : A.ms (ix1 d) = (s : EReal)) (i : Fin 500000) :
    ctr A i d = ((x i - mu (fil A (gsel A i)) x * s : ℝ) : EReal) := by
  rw [ctr, hx, meanR_coe hx, hs, ← EReal.coe_mul, ← EReal.coe_sub]

theorem varR_coe (hx : ∀ i, xv A i d = (x i : EReal)) (hs : A.ms (ix1 d) = (s : EReal)) (g : Fin 64) :
    varR A g d = ((vR (fil A g) x s : ℝ) : EReal) := by
  have hsum : ∑ i ∈ fil A g, ctr A i d * ctr A i d
      = ((∑ i ∈ fil A g, (x i - mu (fil A g) x * s) * (x i - mu (fil A g) x * s) : ℝ) : EReal) := by
    rw [coe_sum]
    refine Finset.sum_congr rfl fun i hi => ?_
    rw [ctr_coe hx hs, gsel_of_sel (Finset.mem_filter.1 hi).2, ← EReal.coe_mul]
  rw [varR, zero_eq, zero_add, hsum, cntR_coe, Ideal.div_coe (cnt_ne_zero _), ← EReal.coe_mul]; rfl

theorem stdR_coe (hx : ∀ i, xv A i d = (x i : EReal)) (hs : A.ms (ix1 d) = (s : EReal))
    (hε : 0 < ε) (he : eps = (ε : EReal)) (g : Fin 64) :
    stdR A g d = ((sd (fil A g) x s ε : ℝ) : EReal) := by
  rw [stdR, varR_coe hx hs, he, ← EReal.coe_add, Ideal.sqrt_coe,
    if_neg (not_lt.2 (by have := vR_nonneg (fil A g) x s; linarith)), sd, vK_eq_vR]

/-- The direct road's result as a real number. -/
theorem outR_coe (hx : ∀ i, xv A i d = (x i : EReal))
    (hs : A.ms (ix1 d) = (s : EReal)) (hw : A.gw (ix1 d) = (w : EReal)) (hb : A.gb (ix1 d) = (b : EReal))
    (hε : 0 < ε) (he : eps = (ε : EReal)) (e : Fin 500000) :
    outR A e d
      = ((((x e - mu (fil A (gsel A e)) x * s) * (1 / sd (fil A (gsel A e)) x s ε)) * w + b : ℝ) : EReal) := by
  rw [outR, ctr_coe hx hs, stdR_coe hx hs hε he, hw, hb, Ideal.div_coe (sd_pos _ _ _ hε).ne', ← EReal.coe_mul,
    ← EReal.coe_mul, ← EReal.coe_add]

end Bookkeeping

end Bridge

/-- Where every float argument is real and every label a graph number, the two roads agree at every entry. -/
theorem outK_eq_outR (A : Args) (hr : InRange A) (hf : Finite A) (e : Fin 500000) (d : Fin 128) :
    outK A e d = outR A e d := by
  choose x hx using fun i => xv_real hf i d
  obtain ⟨w, hw⟩ := hf.gw (ix1 d)
  obtain ⟨b, hb⟩ := hf.gb (ix1 d)
  obtain ⟨s, hs⟩ := hf.ms (ix1 d)
  obtain ⟨ε, hε, he⟩ := eps_pos
  rw [Bridge.outK_coe hr hf hx hs hw hb hε he, Bridge.outR_coe hx hs hw hb hε he, EReal.coe_eq_coe_iff]
  exact Bridge.affine_eq _ _ _ _ _ _

end Cert.EdgeNorm

end
-- ==== Proof.PreFacts.lean ====
/-
  The precondition, decoded: every float argument is real and every label is a graph number.

  The precondition tests each float array entry by entry for "absolute value strictly below +∞", joins each array's
  tests by "and" over all its entries, tests each label word for "at least 0 and below 64" as a signed number, joins
  those likewise, and joins the twelve results by "and". On the extended reals an absolute value max x (−x) below +∞
  excludes exactly x = +∞ and x = −∞, so x is a real number; and a 32-bit word in [0, 64) signed is below 64 unsigned.
-/
import proofs.«429340_j53730040873192_3_alg».proof.Pre_finite_inputs
import proofs.«429340_j53730040873192_3_alg».proof.Proof.Gen.Pre_finite_inputs
import proofs.«429340_j53730040873192_3_alg».proof.Proof.Spec
import Idealize.ShloMosaic.Lib.ReduceAll

noncomputable section

namespace Cert.EdgeNorm

open Idealize.ShloMosaic Idealize.ShloMosaic.ValueIdx

namespace PreFacts

/-- The single-precision pattern with every exponent bit set and no fraction bit denotes +∞. -/
theorem inf_eq : Ideal.ofBits .f32 0x7F800000#32 = (⊤ : EReal) := by
  simp [Ideal.ofBits, Ideal.ieee]

/-- A number whose absolute value lies strictly below +∞ is real: at −∞ and at +∞ the absolute value is +∞. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => exact absurd h (by simp [Ideal.cmp])
  | coe r => exact ⟨r, rfl⟩
  | top => exact absurd h (by simp [Ideal.cmp])

/-- The shape with no axes has one index. -/
theorem subsingleton_idx0 : Subsingleton (⟨0, ![]⟩ : Shape).Idx := ⟨fun a b => funext fun d => d.elim0⟩

/-- An array whose test "absolute value below +∞", taken entry by entry and joined by "and" over all its axes, comes
    out one has real entries only; whatever the array's shape. -/
theorem isReal_of_all {s : Shape} {axes : List (Fin s.rank)} (x : s.Idx → EReal)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
        (cmpf (F := Ideal) (φ := .f32) .olt (Host.absf (F := Ideal) (φ := .f32) x)
          (broadcastInDim s ![] hb (constant (F := Ideal) (⟨0, ![]⟩ : Shape) .f32 0x7F800000#32)))
        (constantI (⟨0, ![]⟩ : Shape) 1 1#1) hr h0 ix0 = 1#1) : IsReal x := by
  intro i
  haveI := subsingleton_idx0
  -- the joined test is one, so the test at entry i is one; that test is the comparison of max (x i) (−(x i)) with +∞
  exact real_of_abs_lt (x i) (Host.reduce_andi_all _ _ hr h0 ix0 e i)

/-- A 32-bit word that is at least 0 and below 64 as a signed number is below 64 as an unsigned one: a word read
    signed is its unsigned value, less 2³² when that value is 2³¹ or more, and the latter is negative. -/
theorem label_lt (w : BitVec 32) (h0 : IntOp.cmpi .sge w 0#32 = 1#1) (h1 : IntOp.cmpi .slt w 64#32 = 1#1) :
    w.toNat < 64 := by
  have g0 : (0#32 : BitVec 32).toInt ≤ w.toInt := IntOp.cmpi_sge.1 h0
  have g1 : w.toInt < (64#32 : BitVec 32).toInt := IntOp.cmpi_slt.1 h1
  have e0 : (0#32 : BitVec 32).toInt = 0 := by decide
  have e64 : (64#32 : BitVec 32).toInt = 64 := by decide
  rw [e0] at g0
  rw [e64] at g1
  rw [BitVec.toInt_eq_toNat_cond] at g0 g1
  have := w.isLt
  split at g0 <;> omega

end PreFacts

open PreFacts

/-- The printed precondition at the twelve arrays says: real entries, labels in 0..63. -/
theorem of_pre [Cert.Pre_finite_inputs.Facts] (A : Args)
    (h : Cert.Pre_finite_inputs.fn (F := Ideal) A.src A.dest A.edge A.u A.batch A.W1 A.b1 A.W2 A.b2 A.gw A.gb A.ms
      = fun _ => 1#1) : Finite A ∧ InRange A := by
  haveI := subsingleton_idx0
  -- the result array has one index; read the equation there
  have e : Cert.Pre_finite_inputs.fn (F := Ideal) A.src A.dest A.edge A.u A.batch A.W1 A.b1 A.W2 A.b2 A.gw A.gb A.ms ix0
      = 1#1 := congrFun h ix0
  dsimp only [Cert.Pre_finite_inputs.fn, Cert.Pre_finite_inputs.fn_part1, Cert.Pre_finite_inputs.fn_part2,
    Cert.Pre_finite_inputs.fn_part3] at e
  -- a conjunction of twelve, nested to the left: the labels' test is outermost, then the float arrays last to first
  obtain ⟨e, hlab⟩ := IntOp.andi_eq_one.1 e
  obtain ⟨e, hms⟩ := IntOp.andi_eq_one.1 e
  obtain ⟨e, hgb⟩ := IntOp.andi_eq_one.1 e
  obtain ⟨e, hgw⟩ := IntOp.andi_eq_one.1 e
  obtain ⟨e, hb2⟩ := IntOp.andi_eq_one.1 e
  obtain ⟨e, hW2⟩ := IntOp.andi_eq_one.1 e
  obtain ⟨e, hb1⟩ := IntOp.andi_eq_one.1 e
  obtain ⟨e, hW1⟩ := IntOp.andi_eq_one.1 e
  obtain ⟨e, hu⟩ := IntOp.andi_eq_one.1 e
  obtain ⟨e, hedge⟩ := IntOp.andi_eq_one.1 e
  obtain ⟨hsrc, hdest⟩ := IntOp.andi_eq_one.1 e
  refine ⟨⟨isReal_of_all _ _ _ _ hsrc, isReal_of_all _ _ _ _ hdest, isReal_of_all _ _ _ _ hedge,
    isReal_of_all _ _ _ _ hu, isReal_of_all _ _ _ _ hW1, isReal_of_all _ _ _ _ hb1, isReal_of_all _ _ _ _ hW2,
    isReal_of_all _ _ _ _ hb2, isReal_of_all _ _ _ _ hgw, isReal_of_all _ _ _ _ hgb, isReal_of_all _ _ _ _ hms⟩, ?_⟩
  -- the labels: the joined test is one, so edge k's test is one, and that test is the conjunction of the two compares
  intro k
  have hk := Host.reduce_andi_all _ _ _ _ ix0 hlab (ix1 k)
  obtain ⟨hk0, hk1⟩ := IntOp.andi_eq_one.1 hk
  exact label_lt _ hk0 hk1

end Cert.EdgeNorm

end
-- ==== Proof.lean ====
/-
  The kernel and its reference agree on the extended reals.

  Both programs update each edge's row through the same two affine layers and then normalise the rows graph by
  graph. The kernel sums each graph's rows and their squares tile by tile through zero-one selection products (split
  over two halves of the tiles, each product taken twice: of the value and of the value less itself, which is zero
  where the value is real), forms the variance from the two moments and clamps it at zero, and applies a per-graph
  scale and shift looked up by the same selection products; the reference sums over each graph's edges directly,
  centres every row by its graph's scaled mean, averages the squares, and divides. Where every float argument is
  real and every label names a graph the two are one function: the moments' form of the variance is the mean of the
  centred squares (so it is not negative and the clamp does nothing), and x·(w/σ) + (b − μ s w/σ) = (x − μ s)/σ·w + b.

  The three programs run, leaving their arguments as launched (the frames); the idealized kernel differs from the
  kernel by one removed round trip through the narrow format; and the two idealized programs end with equal results:
  the kernel's result array read through its two regions (Proof/KValue.lean), the reference's through its operations
  (Proof/RefValue.lean), joined by the identity above (Proof/Bridge.lean) under what the precondition says
  (Proof/PreFacts.lean).
-/
import proofs.«429340_j53730040873192_3_alg».proof.Defs
import proofs.«429340_j53730040873192_3_alg».proof.Proof.Gen.Kernel
import proofs.«429340_j53730040873192_3_alg».proof.Proof.Gen.Kernel.Frame
import proofs.«429340_j53730040873192_3_alg».proof.Proof.Gen.KernelIdeal
import proofs.«429340_j53730040873192_3_alg».proof.Proof.Gen.KernelIdeal.Frame
import proofs.«429340_j53730040873192_3_alg».proof.Proof.Gen.ReferenceIdeal
import proofs.«429340_j53730040873192_3_alg».proof.Proof.Gen.Pre_finite_inputs
import proofs.«429340_j53730040873192_3_alg».proof.Proof.Gen.ReferenceIdeal.Run
import proofs.«429340_j53730040873192_3_alg».proof.Proof.Gen.ReferenceIdeal.Read
import proofs.«429340_j53730040873192_3_alg».proof.Proof.KRun
import proofs.«429340_j53730040873192_3_alg».proof.Proof.KValue
import proofs.«429340_j53730040873192_3_alg».proof.Proof.RefValue
import proofs.«429340_j53730040873192_3_alg».proof.Proof.Bridge
import proofs.«429340_j53730040873192_3_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem Cert.EdgeNorm

/-- The kernel program runs and leaves its arguments as launched. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- So does the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The one rewrite of the idealization: widening a value just narrowed gives the value back, at the exact instance. -/
theorem preserves : Cert.preserves_Kernel_KernelIdeal :=
  IdealRules.truncf_extf.statement _ .f32 .bf16

/-- From memories agreeing on the arguments the two idealized programs end with equal results. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hP : ∀ c, Finite (argsK m c) ∧ InRange (argsK m c) := fun c =>
    @of_pre Cert.Pre_finite_inputs.Gen.facts (argsK m c) (hpre c)
  refine ⟨fun c => Cert.KernelIdeal.Gen.W4 m ρ c (Proc.devRef .tc Cert.KernelIdeal.main_v48),
    Cert.KernelIdeal.Named.run m ρ, ?_⟩
  refine (θ_run Cert.ReferenceIdeal.defs _ _).mono (fun r h c => ⟨?_, (h c).2⟩)
    (Cert.ReferenceIdeal.Value.run (F := Ideal) m' ρ')
  obtain ⟨a0, a1, a2, a3, a4, a5, a6, a7, a8, a9, a10, a11⟩ := hagree c
  rw [(h c).1, Cert.ReferenceIdeal.Read.val_main_v63_eq, a0, a1, a2, a3, a4, a5, a6, a7, a8, a9, a10, a11]
  funext i
  obtain ⟨e, d, rfl⟩ : ∃ (e : Fin 500000) (d : Fin 128), i = ix2 e d := ⟨i 0, i 1, eq_ix2 i⟩
  exact (Ref.ref_value (argsK m c) (hP c).2 e d).trans
    ((outK_eq_outR (argsK m c) (hP c).2 (hP c).1 e d).symm.trans (result_value m ρ c (hP c).2 e d).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
